-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_count" .f32 0x392AAAAB#32 ((1 / 6144 : ℝ) : EReal)

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S6144x768 : Shape := ⟨2, ![6144, 768]⟩
abbrev S_ : Shape := ⟨0, ![]⟩

class Facts : Prop where
  bcast_S_S6144x768 : S_.BroadcastsInDim S6144x768 (![] : Fin 0 → Fin S6144x768.rank)
  reducesTo_S6144x768_S_d0_1 : S6144x768.ReducesTo [0, 1] S_
  h_S_ : 0 < S_.numel

variable [Facts]

def fn {F : FTy → Type} [FloatOps F] (main_arg0 : FVec F S6144x768 .f32) : IVec S_ 1 :=
  let main_v0 : FVec F S6144x768 .f32 := Host.absf main_arg0
  let main_cst : FVec F S_ .f32 := constant S_ .f32 0x7F800000#32
  let main_v1 : FVec F S6144x768 .f32 := broadcastInDim S6144x768 ![] bcast_S_S6144x768 main_cst
  let main_v2 : IVec S6144x768 1 := cmpf .olt main_v0 main_v1
  let main_c : IVec S_ 1 := constantI S_ 1 1#1
  let main_v3 : IVec S_ 1 := (fun x v => Host.reduce IntOp.andi x v reducesTo_S6144x768_S_d0_1 h_S_) main_v2 main_c
  main_v3
-- ==== Kernel.lean ====
abbrev S1536x768 : Shape := ⟨2, ![1536, 768]⟩
abbrev S1x768 : Shape := ⟨2, ![1, 768]⟩
abbrev S3x1x768 : Shape := ⟨3, ![3, 1, 768]⟩
abbrev S3 : Shape := ⟨1, ![3]⟩
abbrev S_ : Shape := ⟨0, ![]⟩
abbrev S768 : Shape := ⟨1, ![768]⟩
abbrev S1 : Shape := ⟨1, ![1]⟩
abbrev S1x1x768 : Shape := ⟨3, ![1, 1, 768]⟩

abbrev nBuf : Space → Nat
  | .hbm => 2
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S1x768, .f32⟩
  | .local _ .vmem, ⟨3, _⟩ => ⟨S3x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v23 : BitVec 32 := Scalar.addi v2 c1_i32_16
  let c4_i32_17 : BitVec 32 := 4#32
  let v24 : BitVec 32 := Scalar.remsi v23 c4_i32_17
  let c1_i32_21 : BitVec 32 := 1#32
  let v25 : BitVec 32 := Scalar.muli v24 c1_i32_21
  let v26 : BitVec 32 := Scalar.addi c0_i32_22 v25
  v26.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_25 : BitVec 32 := 2#32
  let v33 : BitVec 32 := Scalar.addi v2 c2_i32_25
  let c4_i32_26 : BitVec 32 := 4#32
  let v34 : BitVec 32 := Scalar.remsi v33 c4_i32_26
  let c1_i32_30 : BitVec 32 := 1#32
  let v35 : BitVec 32 := Scalar.muli v34 c1_i32_30
  let v36 : BitVec 32 := Scalar.addi c0_i32_31 v35
  v36.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v43 : BitVec 32 := Scalar.addi v2 c3_i32_34
  let c4_i32_35 : BitVec 32 := 4#32
  let v44 : BitVec 32 := Scalar.remsi v43 c4_i32_35
  let c1_i32_39 : BitVec 32 := 1#32
  let v45 : BitVec 32 := Scalar.muli v44 c1_i32_39
  let v46 : BitVec 32 := Scalar.addi c0_i32_40 v45
  v46.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  hamt_3 : (3#32 : BitVec 32).msb = false
  inb_S3_S1_0 : ∀ a, (![0] : Fin 1 → Nat) a + S1.size a ≤ S3.size a
  squeezes_S1_S_ : S1.Squeezes S_
  inb_S3x1x768_S1x1x768_0_0_0 : ∀ a, (![0, 0, 0] : Fin 3 → Nat) a + S1x1x768.size a ≤ S3x1x768.size a
  squeezes_S1x1x768_S1x768 : S1x1x768.Squeezes S1x768
  inb_S3_S1_1 : ∀ a, (![1] : Fin 1 → Nat) a + S1.size a ≤ S3.size a
  inb_S3x1x768_S1x1x768_1_0_0 : ∀ a, (![1, 0, 0] : Fin 3 → Nat) a + S1x1x768.size a ≤ S3x1x768.size a
  inb_S3_S1_2 : ∀ a, (![2] : Fin 1 → Nat) a + S1.size a ≤ S3.size a
  inb_S3x1x768_S1x1x768_2_0_0 : ∀ a, (![2, 0, 0] : Fin 3 → Nat) a + S1x1x768.size a ≤ S3x1x768.size a
  h_S1x1x768 : 0 < S1x1x768.numel
  shapeCasts_S1x1x768_S1x768 : S1x1x768.ShapeCasts S1x768
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S6144x768 : Shape := ⟨2, ![6144, 768]⟩
abbrev S_ : Shape := ⟨0, ![]⟩
abbrev S768 : Shape := ⟨1, ![768]⟩
abbrev S1x768 : Shape := ⟨2, ![1, 768]⟩

abbrev nBuf : Space → Nat
  | .hbm => 7
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S_, .f32⟩
  | .hbm, ⟨2, _⟩ => ⟨S768, .f32⟩
  | .hbm, ⟨3, _⟩ => ⟨S1x768, .f32⟩
  | .hbm, ⟨4, _⟩ => ⟨S_, .f32⟩
  | .hbm, ⟨5, _⟩ => ⟨S1x768, .f32⟩
  | .hbm, ⟨6, _⟩ => ⟨S1x768, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S6144x768_S768_d0 : S6144x768.ReducesTo [0] S768
  h_S_ : 0 < S_.numel
  bcast_S768_S1x768_1 : S768.BroadcastsInDim S1x768 (![1] : Fin 1 → Fin S1x768.rank)
  bcast_S_S1x768 : S_.BroadcastsInDim S1x768 (![] : Fin 0 → Fin S1x768.rank)

variable [Facts₀]

class Facts : Prop extends Facts₀ where

variable [Facts]
-- ==== Proof.Proto.lean ====
/-
  The cross-device protocol of the four-device mean, stated once for any float instance.

  Device c adds its own 1536 rows of x column by column (its PARTIAL, a row of 768), tells each of the other three
  devices it is inside the kernel (one unit on their barrier semaphore each), waits for its own three units, copies its
  partial into slot k-1 of the landing buffer of device c+k (k = 1, 2, 3), adds the three partials that land in its own
  slots to its own, scales by the named 1/6144, and waits for its three copies to have left.

  Cells of a device: its barrier cell (three duties of one unit, duty j paid by device c+(3-j), whose payload is that
  device's slot 2-j, which c will write, and that its receive cell for that slot is at round 0), three send cells (one
  duty, paid by the device's own copy k, giving back the share of the partial that copy read) and three receive cells
  (one duty, paid by the copy of device c+(3-k), whose payload is slot k holding that device's partial).
-/
import proofs.«900945_g7700000000000946_dist_mean_ax0_shard0_i_m1536_n768_v7x_i4_f32_1_alg».proof.Proof.Gen.KernelIdeal
import proofs.«900945_g7700000000000946_dist_mean_ax0_shard0_i_m1536_n768_v7x_i4_f32_1_alg».proof.Proof.Gen.KernelIdeal.Skeleton
import proofs.«900945_g7700000000000946_dist_mean_ax0_shard0_i_m1536_n768_v7x_i4_f32_1_alg».proof.Proof.Gen.KernelIdeal.Launch
import proofs.«900945_g7700000000000946_dist_mean_ax0_shard0_i_m1536_n768_v7x_i4_f32_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy beside the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def st₀ : MemSt nD τ sig (Elt F) := ⟨m, fun _ => 0, ρ⟩

/-! ## The mesh as a cycle -/

/-- The device `k` places after `c`. -/
def fwd (k : ℕ) (c : Dev nD) : Dev nD := ⟨(c.val + k) % 4, Nat.mod_lt _ (by decide)⟩

theorem fwd13 (c : Dev nD) : fwd 1 (fwd 3 c) = c := by revert c; decide
theorem fwd31 (c : Dev nD) : fwd 3 (fwd 1 c) = c := by revert c; decide
theorem fwd22 (c : Dev nD) : fwd 2 (fwd 2 c) = c := by revert c; decide

def rot1 : Dev nD ≃ Dev nD := ⟨fwd 1, fwd 3, fwd31, fwd13⟩
def rot2 : Dev nD ≃ Dev nD := ⟨fwd 2, fwd 2, fwd22, fwd22⟩
def rot3 : Dev nD ≃ Dev nD := ⟨fwd 3, fwd 1, fwd13, fwd31⟩

/-- The kernel's device chains: signals and copies `k` go to the device `k` places on. -/
theorem dev1_eq (c : Dev nD) : (⟨k0_dev1 c, k0_dev1_lt c⟩ : Dev nD) = fwd 1 c := Fin.ext (k0_dev1_eq c)
theorem dev2_eq (c : Dev nD) : (⟨k0_dev2 c, k0_dev2_lt c⟩ : Dev nD) = fwd 2 c := Fin.ext (k0_dev2_eq c)
theorem dev3_eq (c : Dev nD) : (⟨k0_dev3 c, k0_dev3_lt c⟩ : Dev nD) = fwd 3 c := Fin.ext (k0_dev3_eq c)
theorem dev4_eq (c : Dev nD) : (⟨k0_dev4 c, k0_dev4_lt c⟩ : Dev nD) = fwd 1 c := Fin.ext (k0_dev4_eq c)
theorem dev5_eq (c : Dev nD) : (⟨k0_dev5 c, k0_dev5_lt c⟩ : Dev nD) = fwd 2 c := Fin.ext (k0_dev5_eq c)
theorem dev6_eq (c : Dev nD) : (⟨k0_dev6 c, k0_dev6_lt c⟩ : Dev nD) = fwd 3 c := Fin.ext (k0_dev6_eq c)

/-! ## The memrefs and cells -/

abbrev xM : Memref sig .tc .vmem S1536x768 .f32 := Memref.whole cc0_stg0_0
abbrev oM : Memref sig .tc .vmem S1x768 .f32 := Memref.whole cc0_stg1_0
abbrev pM : Memref sig .tc .vmem S1x768 .f32 := Memref.whole cc0_scratch0
abbrev cM : Memref sig .tc .vmem S3x1x768 .f32 := Memref.whole cc0_scratch1

/-- The three slots of the landing buffer, as the body spells them. -/
abbrev rc0 : Rect S3x1x768 := Rect.unit (s := S3x1x768) ![0, 0, 0] S1x1x768.size inb_S3x1x768_S1x1x768_0_0_0
abbrev rc1 : Rect S3x1x768 := Rect.unit (s := S3x1x768) ![1, 0, 0] S1x1x768.size inb_S3x1x768_S1x1x768_1_0_0
abbrev rc2 : Rect S3x1x768 := Rect.unit (s := S3x1x768) ![2, 0, 0] S1x1x768.size inb_S3x1x768_S1x1x768_2_0_0
abbrev slot0 : Memref sig .tc .vmem S1x768 .f32 := (cM.slice rc0 (fun _ => rfl)).squeeze S1x768 squeezes_S1x1x768_S1x768
abbrev slot1 : Memref sig .tc .vmem S1x768 .f32 := (cM.slice rc1 (fun _ => rfl)).squeeze S1x768 squeezes_S1x1x768_S1x768
abbrev slot2 : Memref sig .tc .vmem S1x768 .f32 := (cM.slice rc2 (fun _ => rfl)).squeeze S1x768 squeezes_S1x1x768_S1x768
abbrev slot : Fin 3 → Memref sig .tc .vmem S1x768 .f32 := fun | 0 => slot0 | 1 => slot1 | 2 => slot2

/-- The runtime's barrier semaphore of collective id 0; the send and receive DMA semaphores of copy `k`. -/
abbrev barS : Sem sig := (SemArray.scalar (sig.barrier 0 rfl) : Sems sig S_).sem
abbrev sendS : Fin 3 → DmaSem sig := fun | 0 => 2 | 1 => 3 | 2 => 4
abbrev recvS : Fin 3 → DmaSem sig := fun | 0 => 5 | 1 => 6 | 2 => 7

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's own (scoped) semaphores as the launch theorem indexes them: send 0..2, receive 0..2; -/
abbrev osem : Fin 6 → SemLoc sig := fun | 0 => .dma 2 | 1 => .dma 3 | 2 => .dma 4 | 3 => .dma 5 | 4 => .dma 6 | 5 => .dma 7
/-- all seven of the protocol's: barrier, send 0..2, receive 0..2. -/
abbrev csem : Fin 7 → SemLoc sig := fun | 0 => .reg barS | 1 => .dma 2 | 2 => .dma 3 | 3 => .dma 4 | 4 => .dma 5 | 5 => .dma 6 | 6 => .dma 7
abbrev kcell (ck : Dev nD × Fin 7) : GSem nD τ sig := ((ck.1 : Thread nD τ), csem ck.2)

/-- The units one copy of a row of 768 credits. -/
abbrev N : ℕ := (pM : Memref sig .tc .vmem S1x768 .f32).view.dmaCredit
theorem N_pos : 0 < N := View.dmaCredit_pos _ (by decide)

/-- The shares of the partial the three copies read; the fourth, `qL`, stays with the device (it loads the partial
    while the copies are in flight). -/
abbrev qS : Fin 3 → PosShare TreeShare := fun | 0 => fullShare.left.left | 1 => fullShare.left.right | 2 => fullShare.right.left
abbrev qL : PosShare TreeShare := fullShare.right.right

/-! ## Contents -/

/-- Device `c`'s block of x, as staged. -/
def xstg (c : Dev nD) : (cc0_stg0_0 : Ref sig .tc).ty.Contents (Elt F) :=
  (win0_0.blk (0 : Fin 1)).view.read (Elt F) ((st₀ m ρ).mem ((c : Thread nD τ).loc main_arg0))

/-- Device `c`'s partial: the column sums of its block. -/
def part (c : Dev nD) : (cc0_scratch0 : Ref sig .tc).ty.Contents (Elt F) := k0_pay1 (xstg m ρ c)

/-- A row of 768 as the one-row slice a load of a slot reads. -/
def lift3 (p : (cc0_scratch0 : Ref sig .tc).ty.Contents (Elt F)) : Vec F S1x1x768 .f32 :=
  fun i => p (ValueIdx.ix2 (0 : Fin 1) (i 2))

/-- Device `c`'s landing buffer once all three copies have landed: slot `k` holds the partial of the device
    `3 - k` places on (the one `k + 1` places back). -/
def commVal (c : Dev nD) : (cc0_scratch1 : Ref sig .tc).ty.Contents (Elt F) :=
  fun i => part m ρ (fwd (3 - (i 0).val) c) (ValueIdx.ix2 (0 : Fin 1) (i 2))

/-- The kernel's result on device `c`: its partial plus the three that landed, in the order the body adds them
    (slot 0, slot 2, slot 1), scaled. -/
def outAt (c : Dev nD) : (cc0_stg1_0 : Ref sig .tc).ty.Contents (Elt F) :=
  k0_pay2 (part m ρ c) (lift3 (part m ρ (fwd 3 c))) (lift3 (part m ρ (fwd 1 c))) (lift3 (part m ρ (fwd 2 c)))

/-! ## Points-to of the buffers the protocol moves -/

def slotPts (c : Dev nD) (k : Fin 3) (f : Buf (Elt F) ((c : Thread nD τ).loc cc0_scratch1)) : sProp 𝕄 :=
  match k with
  | 0 => (slot0 : Memref sig .tc .vmem S1x768 .f32).view.loc (c : Thread nD τ) ↦[(slot0 : Memref sig .tc .vmem S1x768 .f32).view.set]{fullShare} f
  | 1 => (slot1 : Memref sig .tc .vmem S1x768 .f32).view.loc (c : Thread nD τ) ↦[(slot1 : Memref sig .tc .vmem S1x768 .f32).view.set]{fullShare} f
  | 2 => (slot2 : Memref sig .tc .vmem S1x768 .f32).view.loc (c : Thread nD τ) ↦[(slot2 : Memref sig .tc .vmem S1x768 .f32).view.set]{fullShare} f
def partPts (c : Dev nD) (q : PosShare TreeShare) : sProp 𝕄 :=
  (pM : Memref sig .tc .vmem S1x768 .f32).view.loc (c : Thread nD τ) ↦[(pM : Memref sig .tc .vmem S1x768 .f32).view.set]{q} part m ρ c

omit [FloatOps F] [Named F] in
instance slotPts_storable (c : Dev nD) (k : Fin 3) (f) : BI.Storable (upEmb : UEmb _ 𝕄) (slotPts (F := F) c k f) := by
  unfold slotPts; split <;> infer_instance
instance partPts_storable (c : Dev nD) (q) : BI.Storable (upEmb : UEmb _ 𝕄) (partPts (F := F) m ρ c q) := by unfold partPts; infer_instance

/-! ## The schedule -/

/-- Duty `j` of `c`'s barrier cell, paid by the device `3 - j` places on: that device's slot `2 - j` (any contents),
    and that its receive cell for the slot is at round 0. -/
def barPay (c : Dev nD) (j : Fin 3) : sProp 𝕄 :=
  iprop((∃ f, slotPts (fwd (3 - j.val) c) (Fin.rev j) f) ∗ reached ER (recvCell (fwd (3 - j.val) c) (Fin.rev j)) 0)
def recvPay (c : Dev nD) (k : Fin 3) : sProp 𝕄 := slotPts c k (commVal m ρ c)
def sendPay (c : Dev nD) (k : Fin 3) : sProp 𝕄 := partPts m ρ c (qS k)

abbrev IsBar (g : GSem nD τ sig) : Prop := g.1.2 = .tc ∧ g.2 = .reg barS
abbrev IsSend (g : GSem nD τ sig) : Prop := g.1.2 = .tc ∧ (g.2 = .dma 2 ∨ g.2 = .dma 3 ∨ g.2 = .dma 4)
abbrev IsRecv (g : GSem nD τ sig) : Prop := g.1.2 = .tc ∧ (g.2 = .dma 5 ∨ g.2 = .dma 6 ∨ g.2 = .dma 7)

/-- Which copy a DMA semaphore of the protocol belongs to. -/
def copyOf (s : SemLoc sig) : Fin 3 :=
  if s = .dma 2 ∨ s = .dma 5 then 0 else if s = .dma 3 ∨ s = .dma 6 then 1 else 2

/-- One round, round 0: a barrier cell has three duties of one unit; a send or receive cell one duty, `0`, of the
    row's credit. -/
def sched : Rounds.Schedule (GSem nD τ sig) (Fin 3) 𝕄 where
  duties g r := if r = 0 ∧ IsBar g then Finset.univ else if r = 0 ∧ (IsSend g ∨ IsRecv g) then {0} else ∅
  unitless _ := False
  amount g _ _ := if g.2 = .reg barS then 1 else N
  payload g _ d :=
    if g.2 = .reg barS then barPay g.1.1 d
    else if IsRecv g then recvPay m ρ g.1.1 (copyOf g.2)
    else if IsSend g then sendPay m ρ g.1.1 (copyOf g.2)
    else iprop(emp)
  amount_pos g _ _ _ := by
    by_cases h : g.2 = .reg barS
    · rw [if_pos h]; exact Nat.one_pos
    · rw [if_neg h]; exact N_pos

/-! ## What each core owes at launch; the levels -/

/-- Device `c` owes each other device's barrier cell one unit and the receive cell of the slot it writes there the
    row's credit, summed in the order the body pays them off (the last summand first). -/
def O₅ (c : Dev nD) : CellTallies nD τ sig Unit := tallyAt (recvCell (fwd 3 c) 2) () N
def O₄ (c : Dev nD) : CellTallies nD τ sig Unit := O₅ c + tallyAt (recvCell (fwd 2 c) 1) () N
def O₃ (c : Dev nD) : CellTallies nD τ sig Unit := O₄ c + tallyAt (recvCell (fwd 1 c) 0) () N
def O₂ (c : Dev nD) : CellTallies nD τ sig Unit := O₃ c + tallyAt (barCell (fwd 3 c)) () 1
def O₁ (c : Dev nD) : CellTallies nD τ sig Unit := O₂ c + tallyAt (barCell (fwd 2 c)) () 1
def O₀ (c : Dev nD) : CellTallies nD τ sig Unit := O₁ c + tallyAt (barCell (fwd 1 c)) () 1

def L (g : GSem nD τ sig) : Finset Unit := if g.1.2 = .tc then {()} else ∅
/-- barrier cells at 1, receive cells at 2, everything else (staging, send) at 0. -/
def lv (g : GSem nD τ sig) (_ : Unit) : ℕ :=
  if g.2 = .reg barS then 1 else if g.2 = .dma 5 ∨ g.2 = .dma 6 ∨ g.2 = .dma 7 then 2 else 0

/-! ## The ghost state a device's body starts from -/

/-- The invariants device `c`'s body opens, under the names `K` the launch allocated them at. -/
def invs (K : Dev nD × Fin 7 → ℕ) (c : Dev nD) : sProp 𝕄 :=
  iprop(cellInv ER (sched m ρ) (K (c, 0)) (barCell c)
    ∗ cellInv ER (sched m ρ) (K (c, 1)) (sendCell c 0) ∗ cellInv ER (sched m ρ) (K (c, 2)) (sendCell c 1) ∗ cellInv ER (sched m ρ) (K (c, 3)) (sendCell c 2)
    ∗ cellInv ER (sched m ρ) (K (c, 4)) (recvCell c 0) ∗ cellInv ER (sched m ρ) (K (c, 5)) (recvCell c 1) ∗ cellInv ER (sched m ρ) (K (c, 6)) (recvCell c 2)
    ∗ cellInv ER (sched m ρ) (K (fwd 1 c, 0)) (barCell (fwd 1 c)) ∗ cellInv ER (sched m ρ) (K (fwd 2 c, 0)) (barCell (fwd 2 c)) ∗ cellInv ER (sched m ρ) (K (fwd 3 c, 0)) (barCell (fwd 3 c))
    ∗ cellInv ER (sched m ρ) (K (fwd 1 c, 4)) (recvCell (fwd 1 c) 0) ∗ cellInv ER (sched m ρ) (K (fwd 2 c, 5)) (recvCell (fwd 2 c) 1) ∗ cellInv ER (sched m ρ) (K (fwd 3 c, 6)) (recvCell (fwd 3 c) 2))

instance invs_persistent (K : Dev nD × Fin 7 → ℕ) (c : Dev nD) : BI.Persistent (invs m ρ K c) := by unfold invs; infer_instance

/-- Its positions at round 0 of its seven cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- The round-0 marks of the cells it pays, and of its own receive cells (which its signals hand on). -/
def marks (c : Dev nD) : sProp 𝕄 :=
  iprop(reached ER (barCell (fwd 1 c)) 0 ∗ reached ER (barCell (fwd 2 c)) 0 ∗ reached ER (barCell (fwd 3 c)) 0
    ∗ reached ER (recvCell (fwd 1 c) 0) 0 ∗ reached ER (recvCell (fwd 2 c) 1) 0 ∗ reached ER (recvCell (fwd 3 c) 2) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance marks_persistent (c : Dev nD) : BI.Persistent (marks (F := F) c) := by unfold marks; infer_instance

/-- The tokens of the nine duties it pays: duty `k - 1` of the barrier cell `k` places on, the receive duty of the
    slot it writes there, its own three send duties. -/
def payToks (c : Dev nD) : sProp 𝕄 :=
  iprop(dutyTok ER (barCell (fwd 1 c)) 0 0 ∗ dutyTok ER (barCell (fwd 2 c)) 0 1 ∗ dutyTok ER (barCell (fwd 3 c)) 0 2
    ∗ dutyTok ER (recvCell (fwd 1 c) 0) 0 0 ∗ dutyTok ER (recvCell (fwd 2 c) 1) 0 0 ∗ dutyTok ER (recvCell (fwd 3 c) 2) 0 0
    ∗ dutyTok ER (sendCell c 0) 0 0 ∗ dutyTok ER (sendCell c 1) 0 0 ∗ dutyTok ER (sendCell c 2) 0 0)

def ghost (K : Dev nD × Fin 7 → ℕ) (c : Dev nD) : sProp 𝕄 :=
  iprop(invs m ρ K c ∗ poss c ∗ marks c ∗ payToks c)

/-- Its launch credit: the three units the others owe its barrier cell, the row's credit on each receive cell. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from, beside its scratch buffers. -/
def start (c : Dev nD) : sProp 𝕄 :=
  iprop((∃ K, ghost m ρ K c) ∗ creds c ∗ levAts L lv)

/-- The two scratch buffers, whole, at some contents (as the region's entry leaves them and its exit takes them). -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The six own semaphores at zero, closed. -/
def ownZero (c : Dev nD) : sProp 𝕄 :=
  iprop(semVal (sendCell c 0) 0 ∗ semVal (sendCell c 1) 0 ∗ semVal (sendCell c 2) 0
    ∗ semVal (recvCell c 0) 0 ∗ semVal (recvCell c 1) 0 ∗ semVal (recvCell c 2) 0)

def Φ₀ (c : Dev nD) : sProp 𝕄 := iprop(start m ρ c ∗ scr c)
def Φ₁ (c : Dev nD) : sProp 𝕄 := iprop(scr c ∗ ownZero c)

/-! ## The pipeline's proof data -/

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.Proto

end
-- ==== Proof.Tables.lean ====
import proofs.«900945_g7700000000000946_dist_mean_ax0_shard0_i_m1536_n768_v7x_i4_f32_1_alg».proof.Proof.Proto

noncomputable section

namespace Cert.KernelIdeal.Tables

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The schedule's tables, cell by cell -/

section Sched
variable (c : Dev nD)

omit [FloatOps F] [Named F] in
theorem send_ne_bar (k : Fin 3) : (SemLoc.dma (sendS k) : SemLoc sig) ≠ .reg barS := fun h => by cases h
omit [FloatOps F] [Named F] in
theorem recv_ne_bar (k : Fin 3) : (SemLoc.dma (recvS k) : SemLoc sig) ≠ .reg barS := fun h => by cases h
omit [FloatOps F] [Named F] in
theorem not_bar_send (k : Fin 3) : ¬ IsBar (sendCell c k) := fun h => send_ne_bar k h.2
omit [FloatOps F] [Named F] in
theorem not_bar_recv (k : Fin 3) : ¬ IsBar (recvCell c k) := fun h => recv_ne_bar k h.2
omit [FloatOps F] [Named F] in
theorem isSend_send (k : Fin 3) : IsSend (sendCell c k) := by
  fin_cases k
  · exact ⟨rfl, .inl rfl⟩
  · exact ⟨rfl, .inr (.inl rfl)⟩
  · exact ⟨rfl, .inr (.inr rfl)⟩
omit [FloatOps F] [Named F] in
theorem isRecv_recv (k : Fin 3) : IsRecv (recvCell c k) := by
  fin_cases k
  · exact ⟨rfl, .inl rfl⟩
  · exact ⟨rfl, .inr (.inl rfl)⟩
  · exact ⟨rfl, .inr (.inr rfl)⟩
omit [FloatOps F] [Named F] in
theorem sendS_ne_recvS (k j : Fin 3) : (SemLoc.dma (sendS k) : SemLoc sig) ≠ .dma (recvS j) := by fin_cases k <;> fin_cases j <;> decide
omit [FloatOps F] [Named F] in
theorem not_recv_send (k : Fin 3) : ¬ IsRecv (sendCell c k) := fun h => by
  rcases h.2 with h | h | h
  · exact sendS_ne_recvS k 0 h
  · exact sendS_ne_recvS k 1 h
  · exact sendS_ne_recvS k 2 h
omit [FloatOps F] [Named F] in
theorem copyOf_send (k : Fin 3) : copyOf (SemLoc.dma (sendS k) : SemLoc sig) = k := by fin_cases k <;> decide
omit [FloatOps F] [Named F] in
theorem copyOf_recv (k : Fin 3) : copyOf (SemLoc.dma (recvS k) : SemLoc sig) = k := by fin_cases k <;> decide

theorem duties_bar : (sched (F := F) m ρ).duties (barCell c) 0 = Finset.univ := by dsimp only [sched]; exact if_pos ⟨rfl, rfl, rfl⟩
theorem duties_send (k : Fin 3) : (sched (F := F) m ρ).duties (sendCell c k) 0 = {0} := by
  dsimp only [sched]; rw [if_neg (fun h => not_bar_send c k h.2)]; exact if_pos ⟨rfl, .inl (isSend_send c k)⟩
theorem duties_recv (k : Fin 3) : (sched (F := F) m ρ).duties (recvCell c k) 0 = {0} := by
  dsimp only [sched]; rw [if_neg (fun h => not_bar_recv c k h.2)]; exact if_pos ⟨rfl, .inr (isRecv_recv c k)⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_send (k d : Fin 3) : (sched (F := F) m ρ).amount (sendCell c k) 0 d = N := by dsimp only [sched]; exact if_neg (send_ne_bar k)
theorem amount_recv (k d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (sched (F := F) m ρ).expect (sendCell c k) 0 = N := by
  unfold Schedule.expect Schedule.amountOf; rw [duties_send, Finset.sum_singleton, amount_send]
theorem expect_recv (k : Fin 3) : (sched (F := F) m ρ).expect (recvCell c k) 0 = N := by
  unfold Schedule.expect Schedule.amountOf; rw [duties_recv, Finset.sum_singleton, amount_recv]

theorem payload_bar (j : Fin 3) : (sched (F := F) m ρ).payload (barCell c) 0 j = barPay c j := by dsimp only [sched]; rw [if_pos rfl]
theorem payload_send (k d : Fin 3) : (sched (F := F) m ρ).payload (sendCell c k) 0 d = sendPay m ρ c k := by
  dsimp only [sched]; rw [if_neg (send_ne_bar k), if_neg (not_recv_send c k), if_pos (isSend_send c k), copyOf_send]
theorem payload_recv (k d : Fin 3) : (sched (F := F) m ρ).payload (recvCell c k) 0 d = recvPay m ρ c k := by
  dsimp only [sched]; rw [if_neg (recv_ne_bar k), if_pos (isRecv_recv c k), copyOf_recv]

/-- The whole of the barrier cell's round: the three others' slots. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## The level evidence of the barrier wait -/

omit [FloatOps F] [Named F] in
theorem L_tc (c : Dev nD) (sm : SemLoc sig) : L ((c : Thread nD τ), sm) = {()} := if_pos rfl

omit [FloatOps F] [Named F] in
theorem O₃_pos {c : Dev nD} {g : GSem nD τ sig} {u : Unit} (h : 0 < O₃ c g u) :
    g = recvCell (fwd 3 c) 2 ∨ g = recvCell (fwd 2 c) 1 ∨ g = recvCell (fwd 1 c) 0 := by
  unfold O₃ O₄ O₅ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

omit [FloatOps F] [Named F] in
theorem lv_recv (d : Dev nD) (k : Fin 3) : lv (recvCell d k) () = 2 := by
  fin_cases k <;> (dsimp only [lv]; rw [if_neg (fun h => by cases h)]; exact if_pos (by decide))

omit [Named F] in
/-- At its barrier wait a device owes only the three receive credits: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> (rw [L_tc]; exact Finset.mem_singleton_self _))
    (fun p hp => by rw [Finset.mem_singleton.mp hp]; dsimp only [lv]; rw [if_pos rfl])
    (fun g u hg => by rcases O₃_pos hg with rfl | rfl | rfl <;> (rw [lv_recv]; decide))

end Cert.KernelIdeal.Tables

end
-- ==== Proof.Views.lean ====
/-
  The views of the four-device mean's buffers, as pure facts: what the three slots of the landing buffer cover, what a
  copy into a slot leaves there, what a load of a slot reads, and the whole-buffer reads and writes of the partial, the
  result and the staged block of x.
-/
import proofs.«900945_g7700000000000946_dist_mean_ax0_shard0_i_m1536_n768_v7x_i4_f32_1_alg».proof.Proof.Proto
import Idealize.ShloMosaic.Lib.Pipeline.Value

noncomputable section

namespace Cert.KernelIdeal.Views

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Whole buffers through their full rectangle -/

/-- The full rectangle of a row of 768, and of the staged block of x. -/
abbrev r1 : Rect S1x768 := Rect.unit (s := S1x768) ![0, 0] S1x768.size inb_S1x768_S1x768_0_0
abbrev rx : Rect S1536x768 := Rect.unit (s := S1536x768) ![0, 0] S1536x768.size inb_S1536x768_S1536x768_0_0

theorem hz : (![0, 0] : Fin 2 → Nat) = fun _ => 0 := funext fun a => by fin_cases a <;> rfl

/-- A load of the whole partial reads its contents; -/
theorem read_p (f : (cc0_scratch0 : Ref sig .tc).ty.Contents (Elt F)) :
    (pM : Memref sig .tc .vmem S1x768 .f32).view.readAt (Elt F) r1.toLoadRect f = f :=
  Memref.readAt_unit_zero (Elt F) cc0_scratch0 hz _ f

/-- a store of the whole partial leaves the stored row. -/
theorem write_p (f w : (cc0_scratch0 : Ref sig .tc).ty.Contents (Elt F)) :
    ((pM : Memref sig .tc .vmem S1x768 .f32).access r1 : View sig .tc _ _ _).write (Elt F) f w Finset.univ = w :=
  Memref.write_access_unit_zero_univ (Elt F) cc0_scratch0 hz _ f w

/-- The same of the result's staging buffer, -/
theorem read_o (f : (cc0_stg1_0 : Ref sig .tc).ty.Contents (Elt F)) :
    (oM : Memref sig .tc .vmem S1x768 .f32).view.readAt (Elt F) r1.toLoadRect f = f :=
  Memref.readAt_unit_zero (Elt F) cc0_stg1_0 hz _ f

theorem write_o (f w : (cc0_stg1_0 : Ref sig .tc).ty.Contents (Elt F)) :
    ((oM : Memref sig .tc .vmem S1x768 .f32).access r1 : View sig .tc _ _ _).write (Elt F) f w Finset.univ = w :=
  Memref.write_access_unit_zero_univ (Elt F) cc0_stg1_0 hz _ f w

/-- and a load of the whole staged block of x reads it. -/
theorem read_x (f : (cc0_stg0_0 : Ref sig .tc).ty.Contents (Elt F)) :
    (xM : Memref sig .tc .vmem S1536x768 .f32).view.readAt (Elt F) rx.toLoadRect f = f :=
  Memref.readAt_unit_zero (Elt F) cc0_stg0_0 hz _ f

/-! ## What a copy into a slot credits -/

theorem amount_0 (s : DmaSem sig) : (slot0 : Memref sig .tc .vmem S1x768 .f32).view.amount (.dma s) = N := rfl
theorem amount_1 (s : DmaSem sig) : (slot1 : Memref sig .tc .vmem S1x768 .f32).view.amount (.dma s) = N := rfl
theorem amount_2 (s : DmaSem sig) : (slot2 : Memref sig .tc .vmem S1x768 .f32).view.amount (.dma s) = N := rfl
theorem amount_p (s : DmaSem sig) : (pM : Memref sig .tc .vmem S1x768 .f32).view.amount (.dma s) = N := rfl

/-! ## The slots' element sets -/

/-- Slot `k`'s elements are those of its rectangle. -/
theorem set_0 : (slot0 : Memref sig .tc .vmem S1x768 .f32).view.set = rc0.set :=
  (View.set_reshape _ _).trans (View.set_slice_whole cc0_scratch1 rc0)
theorem set_1 : (slot1 : Memref sig .tc .vmem S1x768 .f32).view.set = rc1.set :=
  (View.set_reshape _ _).trans (View.set_slice_whole cc0_scratch1 rc1)
theorem set_2 : (slot2 : Memref sig .tc .vmem S1x768 .f32).view.set = rc2.set :=
  (View.set_reshape _ _).trans (View.set_slice_whole cc0_scratch1 rc2)

/-- The elements a load of slot `k` through the whole landing buffer reads are the slot's. -/
theorem setOn_0 : (cM : Memref sig .tc .vmem S3x1x768 .f32).view.setOn rc0.toLoadRect.set = (slot0 : Memref sig .tc .vmem S1x768 .f32).view.set :=
  (Finset.map_refl).trans set_0.symm
theorem setOn_1 : (cM : Memref sig .tc .vmem S3x1x768 .f32).view.setOn rc1.toLoadRect.set = (slot1 : Memref sig .tc .vmem S1x768 .f32).view.set :=
  (Finset.map_refl).trans set_1.symm
theorem setOn_2 : (cM : Memref sig .tc .vmem S3x1x768 .f32).view.setOn rc2.toLoadRect.set = (slot2 : Memref sig .tc .vmem S1x768 .f32).view.set :=
  (Finset.map_refl).trans set_2.symm

/-! ## The slots split the landing buffer -/

theorem slot_disj01 : Disjoint (slot0 : Memref sig .tc .vmem S1x768 .f32).view.set (slot1 : Memref sig .tc .vmem S1x768 .f32).view.set := by
  rw [set_0, set_1]; exact Rect.unit_disjoint 0 (Or.inl (by decide))
theorem slot_disj02 : Disjoint (slot0 : Memref sig .tc .vmem S1x768 .f32).view.set (slot2 : Memref sig .tc .vmem S1x768 .f32).view.set := by
  rw [set_0, set_2]; exact Rect.unit_disjoint 0 (Or.inl (by decide))
theorem slot_disj12 : Disjoint (slot1 : Memref sig .tc .vmem S1x768 .f32).view.set (slot2 : Memref sig .tc .vmem S1x768 .f32).view.set := by
  rw [set_1, set_2]; exact Rect.unit_disjoint 0 (Or.inl (by decide))

/-- An element of the landing buffer is in the slot its first coordinate names. -/
theorem mem_rc0 (i : S3x1x768.Idx) : i ∈ rc0.set ↔ (i 0).val = 0 := by
  rw [Rect.mem_set_unit]
  have h1 : (i 1).val < 1 := (i 1).isLt
  have h2 : (i 2).val < 768 := (i 2).isLt
  constructor
  · intro h; have := h 0; change 0 ≤ (i 0).val ∧ (i 0).val < 0 + 1 at this; omega
  · intro h a
    match a with
    | ⟨0, _⟩ => change 0 ≤ (i 0).val ∧ (i 0).val < 0 + 1; omega
    | ⟨1, _⟩ => change 0 ≤ (i 1).val ∧ (i 1).val < 0 + 1; omega
    | ⟨2, _⟩ => change 0 ≤ (i 2).val ∧ (i 2).val < 0 + 768; omega
theorem mem_rc1 (i : S3x1x768.Idx) : i ∈ rc1.set ↔ (i 0).val = 1 := by
  rw [Rect.mem_set_unit]
  have h1 : (i 1).val < 1 := (i 1).isLt
  have h2 : (i 2).val < 768 := (i 2).isLt
  constructor
  · intro h; have := h 0; change 1 ≤ (i 0).val ∧ (i 0).val < 1 + 1 at this; omega
  · intro h a
    match a with
    | ⟨0, _⟩ => change 1 ≤ (i 0).val ∧ (i 0).val < 1 + 1; omega
    | ⟨1, _⟩ => change 0 ≤ (i 1).val ∧ (i 1).val < 0 + 1; omega
    | ⟨2, _⟩ => change 0 ≤ (i 2).val ∧ (i 2).val < 0 + 768; omega
theorem mem_rc2 (i : S3x1x768.Idx) : i ∈ rc2.set ↔ (i 0).val = 2 := by
  rw [Rect.mem_set_unit]
  have h1 : (i 1).val < 1 := (i 1).isLt
  have h2 : (i 2).val < 768 := (i 2).isLt
  constructor
  · intro h; have := h 0; change 2 ≤ (i 0).val ∧ (i 0).val < 2 + 1 at this; omega
  · intro h a
    match a with
    | ⟨0, _⟩ => change 2 ≤ (i 0).val ∧ (i 0).val < 2 + 1; omega
    | ⟨1, _⟩ => change 0 ≤ (i 1).val ∧ (i 1).val < 0 + 1; omega
    | ⟨2, _⟩ => change 0 ≤ (i 2).val ∧ (i 2).val < 0 + 768; omega

theorem slot_cover : (slot0 : Memref sig .tc .vmem S1x768 .f32).view.set ∪ (slot1 : Memref sig .tc .vmem S1x768 .f32).view.set
    ∪ (slot2 : Memref sig .tc .vmem S1x768 .f32).view.set = Finset.univ := by
  rw [set_0, set_1, set_2]
  ext i
  have h0 : (i 0).val < 3 := (i 0).isLt
  simp only [Finset.mem_union, Finset.mem_univ, iff_true]
  rw [mem_rc0, mem_rc1, mem_rc2]
  omega

/-! ## What lands in a slot, and what a load of it reads -/

/-- Where slot 0 places the elements of a row of 768: in row 0 of the landing buffer, at the same column. -/
theorem slot_emb_0 (y : S1x768.Idx) :
    ((slot0 : Memref sig .tc .vmem S1x768 .f32).view.emb y : S3x1x768.Idx) = ValueIdx.ix3 (0 : Fin 3) (0 : Fin 1) (y 1) := by
  have hz : Shape.reshapeEquiv (s := S1x1x768) (s' := S1x768) squeezes_S1x1x768_S1x768.numel_eq y = Fin.cons ⟨0, Nat.one_pos⟩ y :=
    Shape.reshapeEquiv_cons_one (n := 2) (d := ![1, 768]) _ y
  change rc0.emb (Shape.reshapeEquiv squeezes_S1x1x768_S1x768.numel_eq y) = _
  rw [hz]
  have h0 : (y 0).val < 1 := (y 0).isLt
  funext a; apply Fin.ext
  match a with
  | ⟨0, _⟩ => rfl
  | ⟨1, _⟩ => change 0 + 1 * (y 0).val = 0; omega
  | ⟨2, _⟩ => change 0 + 1 * (y 1).val = (y 1).val; omega

/-- A copy of a row `p` into slot 0 leaves `p` there, column by column. -/
theorem landed_0 (d : Dev nD) (fd : Buf (Elt F) ((d : Thread nD τ).loc cc0_scratch1))
    (p : (cc0_scratch0 : Ref sig .tc).ty.Contents (Elt F)) :
    ∀ i ∈ (slot0 : Memref sig .tc .vmem S1x768 .f32).view.set,
      (slot0 : Memref sig .tc .vmem S1x768 .f32).view.write (Elt F) fd ((pM : Memref sig .tc .vmem S1x768 .f32).view.read (Elt F) p) Finset.univ i
        = p (ValueIdx.ix2 (0 : Fin 1) (i 2)) := by
  intro i hi
  obtain ⟨y, rfl⟩ := View.exists_emb_of_mem_set _ hi
  rw [View.write_emb_of_mem _ _ (Finset.mem_univ y)]
  have h0 : (y 0).val < 1 := (y 0).isLt
  have hy : y = ValueIdx.ix2 (0 : Fin 1) (((slot0 : Memref sig .tc .vmem S1x768 .f32).view.emb y) 2) := by
    rw [slot_emb_0]
    funext a; apply Fin.ext
    match a with
    | ⟨0, _⟩ => change (y 0).val = 0; omega
    | ⟨1, _⟩ => rfl
  change p y = _
  exact congrArg p hy

/-- Slot 0 of the landed buffer holds the partial of the device 3 place(s) on. -/
theorem commVal_on_0 (d : Dev nD) :
    ∀ i ∈ (slot0 : Memref sig .tc .vmem S1x768 .f32).view.set,
      commVal m ρ d i = part m ρ (fwd 3 d) (ValueIdx.ix2 (0 : Fin 1) (i 2)) := by
  intro i hi
  rw [set_0] at hi
  have h := (mem_rc0 i).mp hi
  change part m ρ (fwd (3 - (i 0).val) d) (ValueIdx.ix2 (0 : Fin 1) (i 2)) = _
  rw [h]

/-- A load of slot 0 of the landed buffer reads that partial as a one-row slice. -/
theorem read_slot_0 (d : Dev nD) :
    (cM : Memref sig .tc .vmem S3x1x768 .f32).view.readAt (Elt F) rc0.toLoadRect (commVal m ρ d) = lift3 (part m ρ (fwd 3 d)) := by
  funext x
  have hx0 : (x 0).val < 1 := (x 0).isLt
  have e0 : ((rc0.toLoadRect.idx x) 0).val = 0 := by
    rw [LoadRect.idx_apply]; change 0 + 1 * (x 0).val = 0; omega
  have e2 : (rc0.toLoadRect.idx x) 2 = x 2 := Fin.ext (by
    rw [LoadRect.idx_apply]; change 0 + 1 * (x 2).val = (x 2).val; omega)
  change part m ρ (fwd (3 - ((rc0.toLoadRect.idx x) 0).val) d) (ValueIdx.ix2 (0 : Fin 1) ((rc0.toLoadRect.idx x) 2))
    = part m ρ (fwd 3 d) (ValueIdx.ix2 (0 : Fin 1) (x 2))
  rw [e0, e2]

/-- Where slot 1 places the elements of a row of 768: in row 1 of the landing buffer, at the same column. -/
theorem slot_emb_1 (y : S1x768.Idx) :
    ((slot1 : Memref sig .tc .vmem S1x768 .f32).view.emb y : S3x1x768.Idx) = ValueIdx.ix3 (1 : Fin 3) (0 : Fin 1) (y 1) := by
  have hz : Shape.reshapeEquiv (s := S1x1x768) (s' := S1x768) squeezes_S1x1x768_S1x768.numel_eq y = Fin.cons ⟨0, Nat.one_pos⟩ y :=
    Shape.reshapeEquiv_cons_one (n := 2) (d := ![1, 768]) _ y
  change rc1.emb (Shape.reshapeEquiv squeezes_S1x1x768_S1x768.numel_eq y) = _
  rw [hz]
  have h0 : (y 0).val < 1 := (y 0).isLt
  funext a; apply Fin.ext
  match a with
  | ⟨0, _⟩ => rfl
  | ⟨1, _⟩ => change 0 + 1 * (y 0).val = 0; omega
  | ⟨2, _⟩ => change 0 + 1 * (y 1).val = (y 1).val; omega

/-- A copy of a row `p` into slot 1 leaves `p` there, column by column. -/
theorem landed_1 (d : Dev nD) (fd : Buf (Elt F) ((d : Thread nD τ).loc cc0_scratch1))
    (p : (cc0_scratch0 : Ref sig .tc).ty.Contents (Elt F)) :
    ∀ i ∈ (slot1 : Memref sig .tc .vmem S1x768 .f32).view.set,
      (slot1 : Memref sig .tc .vmem S1x768 .f32).view.write (Elt F) fd ((pM : Memref sig .tc .vmem S1x768 .f32).view.read (Elt F) p) Finset.univ i
        = p (ValueIdx.ix2 (0 : Fin 1) (i 2)) := by
  intro i hi
  obtain ⟨y, rfl⟩ := View.exists_emb_of_mem_set _ hi
  rw [View.write_emb_of_mem _ _ (Finset.mem_univ y)]
  have h0 : (y 0).val < 1 := (y 0).isLt
  have hy : y = ValueIdx.ix2 (0 : Fin 1) (((slot1 : Memref sig .tc .vmem S1x768 .f32).view.emb y) 2) := by
    rw [slot_emb_1]
    funext a; apply Fin.ext
    match a with
    | ⟨0, _⟩ => change (y 0).val = 0; omega
    | ⟨1, _⟩ => rfl
  change p y = _
  exact congrArg p hy

/-- Slot 1 of the landed buffer holds the partial of the device 2 place(s) on. -/
theorem commVal_on_1 (d : Dev nD) :
    ∀ i ∈ (slot1 : Memref sig .tc .vmem S1x768 .f32).view.set,
      commVal m ρ d i = part m ρ (fwd 2 d) (ValueIdx.ix2 (0 : Fin 1) (i 2)) := by
  intro i hi
  rw [set_1] at hi
  have h := (mem_rc1 i).mp hi
  change part m ρ (fwd (3 - (i 0).val) d) (ValueIdx.ix2 (0 : Fin 1) (i 2)) = _
  rw [h]

/-- A load of slot 1 of the landed buffer reads that partial as a one-row slice. -/
theorem read_slot_1 (d : Dev nD) :
    (cM : Memref sig .tc .vmem S3x1x768 .f32).view.readAt (Elt F) rc1.toLoadRect (commVal m ρ d) = lift3 (part m ρ (fwd 2 d)) := by
  funext x
  have hx0 : (x 0).val < 1 := (x 0).isLt
  have e0 : ((rc1.toLoadRect.idx x) 0).val = 1 := by
    rw [LoadRect.idx_apply]; change 1 + 1 * (x 0).val = 1; omega
  have e2 : (rc1.toLoadRect.idx x) 2 = x 2 := Fin.ext (by
    rw [LoadRect.idx_apply]; change 0 + 1 * (x 2).val = (x 2).val; omega)
  change part m ρ (fwd (3 - ((rc1.toLoadRect.idx x) 0).val) d) (ValueIdx.ix2 (0 : Fin 1) ((rc1.toLoadRect.idx x) 2))
    = part m ρ (fwd 2 d) (ValueIdx.ix2 (0 : Fin 1) (x 2))
  rw [e0, e2]

/-- Where slot 2 places the elements of a row of 768: in row 2 of the landing buffer, at the same column. -/
theorem slot_emb_2 (y : S1x768.Idx) :
    ((slot2 : Memref sig .tc .vmem S1x768 .f32).view.emb y : S3x1x768.Idx) = ValueIdx.ix3 (2 : Fin 3) (0 : Fin 1) (y 1) := by
  have hz : Shape.reshapeEquiv (s := S1x1x768) (s' := S1x768) squeezes_S1x1x768_S1x768.numel_eq y = Fin.cons ⟨0, Nat.one_pos⟩ y :=
    Shape.reshapeEquiv_cons_one (n := 2) (d := ![1, 768]) _ y
  change rc2.emb (Shape.reshapeEquiv squeezes_S1x1x768_S1x768.numel_eq y) = _
  rw [hz]
  have h0 : (y 0).val < 1 := (y 0).isLt
  funext a; apply Fin.ext
  match a with
  | ⟨0, _⟩ => rfl
  | ⟨1, _⟩ => change 0 + 1 * (y 0).val = 0; omega
  | ⟨2, _⟩ => change 0 + 1 * (y 1).val = (y 1).val; omega

/-- A copy of a row `p` into slot 2 leaves `p` there, column by column. -/
theorem landed_2 (d : Dev nD) (fd : Buf (Elt F) ((d : Thread nD τ).loc cc0_scratch1))
    (p : (cc0_scratch0 : Ref sig .tc).ty.Contents (Elt F)) :
    ∀ i ∈ (slot2 : Memref sig .tc .vmem S1x768 .f32).view.set,
      (slot2 : Memref sig .tc .vmem S1x768 .f32).view.write (Elt F) fd ((pM : Memref sig .tc .vmem S1x768 .f32).view.read (Elt F) p) Finset.univ i
        = p (ValueIdx.ix2 (0 : Fin 1) (i 2)) := by
  intro i hi
  obtain ⟨y, rfl⟩ := View.exists_emb_of_mem_set _ hi
  rw [View.write_emb_of_mem _ _ (Finset.mem_univ y)]
  have h0 : (y 0).val < 1 := (y 0).isLt
  have hy : y = ValueIdx.ix2 (0 : Fin 1) (((slot2 : Memref sig .tc .vmem S1x768 .f32).view.emb y) 2) := by
    rw [slot_emb_2]
    funext a; apply Fin.ext
    match a with
    | ⟨0, _⟩ => change (y 0).val = 0; omega
    | ⟨1, _⟩ => rfl
  change p y = _
  exact congrArg p hy

/-- Slot 2 of the landed buffer holds the partial of the device 1 place(s) on. -/
theorem commVal_on_2 (d : Dev nD) :
    ∀ i ∈ (slot2 : Memref sig .tc .vmem S1x768 .f32).view.set,
      commVal m ρ d i = part m ρ (fwd 1 d) (ValueIdx.ix2 (0 : Fin 1) (i 2)) := by
  intro i hi
  rw [set_2] at hi
  have h := (mem_rc2 i).mp hi
  change part m ρ (fwd (3 - (i 0).val) d) (ValueIdx.ix2 (0 : Fin 1) (i 2)) = _
  rw [h]

/-- A load of slot 2 of the landed buffer reads that partial as a one-row slice. -/
theorem read_slot_2 (d : Dev nD) :
    (cM : Memref sig .tc .vmem S3x1x768 .f32).view.readAt (Elt F) rc2.toLoadRect (commVal m ρ d) = lift3 (part m ρ (fwd 1 d)) := by
  funext x
  have hx0 : (x 0).val < 1 := (x 0).isLt
  have e0 : ((rc2.toLoadRect.idx x) 0).val = 2 := by
    rw [LoadRect.idx_apply]; change 2 + 1 * (x 0).val = 2; omega
  have e2 : (rc2.toLoadRect.idx x) 2 = x 2 := Fin.ext (by
    rw [LoadRect.idx_apply]; change 0 + 1 * (x 2).val = (x 2).val; omega)
  change part m ρ (fwd (3 - ((rc2.toLoadRect.idx x) 0).val) d) (ValueIdx.ix2 (0 : Fin 1) ((rc2.toLoadRect.idx x) 2))
    = part m ρ (fwd 1 d) (ValueIdx.ix2 (0 : Fin 1) (x 2))
  rw [e0, e2]

/-- info: 'Cert.KernelIdeal.Views.read_p' depends on axioms: [propext, Classical.choice, Quot.sound] -/
#guard_msgs in #print axioms read_p

/-- info: 'Cert.KernelIdeal.Views.write_p' depends on axioms: [propext, Classical.choice, Quot.sound] -/
#guard_msgs in #print axioms write_p

/-- info: 'Cert.KernelIdeal.Views.read_o' depends on axioms: [propext, Classical.choice, Quot.sound] -/
#guard_msgs in #print axioms read_o

/-- info: 'Cert.KernelIdeal.Views.write_o' depends on axioms: [propext, Classical.choice, Quot.sound] -/
#guard_msgs in #print axioms write_o

/-- info: 'Cert.KernelIdeal.Views.read_x' depends on axioms: [propext, Classical.choice, Quot.sound] -/
#guard_msgs in #print axioms read_x

/-- info: 'Cert.KernelIdeal.Views.amount_0' depends on axioms: [propext, Classical.choice, Quot.sound] -/
#guard_msgs in #print axioms amount_0

/-- info: 'Cert.KernelIdeal.Views.amount_1' depends on axioms: [propext, Classical.choice, Quot.sound] -/
#guard_msgs in #print axioms amount_1

/-- info: 'Cert.KernelIdeal.Views.amount_2' depends on axioms: [propext, Classical.choice, Quot.sound] -/
#guard_msgs in #print axioms amount_2

/-- info: 'Cert.KernelIdeal.Views.setOn_0' depends on axioms: [propext, Classical.choice, Quot.sound] -/
#guard_msgs in #print axioms setOn_0

/-- info: 'Cert.KernelIdeal.Views.setOn_1' depends on axioms: [propext, Classical.choice, Quot.sound] -/
#guard_msgs in #print axioms setOn_1

/-- info: 'Cert.KernelIdeal.Views.setOn_2' depends on axioms: [propext, Classical.choice, Quot.sound] -/
#guard_msgs in #print axioms setOn_2

/-- info: 'Cert.KernelIdeal.Views.slot_disj01' depends on axioms: [propext, Classical.choice, Quot.sound] -/
#guard_msgs in #print axioms slot_disj01

/-- info: 'Cert.KernelIdeal.Views.slot_disj02' depends on axioms: [propext, Classical.choice, Quot.sound] -/
#guard_msgs in #print axioms slot_disj02

/-- info: 'Cert.KernelIdeal.Views.slot_disj12' depends on axioms: [propext, Classical.choice, Quot.sound] -/
#guard_msgs in #print axioms slot_disj12

/-- info: 'Cert.KernelIdeal.Views.slot_cover' depends on axioms: [propext, Classical.choice, Quot.sound] -/
#guard_msgs in #print axioms slot_cover

/-- info: 'Cert.KernelIdeal.Views.landed_0' depends on axioms: [propext, Classical.choice, Quot.sound] -/
#guard_msgs in #print axioms landed_0

/-- info: 'Cert.KernelIdeal.Views.landed_1' depends on axioms: [propext, Classical.choice, Quot.sound] -/
#guard_msgs in #print axioms landed_1

/-- info: 'Cert.KernelIdeal.Views.landed_2' depends on axioms: [propext, Classical.choice, Quot.sound] -/
#guard_msgs in #print axioms landed_2

/-- info: 'Cert.KernelIdeal.Views.commVal_on_0' depends on axioms: [propext, Classical.choice, Quot.sound] -/
#guard_msgs in #print axioms commVal_on_0

/-- info: 'Cert.KernelIdeal.Views.commVal_on_1' depends on axioms: [propext, Classical.choice, Quot.sound] -/
#guard_msgs in #print axioms commVal_on_1

/-- info: 'Cert.KernelIdeal.Views.commVal_on_2' depends on axioms: [propext, Classical.choice, Quot.sound] -/
#guard_msgs in #print axioms commVal_on_2

/-- info: 'Cert.KernelIdeal.Views.read_slot_0' depends on axioms: [propext, Classical.choice, Quot.sound] -/
#guard_msgs in #print axioms read_slot_0

/-- info: 'Cert.KernelIdeal.Views.read_slot_1' depends on axioms: [propext, Classical.choice, Quot.sound] -/
#guard_msgs in #print axioms read_slot_1

/-- info: 'Cert.KernelIdeal.Views.read_slot_2' depends on axioms: [propext, Classical.choice, Quot.sound] -/
#guard_msgs in #print axioms read_slot_2

end Cert.KernelIdeal.Views

end
-- ==== Proof.Shares.lean ====
/-
  The partial's buffer cut by share into the four parts the three copies and the device's own load read, and the
  landing buffer cut by element into its three slots; each cut with its converse.
-/
import proofs.«900945_g7700000000000946_dist_mean_ax0_shard0_i_m1536_n768_v7x_i4_f32_1_alg».proof.Proof.Proto
import proofs.«900945_g7700000000000946_dist_mean_ax0_shard0_i_m1536_n768_v7x_i4_f32_1_alg».proof.Proof.Views

noncomputable section

namespace Cert.KernelIdeal.Shares

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The partial, by share -/

/-- The whole partial's elements are all of its buffer's. -/
theorem pM_set : (pM : Memref sig .tc .vmem S1x768 .f32).view.set = Finset.univ := View.set_whole cc0_scratch0

/-- The whole share is its four quarters: left-left, left-right, right-left, right-right. -/
theorem part_split (c : Dev nD) (f : Buf (Elt F) ((c : Thread nD τ).loc cc0_scratch0)) :
    (((c : Thread nD τ).loc cc0_scratch0) ↦{fullShare} f : sProp 𝕄) ⊢
      iprop(((pM : Memref sig .tc .vmem S1x768 .f32).view.loc (c : Thread nD τ) ↦[(pM : Memref sig .tc .vmem S1x768 .f32).view.set]{qS 0} f)
        ∗ ((pM : Memref sig .tc .vmem S1x768 .f32).view.loc (c : Thread nD τ) ↦[(pM : Memref sig .tc .vmem S1x768 .f32).view.set]{qS 1} f)
        ∗ ((pM : Memref sig .tc .vmem S1x768 .f32).view.loc (c : Thread nD τ) ↦[(pM : Memref sig .tc .vmem S1x768 .f32).view.set]{qS 2} f)
        ∗ ((pM : Memref sig .tc .vmem S1x768 .f32).view.loc (c : Thread nD τ) ↦[(pM : Memref sig .tc .vmem S1x768 .f32).view.set]{qL} f)) := by
  rw [pM_set]
  iintro H
  ihave H := (pointsTo_share (PosShare.mem_left_op_right fullShare)).1 $$ H
  icases H with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  iexact HRR

/-- The four quarters, at one contents, are the whole share. -/
theorem part_join (c : Dev nD) (f : Buf (Elt F) ((c : Thread nD τ).loc cc0_scratch0)) :
    (iprop(((pM : Memref sig .tc .vmem S1x768 .f32).view.loc (c : Thread nD τ) ↦[(pM : Memref sig .tc .vmem S1x768 .f32).view.set]{qS 0} f)
        ∗ ((pM : Memref sig .tc .vmem S1x768 .f32).view.loc (c : Thread nD τ) ↦[(pM : Memref sig .tc .vmem S1x768 .f32).view.set]{qS 1} f)
        ∗ ((pM : Memref sig .tc .vmem S1x768 .f32).view.loc (c : Thread nD τ) ↦[(pM : Memref sig .tc .vmem S1x768 .f32).view.set]{qS 2} f)
        ∗ ((pM : Memref sig .tc .vmem S1x768 .f32).view.loc (c : Thread nD τ) ↦[(pM : Memref sig .tc .vmem S1x768 .f32).view.set]{qL} f)) : sProp 𝕄)
      ⊢ (((c : Thread nD τ).loc cc0_scratch0) ↦{fullShare} f : sProp 𝕄) := by
  rw [pM_set]
  iintro ⟨HLL, HLR, HRL, HRR⟩
  iapply (pointsTo_share (PosShare.mem_left_op_right fullShare)).2
  isplitl [HLL HLR]
  · iapply (pointsTo_share (PosShare.mem_left_op_right fullShare.left)).2
    isplitl [HLL]; · iexact HLL
    iexact HLR
  · iapply (pointsTo_share (PosShare.mem_left_op_right fullShare.right)).2
    isplitl [HRL]; · iexact HRL
    iexact HRR

/-! ## The landing buffer, by slot -/

theorem slot_disj01_2 : Disjoint ((slot0 : Memref sig .tc .vmem S1x768 .f32).view.set ∪ (slot1 : Memref sig .tc .vmem S1x768 .f32).view.set)
    (slot2 : Memref sig .tc .vmem S1x768 .f32).view.set :=
  Finset.disjoint_union_left.mpr ⟨Views.slot_disj02, Views.slot_disj12⟩

/-- The landing buffer is its three slots. -/
theorem comm_split (c : Dev nD) (f : Buf (Elt F) ((c : Thread nD τ).loc cc0_scratch1)) :
    (((c : Thread nD τ).loc cc0_scratch1) ↦{fullShare} f : sProp 𝕄) ⊢ iprop(slotPts c 0 f ∗ slotPts c 1 f ∗ slotPts c 2 f) := by
  show (((c : Thread nD τ).loc cc0_scratch1) ↦[Finset.univ]{fullShare} f : sProp 𝕄) ⊢
    iprop(((slot0 : Memref sig .tc .vmem S1x768 .f32).view.loc (c : Thread nD τ) ↦[(slot0 : Memref sig .tc .vmem S1x768 .f32).view.set]{fullShare} f)
      ∗ ((slot1 : Memref sig .tc .vmem S1x768 .f32).view.loc (c : Thread nD τ) ↦[(slot1 : Memref sig .tc .vmem S1x768 .f32).view.set]{fullShare} f)
      ∗ ((slot2 : Memref sig .tc .vmem S1x768 .f32).view.loc (c : Thread nD τ) ↦[(slot2 : Memref sig .tc .vmem S1x768 .f32).view.set]{fullShare} f))
  rw [← Views.slot_cover]
  iintro H
  ihave H := (pointsTo_union slot_disj01_2).1 $$ H
  icases H with ⟨H01, H2⟩
  ihave H01 := (pointsTo_union Views.slot_disj01).1 $$ H01
  icases H01 with ⟨H0, H1⟩
  isplitl [H0]; · iexact H0
  isplitl [H1]; · iexact H1
  iexact H2

/-- The three slots, at one contents, are the landing buffer. -/
theorem comm_join (c : Dev nD) (f : Buf (Elt F) ((c : Thread nD τ).loc cc0_scratch1)) :
    (iprop(slotPts c 0 f ∗ slotPts c 1 f ∗ slotPts c 2 f) : sProp 𝕄) ⊢ (((c : Thread nD τ).loc cc0_scratch1) ↦{fullShare} f : sProp 𝕄) := by
  show (iprop(((slot0 : Memref sig .tc .vmem S1x768 .f32).view.loc (c : Thread nD τ) ↦[(slot0 : Memref sig .tc .vmem S1x768 .f32).view.set]{fullShare} f)
      ∗ ((slot1 : Memref sig .tc .vmem S1x768 .f32).view.loc (c : Thread nD τ) ↦[(slot1 : Memref sig .tc .vmem S1x768 .f32).view.set]{fullShare} f)
      ∗ ((slot2 : Memref sig .tc .vmem S1x768 .f32).view.loc (c : Thread nD τ) ↦[(slot2 : Memref sig .tc .vmem S1x768 .f32).view.set]{fullShare} f)) : sProp 𝕄)
    ⊢ (((c : Thread nD τ).loc cc0_scratch1) ↦[Finset.univ]{fullShare} f : sProp 𝕄)
  rw [← Views.slot_cover]
  iintro ⟨H0, H1, H2⟩
  iapply (pointsTo_union slot_disj01_2).2
  isplitl [H0 H1]
  · iapply (pointsTo_union Views.slot_disj01).2
    isplitl [H0]; · iexact H0
    iexact H1
  · iexact H2

/-- info: 'Cert.KernelIdeal.Shares.part_split' depends on axioms: [propext, Classical.choice, Quot.sound] -/
#guard_msgs in #print axioms part_split
/-- info: 'Cert.KernelIdeal.Shares.part_join' depends on axioms: [propext, Classical.choice, Quot.sound] -/
#guard_msgs in #print axioms part_join
/-- info: 'Cert.KernelIdeal.Shares.comm_split' depends on axioms: [propext, Classical.choice, Quot.sound] -/
#guard_msgs in #print axioms comm_split
/-- info: 'Cert.KernelIdeal.Shares.comm_join' depends on axioms: [propext, Classical.choice, Quot.sound] -/
#guard_msgs in #print axioms comm_join

end Cert.KernelIdeal.Shares

end
-- ==== Proof.Body.lean ====
/-
  One device's body of the four-device mean, stepped rule by rule in program order: the three barrier signals (each
  handing the receiver the slot it will write), the partial stored, the wait for the three others' signals (their
  slots come with it), the three copies of the partial (each reading a share of it, each landing it in a peer's slot),
  the partial loaded from the share kept back, the three landings waited and added, the scaled sum stored, the three
  departures waited; then the six own cells close and the shares and slots are put back together.
-/
import proofs.«900945_g7700000000000946_dist_mean_ax0_shard0_i_m1536_n768_v7x_i4_f32_1_alg».proof.Proof.Proto
import proofs.«900945_g7700000000000946_dist_mean_ax0_shard0_i_m1536_n768_v7x_i4_f32_1_alg».proof.Proof.Tables
import proofs.«900945_g7700000000000946_dist_mean_ax0_shard0_i_m1536_n768_v7x_i4_f32_1_alg».proof.Proof.Views
import proofs.«900945_g7700000000000946_dist_mean_ax0_shard0_i_m1536_n768_v7x_i4_f32_1_alg».proof.Proof.Shares

noncomputable section

namespace Cert.KernelIdeal.Body

open Cert.KernelIdeal Cert.KernelIdeal.Gen Cert.KernelIdeal.Proto Cert.KernelIdeal.Tables Cert.KernelIdeal.Views Cert.KernelIdeal.Shares

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The payload of the signal to the device `k` places on (duty `j = k - 1` of its barrier cell), read from the
    signaller: its own slot `s = 3 - k` and that its receive cell for that slot is at round 0. -/
theorem barPay_at (k : ℕ) (j s : Fin 3) (c : Dev nD) (hb : fwd (3 - j.val) (fwd k c) = c) (hs : Fin.rev j = s) :
    barPay (F := F) (fwd k c) j = iprop((∃ f, slotPts c s f) ∗ reached ER (recvCell c s) 0) := by
  unfold barPay; rw [hb, hs]

theorem barPay_0 (c : Dev nD) : barPay (F := F) c 0 = iprop((∃ f, slotPts (fwd 3 c) 2 f) ∗ reached ER (recvCell (fwd 3 c) 2) 0) := rfl
theorem barPay_1 (c : Dev nD) : barPay (F := F) c 1 = iprop((∃ f, slotPts (fwd 2 c) 1 f) ∗ reached ER (recvCell (fwd 2 c) 1) 0) := rfl
theorem barPay_2 (c : Dev nD) : barPay (F := F) c 2 = iprop((∃ f, slotPts (fwd 1 c) 0 f) ∗ reached ER (recvCell (fwd 1 c) 0) 0) := rfl

theorem slotPts_0 (d : Dev nD) (f) : slotPts (F := F) d 0 f = ((slot0 : Memref sig .tc .vmem S1x768 .f32).view.loc (d : Thread nD τ) ↦[(slot0 : Memref sig .tc .vmem S1x768 .f32).view.set]{fullShare} f) := rfl
theorem slotPts_1 (d : Dev nD) (f) : slotPts (F := F) d 1 f = ((slot1 : Memref sig .tc .vmem S1x768 .f32).view.loc (d : Thread nD τ) ↦[(slot1 : Memref sig .tc .vmem S1x768 .f32).view.set]{fullShare} f) := rfl
theorem slotPts_2 (d : Dev nD) (f) : slotPts (F := F) d 2 f = ((slot2 : Memref sig .tc .vmem S1x768 .f32).view.loc (d : Thread nD τ) ↦[(slot2 : Memref sig .tc .vmem S1x768 .f32).view.set]{fullShare} f) := rfl
theorem recvPay_at0 (c : Dev nD) : recvPay m ρ c 0 = ((cM : Memref sig .tc .vmem S3x1x768 .f32).view.loc (c : Thread nD τ) ↦[(slot0 : Memref sig .tc .vmem S1x768 .f32).view.set]{fullShare} commVal m ρ c) := rfl
theorem recvPay_at1 (c : Dev nD) : recvPay m ρ c 1 = ((cM : Memref sig .tc .vmem S3x1x768 .f32).view.loc (c : Thread nD τ) ↦[(slot1 : Memref sig .tc .vmem S1x768 .f32).view.set]{fullShare} commVal m ρ c) := rfl
theorem recvPay_at2 (c : Dev nD) : recvPay m ρ c 2 = ((cM : Memref sig .tc .vmem S3x1x768 .f32).view.loc (c : Thread nD τ) ↦[(slot2 : Memref sig .tc .vmem S1x768 .f32).view.set]{fullShare} commVal m ρ c) := rfl

/-- Copy 1 lands this device's partial in slot 0 of the device 1 place(s) on: that slot of its landed buffer. -/
theorem landing_0 (c : Dev nD) (fd : Buf (Elt F) ((fwd 1 c : Thread nD τ).loc cc0_scratch1)) :
    ((slot0 : Memref sig .tc .vmem S1x768 .f32).view.loc (fwd 1 c : Thread nD τ) ↦[(slot0 : Memref sig .tc .vmem S1x768 .f32).view.set]{fullShare}
        ((slot0 : Memref sig .tc .vmem S1x768 .f32).view.write (Elt F) fd ((pM : Memref sig .tc .vmem S1x768 .f32).view.read (Elt F) (part m ρ c)) Finset.univ) : sProp 𝕄)
      ⊢ recvPay m ρ (fwd 1 c) 0 := by
  rw [recvPay_at0]
  exact Entails.of_eq (pointsTo_congr fun i hi => (landed_0 (fwd 1 c) fd (part m ρ c) i hi).trans
    ((commVal_on_0 m ρ (fwd 1 c) i hi).trans (by rw [fwd31])).symm)

/-- Copy 2 lands this device's partial in slot 1 of the device 2 place(s) on: that slot of its landed buffer. -/
theorem landing_1 (c : Dev nD) (fd : Buf (Elt F) ((fwd 2 c : Thread nD τ).loc cc0_scratch1)) :
    ((slot1 : Memref sig .tc .vmem S1x768 .f32).view.loc (fwd 2 c : Thread nD τ) ↦[(slot1 : Memref sig .tc .vmem S1x768 .f32).view.set]{fullShare}
        ((slot1 : Memref sig .tc .vmem S1x768 .f32).view.write (Elt F) fd ((pM : Memref sig .tc .vmem S1x768 .f32).view.read (Elt F) (part m ρ c)) Finset.univ) : sProp 𝕄)
      ⊢ recvPay m ρ (fwd 2 c) 1 := by
  rw [recvPay_at1]
  exact Entails.of_eq (pointsTo_congr fun i hi => (landed_1 (fwd 2 c) fd (part m ρ c) i hi).trans
    ((commVal_on_1 m ρ (fwd 2 c) i hi).trans (by rw [fwd22])).symm)

/-- Copy 3 lands this device's partial in slot 2 of the device 3 place(s) on: that slot of its landed buffer. -/
theorem landing_2 (c : Dev nD) (fd : Buf (Elt F) ((fwd 3 c : Thread nD τ).loc cc0_scratch1)) :
    ((slot2 : Memref sig .tc .vmem S1x768 .f32).view.loc (fwd 3 c : Thread nD τ) ↦[(slot2 : Memref sig .tc .vmem S1x768 .f32).view.set]{fullShare}
        ((slot2 : Memref sig .tc .vmem S1x768 .f32).view.write (Elt F) fd ((pM : Memref sig .tc .vmem S1x768 .f32).view.read (Elt F) (part m ρ c)) Finset.univ) : sProp 𝕄)
      ⊢ recvPay m ρ (fwd 3 c) 2 := by
  rw [recvPay_at2]
  exact Entails.of_eq (pointsTo_congr fun i hi => (landed_2 (fwd 3 c) fd (part m ρ c) i hi).trans
    ((commVal_on_2 m ρ (fwd 3 c) i hi).trans (by rw [fwd13])).symm)

/-- The body's spelling of the six DMA semaphores (a one-element slice of the array, squeezed) names these. -/
theorem sem_s0 : (((cc0_scratch2 : DmaSems sig S3).slice (Rect.unit (s := S3) ![0] S1.size inb_S3_S1_0)).squeeze S_ squeezes_S1_S_).sem = sendS 0 := rfl
theorem sem_s1 : (((cc0_scratch2 : DmaSems sig S3).slice (Rect.unit (s := S3) ![1] S1.size inb_S3_S1_1)).squeeze S_ squeezes_S1_S_).sem = sendS 1 := rfl
theorem sem_s2 : (((cc0_scratch2 : DmaSems sig S3).slice (Rect.unit (s := S3) ![2] S1.size inb_S3_S1_2)).squeeze S_ squeezes_S1_S_).sem = sendS 2 := rfl
theorem sem_r0 : (((cc0_scratch3 : DmaSems sig S3).slice (Rect.unit (s := S3) ![0] S1.size inb_S3_S1_0)).squeeze S_ squeezes_S1_S_).sem = recvS 0 := rfl
theorem sem_r1 : (((cc0_scratch3 : DmaSems sig S3).slice (Rect.unit (s := S3) ![1] S1.size inb_S3_S1_1)).squeeze S_ squeezes_S1_S_).sem = recvS 1 := rfl
theorem sem_r2 : (((cc0_scratch3 : DmaSems sig S3).slice (Rect.unit (s := S3) ![2] S1.size inb_S3_S1_2)).squeeze S_ squeezes_S1_S_).sem = recvS 2 := rfl

variable (K : Dev nD × Fin 7 → ℕ)

/-- The send rule at copy 1's cells, the transfer addressed to `n = fwd 1 c` (substituted, not rewritten: the
    target memref's type depends on the device). -/
theorem wp_send_0 (c n : Dev nD) (hn : n = fwd 1 c)
    {hsc : (slot0 : Memref sig (Dev.tc n : Thread nD τ).2.kind .vmem S1x768 .f32).view.ref.isScScratch = false}
    {hsrc : (pM : Memref sig .tc .vmem S1x768 .f32).view.WordExact} {hdst : (slot0 : Memref sig .tc .vmem S1x768 .f32).view.WordExact}
    {hsem : DmaTarget.Typed .vmem (.dma (recvS 0)) (.remote (Dev.tc n : Thread nD τ) (slot0 : Memref sig .tc .vmem S1x768 .f32) (.dma (sendS 0)) hsc)}
    {α : Type} {Q : α → sProp 𝕄} {k : PUnit → Prog (TpuEff nD τ sig (Elt F) Λ₀ .tc) α}
    (fd : Buf (Elt F) ((fwd 1 c : Thread nD τ).loc cc0_scratch1)) (W : Waits sig Unit)
    (Ob Oa : CellTallies nD τ sig Unit) (hO : Ob = Oa + tallyAt (recvCell (fwd 1 c) 0) () N) :
    iprop(cellInv ER (sched m ρ) (K (c, 1)) (sendCell c 0) ∗ cellInv ER (sched m ρ) (K (fwd 1 c, 4)) (recvCell (fwd 1 c) 0)
        ∗ partPts m ρ c (qS 0) ∗ slotPts (fwd 1 c) 0 fd
        ∗ owes (c : Thread nD τ) Ob W
        ∗ dutyTok ER (sendCell c 0) 0 0 ∗ reached ER (sendCell c 0) 0
        ∗ dutyTok ER (recvCell (fwd 1 c) 0) 0 0 ∗ reached ER (recvCell (fwd 1 c) 0) 0)
      ⊢ iprop(((cred (tallyAt (sendCell c 0) () N) ∗ owes (c : Thread nD τ) Oa W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pM (.remote (Dev.tc n : Thread nD τ) slot0 (.dma (sendS 0)) hsc) (.dma (recvS 0)) hsrc hdst hsem) k) Q) := by
  subst hn
  unfold partPts
  rw [slotPts_0]
  exact Rounds.wp_send_pointsTo 𝒱₀ ER (sched m ρ) (c : Thread nD τ) none (c' := (fwd 1 c : Thread nD τ))
    (src := (pM : Memref sig .tc .vmem S1x768 .f32)) (dst := (slot0 : Memref sig .tc .vmem S1x768 .f32)) (sS := .dma (sendS 0)) (sem := .dma (recvS 0))
    (q := qS 0) (fs := part m ρ c) (κ₁ := K (c, 1)) (κ₂ := K (fwd 1 c, 4))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (amount_0 _) (amount_send m ρ c 0 0) (amount_recv m ρ (fwd 1 c) 0 0) Oa hO (W := W)
    (by rw [payload_send]; exact BI.Entails.refl _)
    (by rw [payload_recv]; exact landing_0 m ρ c fd)

/-- The send rule at copy 2's cells, the transfer addressed to `n = fwd 2 c` (substituted, not rewritten: the
    target memref's type depends on the device). -/
theorem wp_send_1 (c n : Dev nD) (hn : n = fwd 2 c)
    {hsc : (slot1 : Memref sig (Dev.tc n : Thread nD τ).2.kind .vmem S1x768 .f32).view.ref.isScScratch = false}
    {hsrc : (pM : Memref sig .tc .vmem S1x768 .f32).view.WordExact} {hdst : (slot1 : Memref sig .tc .vmem S1x768 .f32).view.WordExact}
    {hsem : DmaTarget.Typed .vmem (.dma (recvS 1)) (.remote (Dev.tc n : Thread nD τ) (slot1 : Memref sig .tc .vmem S1x768 .f32) (.dma (sendS 1)) hsc)}
    {α : Type} {Q : α → sProp 𝕄} {k : PUnit → Prog (TpuEff nD τ sig (Elt F) Λ₀ .tc) α}
    (fd : Buf (Elt F) ((fwd 2 c : Thread nD τ).loc cc0_scratch1)) (W : Waits sig Unit)
    (Ob Oa : CellTallies nD τ sig Unit) (hO : Ob = Oa + tallyAt (recvCell (fwd 2 c) 1) () N) :
    iprop(cellInv ER (sched m ρ) (K (c, 2)) (sendCell c 1) ∗ cellInv ER (sched m ρ) (K (fwd 2 c, 5)) (recvCell (fwd 2 c) 1)
        ∗ partPts m ρ c (qS 1) ∗ slotPts (fwd 2 c) 1 fd
        ∗ owes (c : Thread nD τ) Ob W
        ∗ dutyTok ER (sendCell c 1) 0 0 ∗ reached ER (sendCell c 1) 0
        ∗ dutyTok ER (recvCell (fwd 2 c) 1) 0 0 ∗ reached ER (recvCell (fwd 2 c) 1) 0)
      ⊢ iprop(((cred (tallyAt (sendCell c 1) () N) ∗ owes (c : Thread nD τ) Oa W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pM (.remote (Dev.tc n : Thread nD τ) slot1 (.dma (sendS 1)) hsc) (.dma (recvS 1)) hsrc hdst hsem) k) Q) := by
  subst hn
  unfold partPts
  rw [slotPts_1]
  exact Rounds.wp_send_pointsTo 𝒱₀ ER (sched m ρ) (c : Thread nD τ) none (c' := (fwd 2 c : Thread nD τ))
    (src := (pM : Memref sig .tc .vmem S1x768 .f32)) (dst := (slot1 : Memref sig .tc .vmem S1x768 .f32)) (sS := .dma (sendS 1)) (sem := .dma (recvS 1))
    (q := qS 1) (fs := part m ρ c) (κ₁ := K (c, 2)) (κ₂ := K (fwd 2 c, 5))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (amount_1 _) (amount_send m ρ c 1 0) (amount_recv m ρ (fwd 2 c) 1 0) Oa hO (W := W)
    (by rw [payload_send]; exact BI.Entails.refl _)
    (by rw [payload_recv]; exact landing_1 m ρ c fd)

/-- The send rule at copy 3's cells, the transfer addressed to `n = fwd 3 c` (substituted, not rewritten: the
    target memref's type depends on the device). -/
theorem wp_send_2 (c n : Dev nD) (hn : n = fwd 3 c)
    {hsc : (slot2 : Memref sig (Dev.tc n : Thread nD τ).2.kind .vmem S1x768 .f32).view.ref.isScScratch = false}
    {hsrc : (pM : Memref sig .tc .vmem S1x768 .f32).view.WordExact} {hdst : (slot2 : Memref sig .tc .vmem S1x768 .f32).view.WordExact}
    {hsem : DmaTarget.Typed .vmem (.dma (recvS 2)) (.remote (Dev.tc n : Thread nD τ) (slot2 : Memref sig .tc .vmem S1x768 .f32) (.dma (sendS 2)) hsc)}
    {α : Type} {Q : α → sProp 𝕄} {k : PUnit → Prog (TpuEff nD τ sig (Elt F) Λ₀ .tc) α}
    (fd : Buf (Elt F) ((fwd 3 c : Thread nD τ).loc cc0_scratch1)) (W : Waits sig Unit)
    (Ob Oa : CellTallies nD τ sig Unit) (hO : Ob = Oa + tallyAt (recvCell (fwd 3 c) 2) () N) :
    iprop(cellInv ER (sched m ρ) (K (c, 3)) (sendCell c 2) ∗ cellInv ER (sched m ρ) (K (fwd 3 c, 6)) (recvCell (fwd 3 c) 2)
        ∗ partPts m ρ c (qS 2) ∗ slotPts (fwd 3 c) 2 fd
        ∗ owes (c : Thread nD τ) Ob W
        ∗ dutyTok ER (sendCell c 2) 0 0 ∗ reached ER (sendCell c 2) 0
        ∗ dutyTok ER (recvCell (fwd 3 c) 2) 0 0 ∗ reached ER (recvCell (fwd 3 c) 2) 0)
      ⊢ iprop(((cred (tallyAt (sendCell c 2) () N) ∗ owes (c : Thread nD τ) Oa W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pM (.remote (Dev.tc n : Thread nD τ) slot2 (.dma (sendS 2)) hsc) (.dma (recvS 2)) hsrc hdst hsem) k) Q) := by
  subst hn
  unfold partPts
  rw [slotPts_2]
  exact Rounds.wp_send_pointsTo 𝒱₀ ER (sched m ρ) (c : Thread nD τ) none (c' := (fwd 3 c : Thread nD τ))
    (src := (pM : Memref sig .tc .vmem S1x768 .f32)) (dst := (slot2 : Memref sig .tc .vmem S1x768 .f32)) (sS := .dma (sendS 2)) (sem := .dma (recvS 2))
    (q := qS 2) (fs := part m ρ c) (κ₁ := K (c, 3)) (κ₂ := K (fwd 3 c, 6))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (amount_2 _) (amount_send m ρ c 2 0) (amount_recv m ρ (fwd 3 c) 2 0) Oa hO (W := W)
    (by rw [payload_send]; exact BI.Entails.refl _)
    (by rw [payload_recv]; exact landing_2 m ρ c fd)

def bodyPre (c : Dev nD) : sProp 𝕄 :=
  iprop((ghost m ρ K c ∗ creds c ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 3200000 in
/-- One device's body, rule by rule in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre ghost Proto.invs poss marks payToks creds scr
  iintro ⟨⟨⟨⟨⟨#HIbar, #HIs0, #HIs1, #HIs2, #HIr0, #HIr1, #HIr2, #HIb1, #HIb2, #HIb3, #HIv1, #HIv2, #HIv3⟩,
      ⟨HatB, HatS0, HatS1, HatS2, HatR0, HatR1, HatR2⟩,
      ⟨#HrB1, #HrB2, #HrB3, #HrV1, #HrV2, #HrV3, #HrS0, #HrS1, #HrS2, #HrR0, #HrR1, #HrR2⟩,
      ⟨HtB1, HtB2, HtB3, HtV1, HtV2, HtV3, HtS0, HtS1, HtS2⟩⟩,
      ⟨HcB, HcR0, HcR1, HcR2⟩, #Hlev, ⟨⟨%fp, Hp⟩, ⟨%fc, Hc⟩⟩⟩,
    Ho, ⟨%d0, %g0, %hg0, Hx⟩, ⟨%d1, %g1, %hg1, Hout⟩⟩, Hk⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the landing buffer by slots
  ihave Hcs := (comm_split c fc) $$ Hc
  icases Hcs with ⟨Hs0, Hs1, Hs2⟩

  -- signal 1: one unit to the device 1 place(s) on, handing it slot 2 of this device's landing buffer
  iapply (Rounds.wp_signal 𝒱₀ ER (sched m ρ) (c : Thread nD τ) none (dst := (fwd 1 c : Thread nD τ)) (κ := K (fwd 1 c, 0))
      (d := (0 : Fin 3)) (by rw [duties_bar]; exact Finset.mem_univ _) ((amount_bar m ρ (fwd 1 c) 0).trans (by decide)) ()
      (O₀ := O₀ c) (O₁ c) rfl) $$ [HO HtB1 Hs2]
  · isplitr; · iexact HIb1
    isplitl [HO]; · iexact HO
    isplitl [HtB1]; · iexact HtB1
    isplitl [Hs2]
    · rw [payload_bar, barPay_at 1 0 2 c (fwd31 c) rfl]
      isplitl [Hs2]; · iexists fc; iexact Hs2
      iexact HrR2
    · iexact HrB1
  iintro HO

  -- signal 2: one unit to the device 2 place(s) on, handing it slot 1 of this device's landing buffer
  iapply (Rounds.wp_signal 𝒱₀ ER (sched m ρ) (c : Thread nD τ) none (dst := (fwd 2 c : Thread nD τ)) (κ := K (fwd 2 c, 0))
      (d := (1 : Fin 3)) (by rw [duties_bar]; exact Finset.mem_univ _) ((amount_bar m ρ (fwd 2 c) 1).trans (by decide)) ()
      (O₀ := O₁ c) (O₂ c) rfl) $$ [HO HtB2 Hs1]
  · isplitr; · iexact HIb2
    isplitl [HO]; · iexact HO
    isplitl [HtB2]; · iexact HtB2
    isplitl [Hs1]
    · rw [payload_bar, barPay_at 2 1 1 c (fwd22 c) rfl]
      isplitl [Hs1]; · iexists fc; iexact Hs1
      iexact HrR1
    · iexact HrB2
  iintro HO

  -- signal 3: one unit to the device 3 place(s) on, handing it slot 0 of this device's landing buffer
  iapply (Rounds.wp_signal 𝒱₀ ER (sched m ρ) (c : Thread nD τ) none (dst := (fwd 3 c : Thread nD τ)) (κ := K (fwd 3 c, 0))
      (d := (2 : Fin 3)) (by rw [duties_bar]; exact Finset.mem_univ _) ((amount_bar m ρ (fwd 3 c) 2).trans (by decide)) ()
      (O₀ := O₂ c) (O₃ c) rfl) $$ [HO HtB3 Hs0]
  · isplitr; · iexact HIb3
    isplitl [HO]; · iexact HO
    isplitl [HtB3]; · iexact HtB3
    isplitl [Hs0]
    · rw [payload_bar, barPay_at 3 2 0 c (fwd13 c) rfl]
      isplitl [Hs0]; · iexists fc; iexact Hs0
      iexact HrR0
    · iexact HrB3
  iintro HO
  -- the block of x, the partial stored
  iapply (wp_load 𝒱₀ (c : Thread nD τ) none Set.univ (m := xM) (Finset.subset_univ _)) $$ Hx; iintro Hx
  rw [read_x]
  iapply (wp_load 𝒱₀ (c : Thread nD τ) none Set.univ (m := pM) (Finset.subset_univ _)) $$ Hp; iintro Hp
  iapply (wp_store 𝒱₀ (c : Thread nD τ) none Set.univ (m := pM) (r := r1) (Mk := Finset.univ) (Finset.subset_univ _)) $$ Hp; iintro Hp
  rw [write_p, show k0_pay1 (xstg m ρ c) = part m ρ c from rfl]
  -- the wait for three on its own barrier cell, owing the three receive credits: the others' slots come with it
  iapply (Rounds.wp_wait_rest_token 𝒱₀ ER (sched m ρ) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hpp := (Entails.of_eq (rest_bar m ρ c)) $$ Hpay
  rw [barPay_0, barPay_1, barPay_2]
  icases Hpp with ⟨⟨⟨%fd3, Hd3⟩, -⟩, ⟨⟨%fd2, Hd2⟩, -⟩, ⟨⟨%fd1, Hd1⟩, -⟩⟩
  -- the partial by shares: one for each copy, one for the load
  ihave Hps := (part_split c (part m ρ c)) $$ Hp
  icases Hps with ⟨HpS0, HpS1, HpS2, HpL⟩

  -- copy 1: the partial into slot 0 of the device 1 place(s) on
  iapply (wp_send_0 m ρ K c _ (dev4_eq c) fd1 (insert (SemLoc.reg barS, ()) W) (O₃ c) (O₄ c) rfl) $$ [HpS0 Hd1 HO HtS0 HtV1]
  · unfold partPts
    isplitr; · iexact HIs0
    isplitr; · iexact HIv1
    isplitl [HpS0]; · iexact HpS0
    isplitl [Hd1]; · iexact Hd1
    isplitl [HO]; · iexact HO
    isplitl [HtS0]; · iexact HtS0
    isplitr; · iexact HrS0
    isplitl [HtV1]; · iexact HtV1
    iexact HrV1
  iintro ⟨HcS0, HO⟩

  -- copy 2: the partial into slot 1 of the device 2 place(s) on
  iapply (wp_send_1 m ρ K c _ (dev5_eq c) fd2 (insert (SemLoc.reg barS, ()) W) (O₄ c) (O₅ c) rfl) $$ [HpS1 Hd2 HO HtS1 HtV2]
  · unfold partPts
    isplitr; · iexact HIs1
    isplitr; · iexact HIv2
    isplitl [HpS1]; · iexact HpS1
    isplitl [Hd2]; · iexact Hd2
    isplitl [HO]; · iexact HO
    isplitl [HtS1]; · iexact HtS1
    isplitr; · iexact HrS1
    isplitl [HtV2]; · iexact HtV2
    iexact HrV2
  iintro ⟨HcS1, HO⟩

  -- copy 3: the partial into slot 2 of the device 3 place(s) on
  iapply (wp_send_2 m ρ K c _ (dev6_eq c) fd3 (insert (SemLoc.reg barS, ()) W) (O₅ c) 0 (zero_add _).symm) $$ [HpS2 Hd3 HO HtS2 HtV3]
  · unfold partPts
    isplitr; · iexact HIs2
    isplitr; · iexact HIv3
    isplitl [HpS2]; · iexact HpS2
    isplitl [Hd3]; · iexact Hd3
    isplitl [HO]; · iexact HO
    isplitl [HtS2]; · iexact HtS2
    isplitr; · iexact HrS2
    isplitl [HtV3]; · iexact HtV3
    iexact HrV3
  iintro ⟨HcS2, HO⟩
  -- the partial, loaded while the copies are in flight (a share suffices)
  iapply (wp_load 𝒱₀ (c : Thread nD τ) none Set.univ (m := pM) (S := (pM : Memref sig .tc .vmem S1x768 .f32).view.set) (by rw [pM_set]; exact Finset.subset_univ _)) $$ HpL; iintro HpL
  rw [read_p]

  -- the wait on receive cell 0: slot 0 holds the partial of the device 3 place(s) on
  iapply (Rounds.wp_wait_rest_token 𝒱₀ ER (sched m ρ) (c : Thread nD τ) none (κ := K (c, 4)) (sm := .dma (recvS 0))
      (wpE_waitDma2_eq 𝒱₀ (c : Thread nD τ) none Set.univ) (Set.mem_univ _) () (O := 0) (W := (insert (SemLoc.reg barS, ()) W)) (R := 0) (m := 0) (T := ∅)
      (by rw [Nat.zero_add, expect_recv])) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hl0 := (Entails.of_eq ((rest_recv m ρ c 0).trans (recvPay_at0 m ρ c))) $$ Hpay
  iapply (wp_load 𝒱₀ (c : Thread nD τ) none Set.univ (m := cM) (by rw [setOn_0])) $$ Hl0; iintro Hl0
  rw [read_slot_0]

  -- the wait on receive cell 2: slot 2 holds the partial of the device 1 place(s) on
  iapply (Rounds.wp_wait_rest_token 𝒱₀ ER (sched m ρ) (c : Thread nD τ) none (κ := K (c, 6)) (sm := .dma (recvS 2))
      (wpE_waitDma2_eq 𝒱₀ (c : Thread nD τ) none Set.univ) (Set.mem_univ _) () (O := 0) (W := (insert (SemLoc.dma (recvS 0), ()) (insert (SemLoc.reg barS, ()) W))) (R := 0) (m := 0) (T := ∅)
      (by rw [Nat.zero_add, expect_recv])) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hl2 := (Entails.of_eq ((rest_recv m ρ c 2).trans (recvPay_at2 m ρ c))) $$ Hpay
  iapply (wp_load 𝒱₀ (c : Thread nD τ) none Set.univ (m := cM) (by rw [setOn_2])) $$ Hl2; iintro Hl2
  rw [read_slot_2]

  -- the wait on receive cell 1: slot 1 holds the partial of the device 2 place(s) on
  iapply (Rounds.wp_wait_rest_token 𝒱₀ ER (sched m ρ) (c : Thread nD τ) none (κ := K (c, 5)) (sm := .dma (recvS 1))
      (wpE_waitDma2_eq 𝒱₀ (c : Thread nD τ) none Set.univ) (Set.mem_univ _) () (O := 0) (W := (insert (SemLoc.dma (recvS 2), ()) (insert (SemLoc.dma (recvS 0), ()) (insert (SemLoc.reg barS, ()) W)))) (R := 0) (m := 0) (T := ∅)
      (by rw [Nat.zero_add, expect_recv])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hl1 := (Entails.of_eq ((rest_recv m ρ c 1).trans (recvPay_at1 m ρ c))) $$ Hpay
  iapply (wp_load 𝒱₀ (c : Thread nD τ) none Set.univ (m := cM) (by rw [setOn_1])) $$ Hl1; iintro Hl1
  rw [read_slot_1]
  -- the result stored
  iapply (wp_load 𝒱₀ (c : Thread nD τ) none Set.univ (m := oM) (Finset.subset_univ _)) $$ Hout; iintro Hout
  iapply (wp_store 𝒱₀ (c : Thread nD τ) none Set.univ (m := oM) (r := r1) (Mk := Finset.univ) (Finset.subset_univ _)) $$ Hout; iintro Hout
  rw [write_o]

  -- the wait on send cell 0: the share of the partial copy 1 read comes back
  iapply (Rounds.wp_wait_rest_token 𝒱₀ ER (sched m ρ) (c : Thread nD τ) none (κ := K (c, 1)) (sm := .dma (sendS 0))
      (wpE_waitDma2_eq 𝒱₀ (c : Thread nD τ) none Set.univ) (Set.mem_univ _) () (O := 0) (W := (insert (SemLoc.dma (recvS 1), ()) (insert (SemLoc.dma (recvS 2), ()) (insert (SemLoc.dma (recvS 0), ()) (insert (SemLoc.reg barS, ()) W))))) (R := 0) (m := 0) (T := ∅)
      (by rw [Nat.zero_add, expect_send])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave HpS0 := (Entails.of_eq (rest_send m ρ c 0)) $$ Hpay

  -- the wait on send cell 1: the share of the partial copy 2 read comes back
  iapply (Rounds.wp_wait_rest_token 𝒱₀ ER (sched m ρ) (c : Thread nD τ) none (κ := K (c, 2)) (sm := .dma (sendS 1))
      (wpE_waitDma2_eq 𝒱₀ (c : Thread nD τ) none Set.univ) (Set.mem_univ _) () (O := 0) (W := (insert (SemLoc.dma (sendS 0), ()) (insert (SemLoc.dma (recvS 1), ()) (insert (SemLoc.dma (recvS 2), ()) (insert (SemLoc.dma (recvS 0), ()) (insert (SemLoc.reg barS, ()) W)))))) (R := 0) (m := 0) (T := ∅)
      (by rw [Nat.zero_add, expect_send])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave HpS1 := (Entails.of_eq (rest_send m ρ c 1)) $$ Hpay

  -- the wait on send cell 2: the share of the partial copy 3 read comes back
  iapply (Rounds.wp_wait_rest_token 𝒱₀ ER (sched m ρ) (c : Thread nD τ) none (κ := K (c, 3)) (sm := .dma (sendS 2))
      (wpE_waitDma2_eq 𝒱₀ (c : Thread nD τ) none Set.univ) (Set.mem_univ _) () (O := 0) (W := (insert (SemLoc.dma (sendS 1), ()) (insert (SemLoc.dma (sendS 0), ()) (insert (SemLoc.dma (recvS 1), ()) (insert (SemLoc.dma (recvS 2), ()) (insert (SemLoc.dma (recvS 0), ()) (insert (SemLoc.reg barS, ()) W))))))) (R := 0) (m := 0) (T := ∅)
      (by rw [Nat.zero_add, expect_send])) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave HpS2 := (Entails.of_eq (rest_send m ρ c 2)) $$ Hpay
  -- the six own cells close: their counters at zero are the core's again

  imod (Rounds.cell_close ER (sched m ρ) (Set.mem_univ (K (c, 1))) (fun h => h) (R := 0 + 1) (duties_later m ρ (sendCell c 0))) $$ [HatS0] with HzS0
  · isplitr; · iexact HIs0
    iexact HatS0

  imod (Rounds.cell_close ER (sched m ρ) (Set.mem_univ (K (c, 2))) (fun h => h) (R := 0 + 1) (duties_later m ρ (sendCell c 1))) $$ [HatS1] with HzS1
  · isplitr; · iexact HIs1
    iexact HatS1

  imod (Rounds.cell_close ER (sched m ρ) (Set.mem_univ (K (c, 3))) (fun h => h) (R := 0 + 1) (duties_later m ρ (sendCell c 2))) $$ [HatS2] with HzS2
  · isplitr; · iexact HIs2
    iexact HatS2

  imod (Rounds.cell_close ER (sched m ρ) (Set.mem_univ (K (c, 4))) (fun h => h) (R := 0 + 1) (duties_later m ρ (recvCell c 0))) $$ [HatR0] with HzR0
  · isplitr; · iexact HIr0
    iexact HatR0

  imod (Rounds.cell_close ER (sched m ρ) (Set.mem_univ (K (c, 5))) (fun h => h) (R := 0 + 1) (duties_later m ρ (recvCell c 1))) $$ [HatR1] with HzR1
  · isplitr; · iexact HIr1
    iexact HatR1

  imod (Rounds.cell_close ER (sched m ρ) (Set.mem_univ (K (c, 6))) (fun h => h) (R := 0 + 1) (duties_later m ρ (recvCell c 2))) $$ [HatR2] with HzR2
  · isplitr; · iexact HIr2
    iexact HatR2
  -- the partial whole again from its four shares, the landing buffer whole again from its three slots
  ihave Hp := (part_join c (part m ρ c)) $$ [HpS0 HpS1 HpS2 HpL]
  · unfold sendPay partPts
    isplitl [HpS0]; · iexact HpS0
    isplitl [HpS1]; · iexact HpS1
    isplitl [HpS2]; · iexact HpS2
    iexact HpL
  ihave Hc := (comm_join c (commVal m ρ c)) $$ [Hl0 Hl1 Hl2]
  · rw [slotPts_0, slotPts_1, slotPts_2]
    isplitl [Hl0]; · iexact Hl0
    isplitl [Hl1]; · iexact Hl1
    iexact Hl2
  rw [wp_ret]; imodintro
  iapply Hk
  unfold bodyPost Φ₁ scr ownZero Dat.owesAt Pipeline.owesWithin
  rw [show (dats m ρ 0 c).owed t₀.succ = 0 from rfl]
  isplitl [Hp Hc HzS0 HzS1 HzS2 HzR0 HzR1 HzR2]
  · isplitl [Hp Hc]
    · isplitl [Hp]; · iexists _; iexact Hp
      iexists _; iexact Hc
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (sendS 2), ()) (insert (SemLoc.dma (sendS 1), ()) (insert (SemLoc.dma (sendS 0), ()) (insert (SemLoc.dma (recvS 1), ()) (insert (SemLoc.dma (recvS 2), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Cert.KernelIdeal.Body

end
-- ==== Proof.Launch.lean ====
/-
  The launch of the four-device mean: from each device's body obligation to the run of @main on the whole mesh.

  The barrier semaphore is the runtime's (unscoped), so every device's seven cells — its barrier cell, three send
  cells, three receive cells — are allocated under ONE update for all devices; the duty tokens minted at a device's
  own cells are then dealt to the devices that pay them (rotations of the cycle), the launch credit is read off what
  the devices owe each other, and the staging waits sit below every cell a device owes.
-/
import proofs.«900945_g7700000000000946_dist_mean_ax0_shard0_i_m1536_n768_v7x_i4_f32_1_alg».proof.Proof.Proto
import proofs.«900945_g7700000000000946_dist_mean_ax0_shard0_i_m1536_n768_v7x_i4_f32_1_alg».proof.Proof.Body
import proofs.«900945_g7700000000000946_dist_mean_ax0_shard0_i_m1536_n768_v7x_i4_f32_1_alg».proof.Proof.Gen.KernelIdeal.Launch
import proofs.«900945_g7700000000000946_dist_mean_ax0_shard0_i_m1536_n768_v7x_i4_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The payloads can be stored in an invariant -/

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if IsRecv g then recvPay m ρ g.1.1 (copyOf g.2)
    else if IsSend g then sendPay m ρ g.1.1 (copyOf g.2)
    else iprop(emp))
  unfold barPay recvPay sendPay
  (repeat' split) <;> infer_instance

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- The nine duty tokens minted at a device's own cells: which cell, which duty — its barrier's three, its three send
    cells' and its three receive cells' one each. -/
abbrev cellIx : Fin 9 → Fin 7 := fun | 0 => 0 | 1 => 0 | 2 => 0 | 3 => 1 | 4 => 2 | 5 => 3 | 6 => 4 | 7 => 5 | 8 => 6
abbrev dutyIx : Fin 9 → Fin 3 := fun | 0 => 0 | 1 => 1 | 2 => 2 | 3 => 0 | 4 => 0 | 5 => 0 | 6 => 0 | 7 => 0 | 8 => 0
theorem ix_inj : ∀ j j' : Fin 9, cellIx j = cellIx j' → dutyIx j = dutyIx j' → j = j' := by decide
abbrev tokOf (cj : Dev nD × Fin 9) : GSem nD τ sig × ℕ × Fin 3 := (kcell (cj.1, cellIx cj.2), 0, dutyIx cj.2)
theorem tokOf_injective : Function.Injective (tokOf : Dev nD × Fin 9 → GSem nD τ sig × ℕ × Fin 3) := by
  rintro ⟨c, j⟩ ⟨c', j'⟩ h
  have h1 : ((c, cellIx j) : Dev nD × Fin 7) = (c', cellIx j') := kcell_injective (congrArg (fun x : GSem nD τ sig × ℕ × Fin 3 => x.1) h)
  have h2 : dutyIx j = dutyIx j' := congrArg (fun x : GSem nD τ sig × ℕ × Fin 3 => x.2.2) h
  have hc : c = c' := congrArg Prod.fst h1
  have hk : cellIx j = cellIx j' := congrArg Prod.snd h1
  rw [hc, ix_inj j j' hk h2]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c` (the theorem's `G`). -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

omit [FloatOps F] [Named F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] [Named F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
omit [FloatOps F] [Named F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
omit [FloatOps F] [Named F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 := iprop(poss c ∗ payToks c)

theorem ghost_intro (K : Dev nD × Fin 7 → ℕ) (c : Dev nD) : iprop(records m ρ K ∗ linear c) ⊢ G' m ρ c := by
  unfold records linear G' ghost
  iintro ⟨⟨#HI, #HR⟩, Hpos, Htok⟩
  iexists K
  isplitr
  · unfold Proto.invs
    isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (fwd 1 c, 0)); iexact HI
    isplitr; · iapply (inv_at m ρ K (fwd 2 c, 0)); iexact HI
    isplitr; · iapply (inv_at m ρ K (fwd 3 c, 0)); iexact HI
    isplitr; · iapply (inv_at m ρ K (fwd 1 c, 4)); iexact HI
    isplitr; · iapply (inv_at m ρ K (fwd 2 c, 5)); iexact HI
    iapply (inv_at m ρ K (fwd 3 c, 6)); iexact HI
  isplitl [Hpos]; · iexact Hpos
  isplitr
  · unfold marks
    isplitr; · iapply (reached_at (F := F) (fwd 1 c, 0)); iexact HR
    isplitr; · iapply (reached_at (F := F) (fwd 2 c, 0)); iexact HR
    isplitr; · iapply (reached_at (F := F) (fwd 3 c, 0)); iexact HR
    isplitr; · iapply (reached_at (F := F) (fwd 1 c, 4)); iexact HR
    isplitr; · iapply (reached_at (F := F) (fwd 2 c, 5)); iexact HR
    isplitr; · iapply (reached_at (F := F) (fwd 3 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

omit [FloatOps F] [Named F] in
/-- The tokens dealt around the cycle: duty `j` of a barrier cell to the device `3 - j` places on, the receive token
    of slot `k` to the device `3 - k` places on; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv rot1 (fun c : Dev nD => (dutyTok ER (barCell c) 0 0 : sProp 𝕄)),
    bigSep_univ_equiv rot2 (fun c : Dev nD => (dutyTok ER (barCell c) 0 1 : sProp 𝕄)),
    bigSep_univ_equiv rot3 (fun c : Dev nD => (dutyTok ER (barCell c) 0 2 : sProp 𝕄)),
    bigSep_univ_equiv rot1 (fun c : Dev nD => (dutyTok ER (recvCell c 0) 0 0 : sProp 𝕄)),
    bigSep_univ_equiv rot2 (fun c : Dev nD => (dutyTok ER (recvCell c 1) 0 0 : sProp 𝕄)),
    bigSep_univ_equiv rot3 (fun c : Dev nD => (dutyTok ER (recvCell c 2) 0 0 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

omit [FloatOps F] [Named F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] [Named F] in
/-- Three one-unit credits on the barrier cell are its three units. -/
theorem cred_bar3 (c : Dev nD) :
    iprop(cred (tallyAt (barCell c) () 1) ∗ cred (tallyAt (barCell c) () 1) ∗ cred (tallyAt (barCell c) () 1))
      ⊢ (cred (tallyAt (barCell c) () 3) : sProp 𝕄) := by
  have e : (tallyAt (barCell c) () 3 : CellTallies nD τ sig Unit)
      = tallyAt (barCell c) () 1 + (tallyAt (barCell c) () 1 + tallyAt (barCell c) () 1) := by
    rw [tallyAt_add, tallyAt_add]
  rw [e]
  exact (sep_mono_right (cred_add _ _).2).trans (cred_add _ _).2

omit [FloatOps F] [Named F] in
/-- What the others owe device `c`: each of the three a unit on its barrier cell, and the device `3 - k` places on the
    row's credit on its receive cell `k`. -/
theorem creds_intro (c : Dev nD) : (Pipeline.launchCred O₀ c : sProp 𝕄) ⊢ creds c := by
  have e0 : (O₀ : Dev nD → CellTallies nD τ sig Unit) = fun d => O₁ d + tallyAt (barCell (fwd 1 d)) () 1 := rfl
  have e1 : (O₁ : Dev nD → CellTallies nD τ sig Unit) = fun d => O₂ d + tallyAt (barCell (fwd 2 d)) () 1 := rfl
  have e2 : (O₂ : Dev nD → CellTallies nD τ sig Unit) = fun d => O₃ d + tallyAt (barCell (fwd 3 d)) () 1 := rfl
  have e3 : (O₃ : Dev nD → CellTallies nD τ sig Unit) = fun d => O₄ d + tallyAt (recvCell (fwd 1 d) 0) () N := rfl
  have e4 : (O₄ : Dev nD → CellTallies nD τ sig Unit) = fun d => O₅ d + tallyAt (recvCell (fwd 2 d) 1) () N := rfl
  have e5 : (O₅ : Dev nD → CellTallies nD τ sig Unit) = fun d => tallyAt (recvCell (fwd 3 d) 2) () N := rfl
  rw [e0, Pipeline.launchCred_add, e1, Pipeline.launchCred_add, e2, Pipeline.launchCred_add, e3, Pipeline.launchCred_add,
    e4, Pipeline.launchCred_add, e5]
  unfold creds
  iintro ⟨⟨⟨⟨⟨H5, H4⟩, H3⟩, H2⟩, H1⟩, H0⟩
  ihave C0 := (Pipeline.launchCred_tallyAt (SemLoc.reg barS) (fwd 1) (fwd 3) fwd13 fwd31 () 1 c) $$ H0
  ihave C1 := (Pipeline.launchCred_tallyAt (SemLoc.reg barS) (fwd 2) (fwd 2) fwd22 fwd22 () 1 c) $$ H1
  ihave C2 := (Pipeline.launchCred_tallyAt (SemLoc.reg barS) (fwd 3) (fwd 1) fwd31 fwd13 () 1 c) $$ H2
  ihave C3 := (Pipeline.launchCred_tallyAt (SemLoc.dma 5) (fwd 1) (fwd 3) fwd13 fwd31 () N c) $$ H3
  ihave C4 := (Pipeline.launchCred_tallyAt (SemLoc.dma 6) (fwd 2) (fwd 2) fwd22 fwd22 () N c) $$ H4
  ihave C5 := (Pipeline.launchCred_tallyAt (SemLoc.dma 7) (fwd 3) (fwd 1) fwd31 fwd13 () N c) $$ H5
  isplitl [C0 C1 C2]
  · iapply (cred_bar3 (F := F) c)
    isplitl [C0]; · iexact C0
    isplitl [C1]; · iexact C1
    iexact C2
  isplitl [C3]; · iexact C3
  isplitl [C4]; · iexact C4
  iexact C5

/-! ### The theorem's side conditions -/

theorem L_of_ne (g : GSem nD τ sig) (h : g.1.2 ≠ .tc) : L g = ∅ := if_neg h
theorem L_tc (c : Dev nD) (sm : SemLoc sig) : L ((c : Thread nD τ), sm) = {()} := if_pos rfl

/-- The cells a device owes at launch: the three other barrier cells and the receive cells of the slots it writes. -/
theorem O₀_pos {c : Dev nD} {g : GSem nD τ sig} {u : Unit} (h : 0 < O₀ c g u) :
    g = barCell (fwd 1 c) ∨ g = barCell (fwd 2 c) ∨ g = barCell (fwd 3 c)
      ∨ g = recvCell (fwd 1 c) 0 ∨ g = recvCell (fwd 2 c) 1 ∨ g = recvCell (fwd 3 c) 2 := by
  rcases Pipeline.add_pos_cases (show 0 < (O₁ c + tallyAt (barCell (fwd 1 c)) () 1) g u from h) with h | h
  · rcases Pipeline.add_pos_cases (show 0 < (O₂ c + tallyAt (barCell (fwd 2 c)) () 1) g u from h) with h | h
    · rcases Pipeline.add_pos_cases (show 0 < (O₃ c + tallyAt (barCell (fwd 3 c)) () 1) g u from h) with h | h
      · rcases Pipeline.add_pos_cases (show 0 < (O₄ c + tallyAt (recvCell (fwd 1 c) 0) () N) g u from h) with h | h
        · rcases Pipeline.add_pos_cases (show 0 < (O₅ c + tallyAt (recvCell (fwd 2 c) 1) () N) g u from h) with h | h
          · exact .inr (.inr (.inr (.inr (.inr (Pipeline.tallyAt_pos h).1))))
          · exact .inr (.inr (.inr (.inr (.inl (Pipeline.tallyAt_pos h).1))))
        · exact .inr (.inr (.inr (.inl (Pipeline.tallyAt_pos h).1)))
      · exact .inr (.inr (.inl (Pipeline.tallyAt_pos h).1))
    · exact .inr (.inl (Pipeline.tallyAt_pos h).1)
  · exact .inl (Pipeline.tallyAt_pos h).1

omit [FloatOps F] [Named F] in
/-- A staging wait (level 0) is below everything a device owes at launch (barrier cells at 1, receive cells at 2). -/
theorem mayWait_stage (c : Dev nD) (q : DmaSem sig)
    (hq : ¬ (SemLoc.dma q = .dma 5 ∨ SemLoc.dma q = .dma 6 ∨ (SemLoc.dma q : SemLoc sig) = .dma 7))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by rw [Finset.mem_singleton.mp hp]; dsimp only [lv]; rw [if_neg (fun h => by cases h), if_neg hq])
      (fun g u hg => by
        rcases O₀_pos hg with rfl | rfl | rfl | rfl | rfl | rfl
        · dsimp only [lv]; rw [if_pos rfl]; decide
        · dsimp only [lv]; rw [if_pos rfl]; decide
        · dsimp only [lv]; rw [if_pos rfl]; decide
        · dsimp only [lv]; rw [if_neg (fun h => by cases h), if_pos (.inl rfl)]; decide
        · dsimp only [lv]; rw [if_neg (fun h => by cases h), if_pos (.inr (.inl rfl))]; decide
        · dsimp only [lv]; rw [if_neg (fun h => by cases h), if_pos (.inr (.inr rfl))]; decide)
  · rw [MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of four devices, for any float values, from any memory with zero counters: every weakly fair
    execution of @main — the four kernels handshaking on the runtime's barrier semaphore, then each copying its partial
    into a slot of every other device — terminates, and in every final state each device's windowed arrays hold what the
    proof data say they hold after the last point. -/
theorem run_main : θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := Body.body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Launch.run_main' depends on axioms: [propext, Classical.choice, Quot.sound] -/
#guard_msgs in #print axioms run_main

end Cert.KernelIdeal.Launch

end
-- ==== Proof.Final.lean ====
import proofs.«900945_g7700000000000946_dist_mean_ax0_shard0_i_m1536_n768_v7x_i4_f32_1_alg».proof.Proof.Launch

noncomputable section

namespace Cert.KernelIdeal.Final

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The argument array is an input window's: no point writes it back, so after the last point it holds what it
    held at launch. -/
theorem final_x (c : Dev nD) :
    (dats (F := F) m ρ 0 c).arrAt (0 : Fin 2) cfg0.N = m ((c.tc : Thread nD τ).loc main_arg0) :=
  (dats (F := F) m ρ 0 c).arrAt_in (0 : Fin 2) rfl _

/-- The result array is written back at the one point, its one block covering it: read through that block it
    holds what the body left in the staging buffer. -/
theorem final_o_read (c : Dev nD) :
    ((cfg0.win (1 : Fin 2)).blk t₀).view.read (Elt F) ((dats (F := F) m ρ 0 c).arrAt (1 : Fin 2) cfg0.N) = outAt m ρ c := by
  rw [show cfg0.N = (t₀ : Fin cfg0.N).val + 1 from rfl, (dats (F := F) m ρ 0 c).arrAt_succ (1 : Fin 2) t₀]
  rw [show (cfg0.win (1 : Fin 2)).flush t₀ = true from flush0_1 t₀, if_pos rfl]
  exact View.read_write_univ _ _

/-- The block is the whole array at offsets zero, so reading through it reads the array. -/
theorem final_o (c : Dev nD) :
    (dats (F := F) m ρ 0 c).arrAt (1 : Fin 2) cfg0.N = outAt m ρ c := by
  have ho := final_o_read (F := F) m ρ c
  have hz : (fun a => (win0_1.index t₀) a * main_v1.ty.shape.size a) = fun _ => 0 :=
    funext fun a => by fin_cases a <;> decide
  have hr := fun f => Memref.read_access_unit_zero (Elt F) main_v1 hz (fun a => by fin_cases a <;> decide) f
  rw [hr] at ho
  exact ho

/-- Every weakly fair execution of @main on the four devices terminates without fault; each device's result array
    ends holding its partial plus the three that landed, scaled, and its argument array what it held. -/
theorem kernel_run : θ_run defs (onTc (τ := τ) (main (F := F))) ⟨m, fun _ => 0, ρ⟩ (fun r => ∀ c : Dev nD,
    r.2.mem ((c.tc : Thread nD τ).loc main_v1) = outAt m ρ c ∧ r.2.mem ((c.tc : Thread nD τ).loc main_arg0) = m ((c.tc : Thread nD τ).loc main_arg0)) :=
  (θ_run defs _ _).mono
    (fun _ h c => ⟨(h c (1 : Fin 2)).trans (final_o m ρ c), (h c (0 : Fin 2)).trans (final_x m ρ c)⟩)
    (Cert.KernelIdeal.Launch.run_main (F := F) m ρ)

/-- info: 'Cert.KernelIdeal.Final.kernel_run' depends on axioms: [propext, Classical.choice, Quot.sound] -/
#guard_msgs in #print axioms kernel_run

end Cert.KernelIdeal.Final

end
-- ==== Proof.KProto.lean ====
/-
  The cross-device protocol of the four-device mean, stated once for any float instance.

  Device c adds its own 1536 rows of x column by column (its PARTIAL, a row of 768), tells each of the other three
  devices it is inside the kernel (one unit on their barrier semaphore each), waits for its own three units, copies its
  partial into slot k-1 of the landing buffer of device c+k (k = 1, 2, 3), adds the three partials that land in its own
  slots to its own, scales by its constant, the float nearest 1/6144, and waits for its three copies to have left.

  Cells of a device: its barrier cell (three duties of one unit, duty j paid by device c+(3-j), whose payload is that
  device's slot 2-j, which c will write, and that its receive cell for that slot is at round 0), three send cells (one
  duty, paid by the device's own copy k, giving back the share of the partial that copy read) and three receive cells
  (one duty, paid by the copy of device c+(3-k), whose payload is slot k holding that device's partial).
-/
import proofs.«900945_g7700000000000946_dist_mean_ax0_shard0_i_m1536_n768_v7x_i4_f32_1_alg».proof.Proof.Gen.Kernel
import proofs.«900945_g7700000000000946_dist_mean_ax0_shard0_i_m1536_n768_v7x_i4_f32_1_alg».proof.Proof.Gen.Kernel.Skeleton
import proofs.«900945_g7700000000000946_dist_mean_ax0_shard0_i_m1536_n768_v7x_i4_f32_1_alg».proof.Proof.Gen.Kernel.Launch
import proofs.«900945_g7700000000000946_dist_mean_ax0_shard0_i_m1536_n768_v7x_i4_f32_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def st₀ : MemSt nD τ sig (Elt F) := ⟨m, fun _ => 0, ρ⟩

/-! ## The mesh as a cycle -/

/-- The device `k` places after `c`. -/
def fwd (k : ℕ) (c : Dev nD) : Dev nD := ⟨(c.val + k) % 4, Nat.mod_lt _ (by decide)⟩

theorem fwd13 (c : Dev nD) : fwd 1 (fwd 3 c) = c := by revert c; decide
theorem fwd31 (c : Dev nD) : fwd 3 (fwd 1 c) = c := by revert c; decide
theorem fwd22 (c : Dev nD) : fwd 2 (fwd 2 c) = c := by revert c; decide

def rot1 : Dev nD ≃ Dev nD := ⟨fwd 1, fwd 3, fwd31, fwd13⟩
def rot2 : Dev nD ≃ Dev nD := ⟨fwd 2, fwd 2, fwd22, fwd22⟩
def rot3 : Dev nD ≃ Dev nD := ⟨fwd 3, fwd 1, fwd13, fwd31⟩

/-- The kernel's device chains: signals and copies `k` go to the device `k` places on. -/
theorem dev1_eq (c : Dev nD) : (⟨k0_dev1 c, k0_dev1_lt c⟩ : Dev nD) = fwd 1 c := Fin.ext (k0_dev1_eq c)
theorem dev2_eq (c : Dev nD) : (⟨k0_dev2 c, k0_dev2_lt c⟩ : Dev nD) = fwd 2 c := Fin.ext (k0_dev2_eq c)
theorem dev3_eq (c : Dev nD) : (⟨k0_dev3 c, k0_dev3_lt c⟩ : Dev nD) = fwd 3 c := Fin.ext (k0_dev3_eq c)
theorem dev4_eq (c : Dev nD) : (⟨k0_dev4 c, k0_dev4_lt c⟩ : Dev nD) = fwd 1 c := Fin.ext (k0_dev4_eq c)
theorem dev5_eq (c : Dev nD) : (⟨k0_dev5 c, k0_dev5_lt c⟩ : Dev nD) = fwd 2 c := Fin.ext (k0_dev5_eq c)
theorem dev6_eq (c : Dev nD) : (⟨k0_dev6 c, k0_dev6_lt c⟩ : Dev nD) = fwd 3 c := Fin.ext (k0_dev6_eq c)

/-! ## The memrefs and cells -/

abbrev xM : Memref sig .tc .vmem S1536x768 .f32 := Memref.whole cc0_stg0_0
abbrev oM : Memref sig .tc .vmem S1x768 .f32 := Memref.whole cc0_stg1_0
abbrev pM : Memref sig .tc .vmem S1x768 .f32 := Memref.whole cc0_scratch0
abbrev cM : Memref sig .tc .vmem S3x1x768 .f32 := Memref.whole cc0_scratch1

/-- The three slots of the landing buffer, as the body spells them. -/
abbrev rc0 : Rect S3x1x768 := Rect.unit (s := S3x1x768) ![0, 0, 0] S1x1x768.size inb_S3x1x768_S1x1x768_0_0_0
abbrev rc1 : Rect S3x1x768 := Rect.unit (s := S3x1x768) ![1, 0, 0] S1x1x768.size inb_S3x1x768_S1x1x768_1_0_0
abbrev rc2 : Rect S3x1x768 := Rect.unit (s := S3x1x768) ![2, 0, 0] S1x1x768.size inb_S3x1x768_S1x1x768_2_0_0
abbrev slot0 : Memref sig .tc .vmem S1x768 .f32 := (cM.slice rc0 (fun _ => rfl)).squeeze S1x768 squeezes_S1x1x768_S1x768
abbrev slot1 : Memref sig .tc .vmem S1x768 .f32 := (cM.slice rc1 (fun _ => rfl)).squeeze S1x768 squeezes_S1x1x768_S1x768
abbrev slot2 : Memref sig .tc .vmem S1x768 .f32 := (cM.slice rc2 (fun _ => rfl)).squeeze S1x768 squeezes_S1x1x768_S1x768
abbrev slot : Fin 3 → Memref sig .tc .vmem S1x768 .f32 := fun | 0 => slot0 | 1 => slot1 | 2 => slot2

/-- The runtime's barrier semaphore of collective id 0; the send and receive DMA semaphores of copy `k`. -/
abbrev barS : Sem sig := (SemArray.scalar (sig.barrier 0 rfl) : Sems sig S_).sem
abbrev sendS : Fin 3 → DmaSem sig := fun | 0 => 2 | 1 => 3 | 2 => 4
abbrev recvS : Fin 3 → DmaSem sig := fun | 0 => 5 | 1 => 6 | 2 => 7

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's own (scoped) semaphores as the launch theorem indexes them: send 0..2, receive 0..2; -/
abbrev osem : Fin 6 → SemLoc sig := fun | 0 => .dma 2 | 1 => .dma 3 | 2 => .dma 4 | 3 => .dma 5 | 4 => .dma 6 | 5 => .dma 7
/-- all seven of the protocol's: barrier, send 0..2, receive 0..2. -/
abbrev csem : Fin 7 → SemLoc sig := fun | 0 => .reg barS | 1 => .dma 2 | 2 => .dma 3 | 3 => .dma 4 | 4 => .dma 5 | 5 => .dma 6 | 6 => .dma 7
abbrev kcell (ck : Dev nD × Fin 7) : GSem nD τ sig := ((ck.1 : Thread nD τ), csem ck.2)

/-- The units one copy of a row of 768 credits. -/
abbrev N : ℕ := (pM : Memref sig .tc .vmem S1x768 .f32).view.dmaCredit
theorem N_pos : 0 < N := View.dmaCredit_pos _ (by decide)

/-- The shares of the partial the three copies read; the fourth, `qL`, stays with the device (it loads the partial
    while the copies are in flight). -/
abbrev qS : Fin 3 → PosShare TreeShare := fun | 0 => fullShare.left.left | 1 => fullShare.left.right | 2 => fullShare.right.left
abbrev qL : PosShare TreeShare := fullShare.right.right

/-! ## Contents -/

/-- Device `c`'s block of x, as staged. -/
def xstg (c : Dev nD) : (cc0_stg0_0 : Ref sig .tc).ty.Contents (Elt F) :=
  (win0_0.blk (0 : Fin 1)).view.read (Elt F) ((st₀ m ρ).mem ((c : Thread nD τ).loc main_arg0))

/-- Device `c`'s partial: the column sums of its block. -/
def part (c : Dev nD) : (cc0_scratch0 : Ref sig .tc).ty.Contents (Elt F) := k0_pay1 (xstg m ρ c)

/-- A row of 768 as the one-row slice a load of a slot reads. -/
def lift3 (p : (cc0_scratch0 : Ref sig .tc).ty.Contents (Elt F)) : Vec F S1x1x768 .f32 :=
  fun i => p (ValueIdx.ix2 (0 : Fin 1) (i 2))

/-- Device `c`'s landing buffer once all three copies have landed: slot `k` holds the partial of the device
    `3 - k` places on (the one `k + 1` places back). -/
def commVal (c : Dev nD) : (cc0_scratch1 : Ref sig .tc).ty.Contents (Elt F) :=
  fun i => part m ρ (fwd (3 - (i 0).val) c) (ValueIdx.ix2 (0 : Fin 1) (i 2))

/-- The kernel's result on device `c`: its partial plus the three that landed, in the order the body adds them
    (slot 0, slot 2, slot 1), scaled. -/
def outAt (c : Dev nD) : (cc0_stg1_0 : Ref sig .tc).ty.Contents (Elt F) :=
  k0_pay2 (part m ρ c) (lift3 (part m ρ (fwd 3 c))) (lift3 (part m ρ (fwd 1 c))) (lift3 (part m ρ (fwd 2 c)))

/-! ## Points-to of the buffers the protocol moves -/

def slotPts (c : Dev nD) (k : Fin 3) (f : Buf (Elt F) ((c : Thread nD τ).loc cc0_scratch1)) : sProp 𝕄 :=
  match k with
  | 0 => (slot0 : Memref sig .tc .vmem S1x768 .f32).view.loc (c : Thread nD τ) ↦[(slot0 : Memref sig .tc .vmem S1x768 .f32).view.set]{fullShare} f
  | 1 => (slot1 : Memref sig .tc .vmem S1x768 .f32).view.loc (c : Thread nD τ) ↦[(slot1 : Memref sig .tc .vmem S1x768 .f32).view.set]{fullShare} f
  | 2 => (slot2 : Memref sig .tc .vmem S1x768 .f32).view.loc (c : Thread nD τ) ↦[(slot2 : Memref sig .tc .vmem S1x768 .f32).view.set]{fullShare} f
def partPts (c : Dev nD) (q : PosShare TreeShare) : sProp 𝕄 :=
  (pM : Memref sig .tc .vmem S1x768 .f32).view.loc (c : Thread nD τ) ↦[(pM : Memref sig .tc .vmem S1x768 .f32).view.set]{q} part m ρ c

omit [FloatOps F] in
instance slotPts_storable (c : Dev nD) (k : Fin 3) (f) : BI.Storable (upEmb : UEmb _ 𝕄) (slotPts (F := F) c k f) := by
  unfold slotPts; split <;> infer_instance
instance partPts_storable (c : Dev nD) (q) : BI.Storable (upEmb : UEmb _ 𝕄) (partPts (F := F) m ρ c q) := by unfold partPts; infer_instance

/-! ## The schedule -/

/-- Duty `j` of `c`'s barrier cell, paid by the device `3 - j` places on: that device's slot `2 - j` (any contents),
    and that its receive cell for the slot is at round 0. -/
def barPay (c : Dev nD) (j : Fin 3) : sProp 𝕄 :=
  iprop((∃ f, slotPts (fwd (3 - j.val) c) (Fin.rev j) f) ∗ reached ER (recvCell (fwd (3 - j.val) c) (Fin.rev j)) 0)
def recvPay (c : Dev nD) (k : Fin 3) : sProp 𝕄 := slotPts c k (commVal m ρ c)
def sendPay (c : Dev nD) (k : Fin 3) : sProp 𝕄 := partPts m ρ c (qS k)

abbrev IsBar (g : GSem nD τ sig) : Prop := g.1.2 = .tc ∧ g.2 = .reg barS
abbrev IsSend (g : GSem nD τ sig) : Prop := g.1.2 = .tc ∧ (g.2 = .dma 2 ∨ g.2 = .dma 3 ∨ g.2 = .dma 4)
abbrev IsRecv (g : GSem nD τ sig) : Prop := g.1.2 = .tc ∧ (g.2 = .dma 5 ∨ g.2 = .dma 6 ∨ g.2 = .dma 7)

/-- Which copy a DMA semaphore of the protocol belongs to. -/
def copyOf (s : SemLoc sig) : Fin 3 :=
  if s = .dma 2 ∨ s = .dma 5 then 0 else if s = .dma 3 ∨ s = .dma 6 then 1 else 2

/-- One round, round 0: a barrier cell has three duties of one unit; a send or receive cell one duty, `0`, of the
    row's credit. -/
def sched : Rounds.Schedule (GSem nD τ sig) (Fin 3) 𝕄 where
  duties g r := if r = 0 ∧ IsBar g then Finset.univ else if r = 0 ∧ (IsSend g ∨ IsRecv g) then {0} else ∅
  unitless _ := False
  amount g _ _ := if g.2 = .reg barS then 1 else N
  payload g _ d :=
    if g.2 = .reg barS then barPay g.1.1 d
    else if IsRecv g then recvPay m ρ g.1.1 (copyOf g.2)
    else if IsSend g then sendPay m ρ g.1.1 (copyOf g.2)
    else iprop(emp)
  amount_pos g _ _ _ := by
    by_cases h : g.2 = .reg barS
    · rw [if_pos h]; exact Nat.one_pos
    · rw [if_neg h]; exact N_pos

/-! ## What each core owes at launch; the levels -/

/-- Device `c` owes each other device's barrier cell one unit and the receive cell of the slot it writes there the
    row's credit, summed in the order the body pays them off (the last summand first). -/
def O₅ (c : Dev nD) : CellTallies nD τ sig Unit := tallyAt (recvCell (fwd 3 c) 2) () N
def O₄ (c : Dev nD) : CellTallies nD τ sig Unit := O₅ c + tallyAt (recvCell (fwd 2 c) 1) () N
def O₃ (c : Dev nD) : CellTallies nD τ sig Unit := O₄ c + tallyAt (recvCell (fwd 1 c) 0) () N
def O₂ (c : Dev nD) : CellTallies nD τ sig Unit := O₃ c + tallyAt (barCell (fwd 3 c)) () 1
def O₁ (c : Dev nD) : CellTallies nD τ sig Unit := O₂ c + tallyAt (barCell (fwd 2 c)) () 1
def O₀ (c : Dev nD) : CellTallies nD τ sig Unit := O₁ c + tallyAt (barCell (fwd 1 c)) () 1

def L (g : GSem nD τ sig) : Finset Unit := if g.1.2 = .tc then {()} else ∅
/-- barrier cells at 1, receive cells at 2, everything else (staging, send) at 0. -/
def lv (g : GSem nD τ sig) (_ : Unit) : ℕ :=
  if g.2 = .reg barS then 1 else if g.2 = .dma 5 ∨ g.2 = .dma 6 ∨ g.2 = .dma 7 then 2 else 0

/-! ## The ghost state a device's body starts from -/

/-- The invariants device `c`'s body opens, under the names `K` the launch allocated them at. -/
def invs (K : Dev nD × Fin 7 → ℕ) (c : Dev nD) : sProp 𝕄 :=
  iprop(cellInv ER (sched m ρ) (K (c, 0)) (barCell c)
    ∗ cellInv ER (sched m ρ) (K (c, 1)) (sendCell c 0) ∗ cellInv ER (sched m ρ) (K (c, 2)) (sendCell c 1) ∗ cellInv ER (sched m ρ) (K (c, 3)) (sendCell c 2)
    ∗ cellInv ER (sched m ρ) (K (c, 4)) (recvCell c 0) ∗ cellInv ER (sched m ρ) (K (c, 5)) (recvCell c 1) ∗ cellInv ER (sched m ρ) (K (c, 6)) (recvCell c 2)
    ∗ cellInv ER (sched m ρ) (K (fwd 1 c, 0)) (barCell (fwd 1 c)) ∗ cellInv ER (sched m ρ) (K (fwd 2 c, 0)) (barCell (fwd 2 c)) ∗ cellInv ER (sched m ρ) (K (fwd 3 c, 0)) (barCell (fwd 3 c))
    ∗ cellInv ER (sched m ρ) (K (fwd 1 c, 4)) (recvCell (fwd 1 c) 0) ∗ cellInv ER (sched m ρ) (K (fwd 2 c, 5)) (recvCell (fwd 2 c) 1) ∗ cellInv ER (sched m ρ) (K (fwd 3 c, 6)) (recvCell (fwd 3 c) 2))

instance invs_persistent (K : Dev nD × Fin 7 → ℕ) (c : Dev nD) : BI.Persistent (invs m ρ K c) := by unfold invs; infer_instance

/-- Its positions at round 0 of its seven cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- The round-0 marks of the cells it pays, and of its own receive cells (which its signals hand on). -/
def marks (c : Dev nD) : sProp 𝕄 :=
  iprop(reached ER (barCell (fwd 1 c)) 0 ∗ reached ER (barCell (fwd 2 c)) 0 ∗ reached ER (barCell (fwd 3 c)) 0
    ∗ reached ER (recvCell (fwd 1 c) 0) 0 ∗ reached ER (recvCell (fwd 2 c) 1) 0 ∗ reached ER (recvCell (fwd 3 c) 2) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance marks_persistent (c : Dev nD) : BI.Persistent (marks (F := F) c) := by unfold marks; infer_instance

/-- The tokens of the nine duties it pays: duty `k - 1` of the barrier cell `k` places on, the receive duty of the
    slot it writes there, its own three send duties. -/
def payToks (c : Dev nD) : sProp 𝕄 :=
  iprop(dutyTok ER (barCell (fwd 1 c)) 0 0 ∗ dutyTok ER (barCell (fwd 2 c)) 0 1 ∗ dutyTok ER (barCell (fwd 3 c)) 0 2
    ∗ dutyTok ER (recvCell (fwd 1 c) 0) 0 0 ∗ dutyTok ER (recvCell (fwd 2 c) 1) 0 0 ∗ dutyTok ER (recvCell (fwd 3 c) 2) 0 0
    ∗ dutyTok ER (sendCell c 0) 0 0 ∗ dutyTok ER (sendCell c 1) 0 0 ∗ dutyTok ER (sendCell c 2) 0 0)

def ghost (K : Dev nD × Fin 7 → ℕ) (c : Dev nD) : sProp 𝕄 :=
  iprop(invs m ρ K c ∗ poss c ∗ marks c ∗ payToks c)

/-- Its launch credit: the three units the others owe its barrier cell, the row's credit on each receive cell. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from, beside its scratch buffers. -/
def start (c : Dev nD) : sProp 𝕄 :=
  iprop((∃ K, ghost m ρ K c) ∗ creds c ∗ levAts L lv)

/-- The two scratch buffers, whole, at some contents (as the region's entry leaves them and its exit takes them). -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The six own semaphores at zero, closed. -/
def ownZero (c : Dev nD) : sProp 𝕄 :=
  iprop(semVal (sendCell c 0) 0 ∗ semVal (sendCell c 1) 0 ∗ semVal (sendCell c 2) 0
    ∗ semVal (recvCell c 0) 0 ∗ semVal (recvCell c 1) 0 ∗ semVal (recvCell c 2) 0)

def Φ₀ (c : Dev nD) : sProp 𝕄 := iprop(start m ρ c ∗ scr c)
def Φ₁ (c : Dev nD) : sProp 𝕄 := iprop(scr c ∗ ownZero c)

/-! ## The pipeline's proof data -/

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.Proto

end
-- ==== Proof.KTables.lean ====
import proofs.«900945_g7700000000000946_dist_mean_ax0_shard0_i_m1536_n768_v7x_i4_f32_1_alg».proof.Proof.KProto

noncomputable section

namespace Cert.Kernel.Tables

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables, cell by cell -/

section Sched
variable (c : Dev nD)

omit [FloatOps F] in
theorem send_ne_bar (k : Fin 3) : (SemLoc.dma (sendS k) : SemLoc sig) ≠ .reg barS := fun h => by cases h
omit [FloatOps F] in
theorem recv_ne_bar (k : Fin 3) : (SemLoc.dma (recvS k) : SemLoc sig) ≠ .reg barS := fun h => by cases h
omit [FloatOps F] in
theorem not_bar_send (k : Fin 3) : ¬ IsBar (sendCell c k) := fun h => send_ne_bar k h.2
omit [FloatOps F] in
theorem not_bar_recv (k : Fin 3) : ¬ IsBar (recvCell c k) := fun h => recv_ne_bar k h.2
omit [FloatOps F] in
theorem isSend_send (k : Fin 3) : IsSend (sendCell c k) := by
  fin_cases k
  · exact ⟨rfl, .inl rfl⟩
  · exact ⟨rfl, .inr (.inl rfl)⟩
  · exact ⟨rfl, .inr (.inr rfl)⟩
omit [FloatOps F] in
theorem isRecv_recv (k : Fin 3) : IsRecv (recvCell c k) := by
  fin_cases k
  · exact ⟨rfl, .inl rfl⟩
  · exact ⟨rfl, .inr (.inl rfl)⟩
  · exact ⟨rfl, .inr (.inr rfl)⟩
omit [FloatOps F] in
theorem sendS_ne_recvS (k j : Fin 3) : (SemLoc.dma (sendS k) : SemLoc sig) ≠ .dma (recvS j) := by fin_cases k <;> fin_cases j <;> decide
omit [FloatOps F] in
theorem not_recv_send (k : Fin 3) : ¬ IsRecv (sendCell c k) := fun h => by
  rcases h.2 with h | h | h
  · exact sendS_ne_recvS k 0 h
  · exact sendS_ne_recvS k 1 h
  · exact sendS_ne_recvS k 2 h
omit [FloatOps F] in
theorem copyOf_send (k : Fin 3) : copyOf (SemLoc.dma (sendS k) : SemLoc sig) = k := by fin_cases k <;> decide
omit [FloatOps F] in
theorem copyOf_recv (k : Fin 3) : copyOf (SemLoc.dma (recvS k) : SemLoc sig) = k := by fin_cases k <;> decide

theorem duties_bar : (sched (F := F) m ρ).duties (barCell c) 0 = Finset.univ := by dsimp only [sched]; exact if_pos ⟨rfl, rfl, rfl⟩
theorem duties_send (k : Fin 3) : (sched (F := F) m ρ).duties (sendCell c k) 0 = {0} := by
  dsimp only [sched]; rw [if_neg (fun h => not_bar_send c k h.2)]; exact if_pos ⟨rfl, .inl (isSend_send c k)⟩
theorem duties_recv (k : Fin 3) : (sched (F := F) m ρ).duties (recvCell c k) 0 = {0} := by
  dsimp only [sched]; rw [if_neg (fun h => not_bar_recv c k h.2)]; exact if_pos ⟨rfl, .inr (isRecv_recv c k)⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_send (k d : Fin 3) : (sched (F := F) m ρ).amount (sendCell c k) 0 d = N := by dsimp only [sched]; exact if_neg (send_ne_bar k)
theorem amount_recv (k d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (sched (F := F) m ρ).expect (sendCell c k) 0 = N := by
  unfold Schedule.expect Schedule.amountOf; rw [duties_send, Finset.sum_singleton, amount_send]
theorem expect_recv (k : Fin 3) : (sched (F := F) m ρ).expect (recvCell c k) 0 = N := by
  unfold Schedule.expect Schedule.amountOf; rw [duties_recv, Finset.sum_singleton, amount_recv]

theorem payload_bar (j : Fin 3) : (sched (F := F) m ρ).payload (barCell c) 0 j = barPay c j := by dsimp only [sched]; rw [if_pos rfl]
theorem payload_send (k d : Fin 3) : (sched (F := F) m ρ).payload (sendCell c k) 0 d = sendPay m ρ c k := by
  dsimp only [sched]; rw [if_neg (send_ne_bar k), if_neg (not_recv_send c k), if_pos (isSend_send c k), copyOf_send]
theorem payload_recv (k d : Fin 3) : (sched (F := F) m ρ).payload (recvCell c k) 0 d = recvPay m ρ c k := by
  dsimp only [sched]; rw [if_neg (recv_ne_bar k), if_pos (isRecv_recv c k), copyOf_recv]

/-- The whole of the barrier cell's round: the three others' slots. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## The level evidence of the barrier wait -/

omit [FloatOps F] in
theorem L_tc (c : Dev nD) (sm : SemLoc sig) : L ((c : Thread nD τ), sm) = {()} := if_pos rfl

omit [FloatOps F] in
theorem O₃_pos {c : Dev nD} {g : GSem nD τ sig} {u : Unit} (h : 0 < O₃ c g u) :
    g = recvCell (fwd 3 c) 2 ∨ g = recvCell (fwd 2 c) 1 ∨ g = recvCell (fwd 1 c) 0 := by
  unfold O₃ O₄ O₅ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

omit [FloatOps F] in
theorem lv_recv (d : Dev nD) (k : Fin 3) : lv (recvCell d k) () = 2 := by
  fin_cases k <;> (dsimp only [lv]; rw [if_neg (fun h => by cases h)]; exact if_pos (by decide))

/-- At its barrier wait a device owes only the three receive credits: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> (rw [L_tc]; exact Finset.mem_singleton_self _))
    (fun p hp => by rw [Finset.mem_singleton.mp hp]; dsimp only [lv]; rw [if_pos rfl])
    (fun g u hg => by rcases O₃_pos hg with rfl | rfl | rfl <;> (rw [lv_recv]; decide))

end Cert.Kernel.Tables

end
-- ==== Proof.KViews.lean ====
/-
  The views of the four-device mean's buffers, as pure facts: what the three slots of the landing buffer cover, what a
  copy into a slot leaves there, what a load of a slot reads, and the whole-buffer reads and writes of the partial, the
  result and the staged block of x.
-/
import proofs.«900945_g7700000000000946_dist_mean_ax0_shard0_i_m1536_n768_v7x_i4_f32_1_alg».proof.Proof.KProto
import Idealize.ShloMosaic.Lib.Pipeline.Value

noncomputable section

namespace Cert.Kernel.Views

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers through their full rectangle -/

/-- The full rectangle of a row of 768, and of the staged block of x. -/
abbrev r1 : Rect S1x768 := Rect.unit (s := S1x768) ![0, 0] S1x768.size inb_S1x768_S1x768_0_0
abbrev rx : Rect S1536x768 := Rect.unit (s := S1536x768) ![0, 0] S1536x768.size inb_S1536x768_S1536x768_0_0

theorem hz : (![0, 0] : Fin 2 → Nat) = fun _ => 0 := funext fun a => by fin_cases a <;> rfl

/-- A load of the whole partial reads its contents; -/
theorem read_p (f : (cc0_scratch0 : Ref sig .tc).ty.Contents (Elt F)) :
    (pM : Memref sig .tc .vmem S1x768 .f32).view.readAt (Elt F) r1.toLoadRect f = f :=
  Memref.readAt_unit_zero (Elt F) cc0_scratch0 hz _ f

/-- a store of the whole partial leaves the stored row. -/
theorem write_p (f w : (cc0_scratch0 : Ref sig .tc).ty.Contents (Elt F)) :
    ((pM : Memref sig .tc .vmem S1x768 .f32).access r1 : View sig .tc _ _ _).write (Elt F) f w Finset.univ = w :=
  Memref.write_access_unit_zero_univ (Elt F) cc0_scratch0 hz _ f w

/-- The same of the result's staging buffer, -/
theorem read_o (f : (cc0_stg1_0 : Ref sig .tc).ty.Contents (Elt F)) :
    (oM : Memref sig .tc .vmem S1x768 .f32).view.readAt (Elt F) r1.toLoadRect f = f :=
  Memref.readAt_unit_zero (Elt F) cc0_stg1_0 hz _ f

theorem write_o (f w : (cc0_stg1_0 : Ref sig .tc).ty.Contents (Elt F)) :
    ((oM : Memref sig .tc .vmem S1x768 .f32).access r1 : View sig .tc _ _ _).write (Elt F) f w Finset.univ = w :=
  Memref.write_access_unit_zero_univ (Elt F) cc0_stg1_0 hz _ f w

/-- and a load of the whole staged block of x reads it. -/
theorem read_x (f : (cc0_stg0_0 : Ref sig .tc).ty.Contents (Elt F)) :
    (xM : Memref sig .tc .vmem S1536x768 .f32).view.readAt (Elt F) rx.toLoadRect f = f :=
  Memref.readAt_unit_zero (Elt F) cc0_stg0_0 hz _ f

/-! ## What a copy into a slot credits -/

theorem amount_0 (s : DmaSem sig) : (slot0 : Memref sig .tc .vmem S1x768 .f32).view.amount (.dma s) = N := rfl
theorem amount_1 (s : DmaSem sig) : (slot1 : Memref sig .tc .vmem S1x768 .f32).view.amount (.dma s) = N := rfl
theorem amount_2 (s : DmaSem sig) : (slot2 : Memref sig .tc .vmem S1x768 .f32).view.amount (.dma s) = N := rfl
theorem amount_p (s : DmaSem sig) : (pM : Memref sig .tc .vmem S1x768 .f32).view.amount (.dma s) = N := rfl

/-! ## The slots' element sets -/

/-- Slot `k`'s elements are those of its rectangle. -/
theorem set_0 : (slot0 : Memref sig .tc .vmem S1x768 .f32).view.set = rc0.set :=
  (View.set_reshape _ _).trans (View.set_slice_whole cc0_scratch1 rc0)
theorem set_1 : (slot1 : Memref sig .tc .vmem S1x768 .f32).view.set = rc1.set :=
  (View.set_reshape _ _).trans (View.set_slice_whole cc0_scratch1 rc1)
theorem set_2 : (slot2 : Memref sig .tc .vmem S1x768 .f32).view.set = rc2.set :=
  (View.set_reshape _ _).trans (View.set_slice_whole cc0_scratch1 rc2)

/-- The elements a load of slot `k` through the whole landing buffer reads are the slot's. -/
theorem setOn_0 : (cM : Memref sig .tc .vmem S3x1x768 .f32).view.setOn rc0.toLoadRect.set = (slot0 : Memref sig .tc .vmem S1x768 .f32).view.set :=
  (Finset.map_refl).trans set_0.symm
theorem setOn_1 : (cM : Memref sig .tc .vmem S3x1x768 .f32).view.setOn rc1.toLoadRect.set = (slot1 : Memref sig .tc .vmem S1x768 .f32).view.set :=
  (Finset.map_refl).trans set_1.symm
theorem setOn_2 : (cM : Memref sig .tc .vmem S3x1x768 .f32).view.setOn rc2.toLoadRect.set = (slot2 : Memref sig .tc .vmem S1x768 .f32).view.set :=
  (Finset.map_refl).trans set_2.symm

/-! ## The slots split the landing buffer -/

theorem slot_disj01 : Disjoint (slot0 : Memref sig .tc .vmem S1x768 .f32).view.set (slot1 : Memref sig .tc .vmem S1x768 .f32).view.set := by
  rw [set_0, set_1]; exact Rect.unit_disjoint 0 (Or.inl (by decide))
theorem slot_disj02 : Disjoint (slot0 : Memref sig .tc .vmem S1x768 .f32).view.set (slot2 : Memref sig .tc .vmem S1x768 .f32).view.set := by
  rw [set_0, set_2]; exact Rect.unit_disjoint 0 (Or.inl (by decide))
theorem slot_disj12 : Disjoint (slot1 : Memref sig .tc .vmem S1x768 .f32).view.set (slot2 : Memref sig .tc .vmem S1x768 .f32).view.set := by
  rw [set_1, set_2]; exact Rect.unit_disjoint 0 (Or.inl (by decide))

/-- An element of the landing buffer is in the slot its first coordinate names. -/
theorem mem_rc0 (i : S3x1x768.Idx) : i ∈ rc0.set ↔ (i 0).val = 0 := by
  rw [Rect.mem_set_unit]
  have h1 : (i 1).val < 1 := (i 1).isLt
  have h2 : (i 2).val < 768 := (i 2).isLt
  constructor
  · intro h; have := h 0; change 0 ≤ (i 0).val ∧ (i 0).val < 0 + 1 at this; omega
  · intro h a
    match a with
    | ⟨0, _⟩ => change 0 ≤ (i 0).val ∧ (i 0).val < 0 + 1; omega
    | ⟨1, _⟩ => change 0 ≤ (i 1).val ∧ (i 1).val < 0 + 1; omega
    | ⟨2, _⟩ => change 0 ≤ (i 2).val ∧ (i 2).val < 0 + 768; omega
theorem mem_rc1 (i : S3x1x768.Idx) : i ∈ rc1.set ↔ (i 0).val = 1 := by
  rw [Rect.mem_set_unit]
  have h1 : (i 1).val < 1 := (i 1).isLt
  have h2 : (i 2).val < 768 := (i 2).isLt
  constructor
  · intro h; have := h 0; change 1 ≤ (i 0).val ∧ (i 0).val < 1 + 1 at this; omega
  · intro h a
    match a with
    | ⟨0, _⟩ => change 1 ≤ (i 0).val ∧ (i 0).val < 1 + 1; omega
    | ⟨1, _⟩ => change 0 ≤ (i 1).val ∧ (i 1).val < 0 + 1; omega
    | ⟨2, _⟩ => change 0 ≤ (i 2).val ∧ (i 2).val < 0 + 768; omega
theorem mem_rc2 (i : S3x1x768.Idx) : i ∈ rc2.set ↔ (i 0).val = 2 := by
  rw [Rect.mem_set_unit]
  have h1 : (i 1).val < 1 := (i 1).isLt
  have h2 : (i 2).val < 768 := (i 2).isLt
  constructor
  · intro h; have := h 0; change 2 ≤ (i 0).val ∧ (i 0).val < 2 + 1 at this; omega
  · intro h a
    match a with
    | ⟨0, _⟩ => change 2 ≤ (i 0).val ∧ (i 0).val < 2 + 1; omega
    | ⟨1, _⟩ => change 0 ≤ (i 1).val ∧ (i 1).val < 0 + 1; omega
    | ⟨2, _⟩ => change 0 ≤ (i 2).val ∧ (i 2).val < 0 + 768; omega

theorem slot_cover : (slot0 : Memref sig .tc .vmem S1x768 .f32).view.set ∪ (slot1 : Memref sig .tc .vmem S1x768 .f32).view.set
    ∪ (slot2 : Memref sig .tc .vmem S1x768 .f32).view.set = Finset.univ := by
  rw [set_0, set_1, set_2]
  ext i
  have h0 : (i 0).val < 3 := (i 0).isLt
  simp only [Finset.mem_union, Finset.mem_univ, iff_true]
  rw [mem_rc0, mem_rc1, mem_rc2]
  omega

/-! ## What lands in a slot, and what a load of it reads -/

/-- Where slot 0 places the elements of a row of 768: in row 0 of the landing buffer, at the same column. -/
theorem slot_emb_0 (y : S1x768.Idx) :
    ((slot0 : Memref sig .tc .vmem S1x768 .f32).view.emb y : S3x1x768.Idx) = ValueIdx.ix3 (0 : Fin 3) (0 : Fin 1) (y 1) := by
  have hz : Shape.reshapeEquiv (s := S1x1x768) (s' := S1x768) squeezes_S1x1x768_S1x768.numel_eq y = Fin.cons ⟨0, Nat.one_pos⟩ y :=
    Shape.reshapeEquiv_cons_one (n := 2) (d := ![1, 768]) _ y
  change rc0.emb (Shape.reshapeEquiv squeezes_S1x1x768_S1x768.numel_eq y) = _
  rw [hz]
  have h0 : (y 0).val < 1 := (y 0).isLt
  funext a; apply Fin.ext
  match a with
  | ⟨0, _⟩ => rfl
  | ⟨1, _⟩ => change 0 + 1 * (y 0).val = 0; omega
  | ⟨2, _⟩ => change 0 + 1 * (y 1).val = (y 1).val; omega

/-- A copy of a row `p` into slot 0 leaves `p` there, column by column. -/
theorem landed_0 (d : Dev nD) (fd : Buf (Elt F) ((d : Thread nD τ).loc cc0_scratch1))
    (p : (cc0_scratch0 : Ref sig .tc).ty.Contents (Elt F)) :
    ∀ i ∈ (slot0 : Memref sig .tc .vmem S1x768 .f32).view.set,
      (slot0 : Memref sig .tc .vmem S1x768 .f32).view.write (Elt F) fd ((pM : Memref sig .tc .vmem S1x768 .f32).view.read (Elt F) p) Finset.univ i
        = p (ValueIdx.ix2 (0 : Fin 1) (i 2)) := by
  intro i hi
  obtain ⟨y, rfl⟩ := View.exists_emb_of_mem_set _ hi
  rw [View.write_emb_of_mem _ _ (Finset.mem_univ y)]
  have h0 : (y 0).val < 1 := (y 0).isLt
  have hy : y = ValueIdx.ix2 (0 : Fin 1) (((slot0 : Memref sig .tc .vmem S1x768 .f32).view.emb y) 2) := by
    rw [slot_emb_0]
    funext a; apply Fin.ext
    match a with
    | ⟨0, _⟩ => change (y 0).val = 0; omega
    | ⟨1, _⟩ => rfl
  change p y = _
  exact congrArg p hy

/-- Slot 0 of the landed buffer holds the partial of the device 3 place(s) on. -/
theorem commVal_on_0 (d : Dev nD) :
    ∀ i ∈ (slot0 : Memref sig .tc .vmem S1x768 .f32).view.set,
      commVal m ρ d i = part m ρ (fwd 3 d) (ValueIdx.ix2 (0 : Fin 1) (i 2)) := by
  intro i hi
  rw [set_0] at hi
  have h := (mem_rc0 i).mp hi
  change part m ρ (fwd (3 - (i 0).val) d) (ValueIdx.ix2 (0 : Fin 1) (i 2)) = _
  rw [h]

/-- A load of slot 0 of the landed buffer reads that partial as a one-row slice. -/
theorem read_slot_0 (d : Dev nD) :
    (cM : Memref sig .tc .vmem S3x1x768 .f32).view.readAt (Elt F) rc0.toLoadRect (commVal m ρ d) = lift3 (part m ρ (fwd 3 d)) := by
  funext x
  have hx0 : (x 0).val < 1 := (x 0).isLt
  have e0 : ((rc0.toLoadRect.idx x) 0).val = 0 := by
    rw [LoadRect.idx_apply]; change 0 + 1 * (x 0).val = 0; omega
  have e2 : (rc0.toLoadRect.idx x) 2 = x 2 := Fin.ext (by
    rw [LoadRect.idx_apply]; change 0 + 1 * (x 2).val = (x 2).val; omega)
  change part m ρ (fwd (3 - ((rc0.toLoadRect.idx x) 0).val) d) (ValueIdx.ix2 (0 : Fin 1) ((rc0.toLoadRect.idx x) 2))
    = part m ρ (fwd 3 d) (ValueIdx.ix2 (0 : Fin 1) (x 2))
  rw [e0, e2]

/-- Where slot 1 places the elements of a row of 768: in row 1 of the landing buffer, at the same column. -/
theorem slot_emb_1 (y : S1x768.Idx) :
    ((slot1 : Memref sig .tc .vmem S1x768 .f32).view.emb y : S3x1x768.Idx) = ValueIdx.ix3 (1 : Fin 3) (0 : Fin 1) (y 1) := by
  have hz : Shape.reshapeEquiv (s := S1x1x768) (s' := S1x768) squeezes_S1x1x768_S1x768.numel_eq y = Fin.cons ⟨0, Nat.one_pos⟩ y :=
    Shape.reshapeEquiv_cons_one (n := 2) (d := ![1, 768]) _ y
  change rc1.emb (Shape.reshapeEquiv squeezes_S1x1x768_S1x768.numel_eq y) = _
  rw [hz]
  have h0 : (y 0).val < 1 := (y 0).isLt
  funext a; apply Fin.ext
  match a with
  | ⟨0, _⟩ => rfl
  | ⟨1, _⟩ => change 0 + 1 * (y 0).val = 0; omega
  | ⟨2, _⟩ => change 0 + 1 * (y 1).val = (y 1).val; omega

/-- A copy of a row `p` into slot 1 leaves `p` there, column by column. -/
theorem landed_1 (d : Dev nD) (fd : Buf (Elt F) ((d : Thread nD τ).loc cc0_scratch1))
    (p : (cc0_scratch0 : Ref sig .tc).ty.Contents (Elt F)) :
    ∀ i ∈ (slot1 : Memref sig .tc .vmem S1x768 .f32).view.set,
      (slot1 : Memref sig .tc .vmem S1x768 .f32).view.write (Elt F) fd ((pM : Memref sig .tc .vmem S1x768 .f32).view.read (Elt F) p) Finset.univ i
        = p (ValueIdx.ix2 (0 : Fin 1) (i 2)) := by
  intro i hi
  obtain ⟨y, rfl⟩ := View.exists_emb_of_mem_set _ hi
  rw [View.write_emb_of_mem _ _ (Finset.mem_univ y)]
  have h0 : (y 0).val < 1 := (y 0).isLt
  have hy : y = ValueIdx.ix2 (0 : Fin 1) (((slot1 : Memref sig .tc .vmem S1x768 .f32).view.emb y) 2) := by
    rw [slot_emb_1]
    funext a; apply Fin.ext
    match a with
    | ⟨0, _⟩ => change (y 0).val = 0; omega
    | ⟨1, _⟩ => rfl
  change p y = _
  exact congrArg p hy

/-- Slot 1 of the landed buffer holds the partial of the device 2 place(s) on. -/
theorem commVal_on_1 (d : Dev nD) :
    ∀ i ∈ (slot1 : Memref sig .tc .vmem S1x768 .f32).view.set,
      commVal m ρ d i = part m ρ (fwd 2 d) (ValueIdx.ix2 (0 : Fin 1) (i 2)) := by
  intro i hi
  rw [set_1] at hi
  have h := (mem_rc1 i).mp hi
  change part m ρ (fwd (3 - (i 0).val) d) (ValueIdx.ix2 (0 : Fin 1) (i 2)) = _
  rw [h]

/-- A load of slot 1 of the landed buffer reads that partial as a one-row slice. -/
theorem read_slot_1 (d : Dev nD) :
    (cM : Memref sig .tc .vmem S3x1x768 .f32).view.readAt (Elt F) rc1.toLoadRect (commVal m ρ d) = lift3 (part m ρ (fwd 2 d)) := by
  funext x
  have hx0 : (x 0).val < 1 := (x 0).isLt
  have e0 : ((rc1.toLoadRect.idx x) 0).val = 1 := by
    rw [LoadRect.idx_apply]; change 1 + 1 * (x 0).val = 1; omega
  have e2 : (rc1.toLoadRect.idx x) 2 = x 2 := Fin.ext (by
    rw [LoadRect.idx_apply]; change 0 + 1 * (x 2).val = (x 2).val; omega)
  change part m ρ (fwd (3 - ((rc1.toLoadRect.idx x) 0).val) d) (ValueIdx.ix2 (0 : Fin 1) ((rc1.toLoadRect.idx x) 2))
    = part m ρ (fwd 2 d) (ValueIdx.ix2 (0 : Fin 1) (x 2))
  rw [e0, e2]

/-- Where slot 2 places the elements of a row of 768: in row 2 of the landing buffer, at the same column. -/
theorem slot_emb_2 (y : S1x768.Idx) :
    ((slot2 : Memref sig .tc .vmem S1x768 .f32).view.emb y : S3x1x768.Idx) = ValueIdx.ix3 (2 : Fin 3) (0 : Fin 1) (y 1) := by
  have hz : Shape.reshapeEquiv (s := S1x1x768) (s' := S1x768) squeezes_S1x1x768_S1x768.numel_eq y = Fin.cons ⟨0, Nat.one_pos⟩ y :=
    Shape.reshapeEquiv_cons_one (n := 2) (d := ![1, 768]) _ y
  change rc2.emb (Shape.reshapeEquiv squeezes_S1x1x768_S1x768.numel_eq y) = _
  rw [hz]
  have h0 : (y 0).val < 1 := (y 0).isLt
  funext a; apply Fin.ext
  match a with
  | ⟨0, _⟩ => rfl
  | ⟨1, _⟩ => change 0 + 1 * (y 0).val = 0; omega
  | ⟨2, _⟩ => change 0 + 1 * (y 1).val = (y 1).val; omega

/-- A copy of a row `p` into slot 2 leaves `p` there, column by column. -/
theorem landed_2 (d : Dev nD) (fd : Buf (Elt F) ((d : Thread nD τ).loc cc0_scratch1))
    (p : (cc0_scratch0 : Ref sig .tc).ty.Contents (Elt F)) :
    ∀ i ∈ (slot2 : Memref sig .tc .vmem S1x768 .f32).view.set,
      (slot2 : Memref sig .tc .vmem S1x768 .f32).view.write (Elt F) fd ((pM : Memref sig .tc .vmem S1x768 .f32).view.read (Elt F) p) Finset.univ i
        = p (ValueIdx.ix2 (0 : Fin 1) (i 2)) := by
  intro i hi
  obtain ⟨y, rfl⟩ := View.exists_emb_of_mem_set _ hi
  rw [View.write_emb_of_mem _ _ (Finset.mem_univ y)]
  have h0 : (y 0).val < 1 := (y 0).isLt
  have hy : y = ValueIdx.ix2 (0 : Fin 1) (((slot2 : Memref sig .tc .vmem S1x768 .f32).view.emb y) 2) := by
    rw [slot_emb_2]
    funext a; apply Fin.ext
    match a with
    | ⟨0, _⟩ => change (y 0).val = 0; omega
    | ⟨1, _⟩ => rfl
  change p y = _
  exact congrArg p hy

/-- Slot 2 of the landed buffer holds the partial of the device 1 place(s) on. -/
theorem commVal_on_2 (d : Dev nD) :
    ∀ i ∈ (slot2 : Memref sig .tc .vmem S1x768 .f32).view.set,
      commVal m ρ d i = part m ρ (fwd 1 d) (ValueIdx.ix2 (0 : Fin 1) (i 2)) := by
  intro i hi
  rw [set_2] at hi
  have h := (mem_rc2 i).mp hi
  change part m ρ (fwd (3 - (i 0).val) d) (ValueIdx.ix2 (0 : Fin 1) (i 2)) = _
  rw [h]

/-- A load of slot 2 of the landed buffer reads that partial as a one-row slice. -/
theorem read_slot_2 (d : Dev nD) :
    (cM : Memref sig .tc .vmem S3x1x768 .f32).view.readAt (Elt F) rc2.toLoadRect (commVal m ρ d) = lift3 (part m ρ (fwd 1 d)) := by
  funext x
  have hx0 : (x 0).val < 1 := (x 0).isLt
  have e0 : ((rc2.toLoadRect.idx x) 0).val = 2 := by
    rw [LoadRect.idx_apply]; change 2 + 1 * (x 0).val = 2; omega
  have e2 : (rc2.toLoadRect.idx x) 2 = x 2 := Fin.ext (by
    rw [LoadRect.idx_apply]; change 0 + 1 * (x 2).val = (x 2).val; omega)
  change part m ρ (fwd (3 - ((rc2.toLoadRect.idx x) 0).val) d) (ValueIdx.ix2 (0 : Fin 1) ((rc2.toLoadRect.idx x) 2))
    = part m ρ (fwd 1 d) (ValueIdx.ix2 (0 : Fin 1) (x 2))
  rw [e0, e2]

/-- info: 'Cert.Kernel.Views.read_p' depends on axioms: [propext, Classical.choice, Quot.sound] -/
#guard_msgs in #print axioms read_p

/-- info: 'Cert.Kernel.Views.write_p' depends on axioms: [propext, Classical.choice, Quot.sound] -/
#guard_msgs in #print axioms write_p

/-- info: 'Cert.Kernel.Views.read_o' depends on axioms: [propext, Classical.choice, Quot.sound] -/
#guard_msgs in #print axioms read_o

/-- info: 'Cert.Kernel.Views.write_o' depends on axioms: [propext, Classical.choice, Quot.sound] -/
#guard_msgs in #print axioms write_o

/-- info: 'Cert.Kernel.Views.read_x' depends on axioms: [propext, Classical.choice, Quot.sound] -/
#guard_msgs in #print axioms read_x

/-- info: 'Cert.Kernel.Views.amount_0' depends on axioms: [propext, Classical.choice, Quot.sound] -/
#guard_msgs in #print axioms amount_0

/-- info: 'Cert.Kernel.Views.amount_1' depends on axioms: [propext, Classical.choice, Quot.sound] -/
#guard_msgs in #print axioms amount_1

/-- info: 'Cert.Kernel.Views.amount_2' depends on axioms: [propext, Classical.choice, Quot.sound] -/
#guard_msgs in #print axioms amount_2

/-- info: 'Cert.Kernel.Views.setOn_0' depends on axioms: [propext, Classical.choice, Quot.sound] -/
#guard_msgs in #print axioms setOn_0

/-- info: 'Cert.Kernel.Views.setOn_1' depends on axioms: [propext, Classical.choice, Quot.sound] -/
#guard_msgs in #print axioms setOn_1

/-- info: 'Cert.Kernel.Views.setOn_2' depends on axioms: [propext, Classical.choice, Quot.sound] -/
#guard_msgs in #print axioms setOn_2

/-- info: 'Cert.Kernel.Views.slot_disj01' depends on axioms: [propext, Classical.choice, Quot.sound] -/
#guard_msgs in #print axioms slot_disj01

/-- info: 'Cert.Kernel.Views.slot_disj02' depends on axioms: [propext, Classical.choice, Quot.sound] -/
#guard_msgs in #print axioms slot_disj02

/-- info: 'Cert.Kernel.Views.slot_disj12' depends on axioms: [propext, Classical.choice, Quot.sound] -/
#guard_msgs in #print axioms slot_disj12

/-- info: 'Cert.Kernel.Views.slot_cover' depends on axioms: [propext, Classical.choice, Quot.sound] -/
#guard_msgs in #print axioms slot_cover

/-- info: 'Cert.Kernel.Views.landed_0' depends on axioms: [propext, Classical.choice, Quot.sound] -/
#guard_msgs in #print axioms landed_0

/-- info: 'Cert.Kernel.Views.landed_1' depends on axioms: [propext, Classical.choice, Quot.sound] -/
#guard_msgs in #print axioms landed_1

/-- info: 'Cert.Kernel.Views.landed_2' depends on axioms: [propext, Classical.choice, Quot.sound] -/
#guard_msgs in #print axioms landed_2

/-- info: 'Cert.Kernel.Views.commVal_on_0' depends on axioms: [propext, Classical.choice, Quot.sound] -/
#guard_msgs in #print axioms commVal_on_0

/-- info: 'Cert.Kernel.Views.commVal_on_1' depends on axioms: [propext, Classical.choice, Quot.sound] -/
#guard_msgs in #print axioms commVal_on_1

/-- info: 'Cert.Kernel.Views.commVal_on_2' depends on axioms: [propext, Classical.choice, Quot.sound] -/
#guard_msgs in #print axioms commVal_on_2

/-- info: 'Cert.Kernel.Views.read_slot_0' depends on axioms: [propext, Classical.choice, Quot.sound] -/
#guard_msgs in #print axioms read_slot_0

/-- info: 'Cert.Kernel.Views.read_slot_1' depends on axioms: [propext, Classical.choice, Quot.sound] -/
#guard_msgs in #print axioms read_slot_1

/-- info: 'Cert.Kernel.Views.read_slot_2' depends on axioms: [propext, Classical.choice, Quot.sound] -/
#guard_msgs in #print axioms read_slot_2

end Cert.Kernel.Views

end
-- ==== Proof.KShares.lean ====
/-
  The partial's buffer cut by share into the four parts the three copies and the device's own load read, and the
  landing buffer cut by element into its three slots; each cut with its converse.
-/
import proofs.«900945_g7700000000000946_dist_mean_ax0_shard0_i_m1536_n768_v7x_i4_f32_1_alg».proof.Proof.KProto
import proofs.«900945_g7700000000000946_dist_mean_ax0_shard0_i_m1536_n768_v7x_i4_f32_1_alg».proof.Proof.KViews

noncomputable section

namespace Cert.Kernel.Shares

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The partial, by share -/

/-- The whole partial's elements are all of its buffer's. -/
theorem pM_set : (pM : Memref sig .tc .vmem S1x768 .f32).view.set = Finset.univ := View.set_whole cc0_scratch0

/-- The whole share is its four quarters: left-left, left-right, right-left, right-right. -/
theorem part_split (c : Dev nD) (f : Buf (Elt F) ((c : Thread nD τ).loc cc0_scratch0)) :
    (((c : Thread nD τ).loc cc0_scratch0) ↦{fullShare} f : sProp 𝕄) ⊢
      iprop(((pM : Memref sig .tc .vmem S1x768 .f32).view.loc (c : Thread nD τ) ↦[(pM : Memref sig .tc .vmem S1x768 .f32).view.set]{qS 0} f)
        ∗ ((pM : Memref sig .tc .vmem S1x768 .f32).view.loc (c : Thread nD τ) ↦[(pM : Memref sig .tc .vmem S1x768 .f32).view.set]{qS 1} f)
        ∗ ((pM : Memref sig .tc .vmem S1x768 .f32).view.loc (c : Thread nD τ) ↦[(pM : Memref sig .tc .vmem S1x768 .f32).view.set]{qS 2} f)
        ∗ ((pM : Memref sig .tc .vmem S1x768 .f32).view.loc (c : Thread nD τ) ↦[(pM : Memref sig .tc .vmem S1x768 .f32).view.set]{qL} f)) := by
  rw [pM_set]
  iintro H
  ihave H := (pointsTo_share (PosShare.mem_left_op_right fullShare)).1 $$ H
  icases H with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  iexact HRR

/-- The four quarters, at one contents, are the whole share. -/
theorem part_join (c : Dev nD) (f : Buf (Elt F) ((c : Thread nD τ).loc cc0_scratch0)) :
    (iprop(((pM : Memref sig .tc .vmem S1x768 .f32).view.loc (c : Thread nD τ) ↦[(pM : Memref sig .tc .vmem S1x768 .f32).view.set]{qS 0} f)
        ∗ ((pM : Memref sig .tc .vmem S1x768 .f32).view.loc (c : Thread nD τ) ↦[(pM : Memref sig .tc .vmem S1x768 .f32).view.set]{qS 1} f)
        ∗ ((pM : Memref sig .tc .vmem S1x768 .f32).view.loc (c : Thread nD τ) ↦[(pM : Memref sig .tc .vmem S1x768 .f32).view.set]{qS 2} f)
        ∗ ((pM : Memref sig .tc .vmem S1x768 .f32).view.loc (c : Thread nD τ) ↦[(pM : Memref sig .tc .vmem S1x768 .f32).view.set]{qL} f)) : sProp 𝕄)
      ⊢ (((c : Thread nD τ).loc cc0_scratch0) ↦{fullShare} f : sProp 𝕄) := by
  rw [pM_set]
  iintro ⟨HLL, HLR, HRL, HRR⟩
  iapply (pointsTo_share (PosShare.mem_left_op_right fullShare)).2
  isplitl [HLL HLR]
  · iapply (pointsTo_share (PosShare.mem_left_op_right fullShare.left)).2
    isplitl [HLL]; · iexact HLL
    iexact HLR
  · iapply (pointsTo_share (PosShare.mem_left_op_right fullShare.right)).2
    isplitl [HRL]; · iexact HRL
    iexact HRR

/-! ## The landing buffer, by slot -/

theorem slot_disj01_2 : Disjoint ((slot0 : Memref sig .tc .vmem S1x768 .f32).view.set ∪ (slot1 : Memref sig .tc .vmem S1x768 .f32).view.set)
    (slot2 : Memref sig .tc .vmem S1x768 .f32).view.set :=
  Finset.disjoint_union_left.mpr ⟨Views.slot_disj02, Views.slot_disj12⟩

/-- The landing buffer is its three slots. -/
theorem comm_split (c : Dev nD) (f : Buf (Elt F) ((c : Thread nD τ).loc cc0_scratch1)) :
    (((c : Thread nD τ).loc cc0_scratch1) ↦{fullShare} f : sProp 𝕄) ⊢ iprop(slotPts c 0 f ∗ slotPts c 1 f ∗ slotPts c 2 f) := by
  show (((c : Thread nD τ).loc cc0_scratch1) ↦[Finset.univ]{fullShare} f : sProp 𝕄) ⊢
    iprop(((slot0 : Memref sig .tc .vmem S1x768 .f32).view.loc (c : Thread nD τ) ↦[(slot0 : Memref sig .tc .vmem S1x768 .f32).view.set]{fullShare} f)
      ∗ ((slot1 : Memref sig .tc .vmem S1x768 .f32).view.loc (c : Thread nD τ) ↦[(slot1 : Memref sig .tc .vmem S1x768 .f32).view.set]{fullShare} f)
      ∗ ((slot2 : Memref sig .tc .vmem S1x768 .f32).view.loc (c : Thread nD τ) ↦[(slot2 : Memref sig .tc .vmem S1x768 .f32).view.set]{fullShare} f))
  rw [← Views.slot_cover]
  iintro H
  ihave H := (pointsTo_union slot_disj01_2).1 $$ H
  icases H with ⟨H01, H2⟩
  ihave H01 := (pointsTo_union Views.slot_disj01).1 $$ H01
  icases H01 with ⟨H0, H1⟩
  isplitl [H0]; · iexact H0
  isplitl [H1]; · iexact H1
  iexact H2

/-- The three slots, at one contents, are the landing buffer. -/
theorem comm_join (c : Dev nD) (f : Buf (Elt F) ((c : Thread nD τ).loc cc0_scratch1)) :
    (iprop(slotPts c 0 f ∗ slotPts c 1 f ∗ slotPts c 2 f) : sProp 𝕄) ⊢ (((c : Thread nD τ).loc cc0_scratch1) ↦{fullShare} f : sProp 𝕄) := by
  show (iprop(((slot0 : Memref sig .tc .vmem S1x768 .f32).view.loc (c : Thread nD τ) ↦[(slot0 : Memref sig .tc .vmem S1x768 .f32).view.set]{fullShare} f)
      ∗ ((slot1 : Memref sig .tc .vmem S1x768 .f32).view.loc (c : Thread nD τ) ↦[(slot1 : Memref sig .tc .vmem S1x768 .f32).view.set]{fullShare} f)
      ∗ ((slot2 : Memref sig .tc .vmem S1x768 .f32).view.loc (c : Thread nD τ) ↦[(slot2 : Memref sig .tc .vmem S1x768 .f32).view.set]{fullShare} f)) : sProp 𝕄)
    ⊢ (((c : Thread nD τ).loc cc0_scratch1) ↦[Finset.univ]{fullShare} f : sProp 𝕄)
  rw [← Views.slot_cover]
  iintro ⟨H0, H1, H2⟩
  iapply (pointsTo_union slot_disj01_2).2
  isplitl [H0 H1]
  · iapply (pointsTo_union Views.slot_disj01).2
    isplitl [H0]; · iexact H0
    iexact H1
  · iexact H2

/-- info: 'Cert.Kernel.Shares.part_split' depends on axioms: [propext, Classical.choice, Quot.sound] -/
#guard_msgs in #print axioms part_split
/-- info: 'Cert.Kernel.Shares.part_join' depends on axioms: [propext, Classical.choice, Quot.sound] -/
#guard_msgs in #print axioms part_join
/-- info: 'Cert.Kernel.Shares.comm_split' depends on axioms: [propext, Classical.choice, Quot.sound] -/
#guard_msgs in #print axioms comm_split
/-- info: 'Cert.Kernel.Shares.comm_join' depends on axioms: [propext, Classical.choice, Quot.sound] -/
#guard_msgs in #print axioms comm_join

end Cert.Kernel.Shares

end
-- ==== Proof.KBody.lean ====
/-
  One device's body of the four-device mean, stepped rule by rule in program order: the three barrier signals (each
  handing the receiver the slot it will write), the partial stored, the wait for the three others' signals (their
  slots come with it), the three copies of the partial (each reading a share of it, each landing it in a peer's slot),
  the partial loaded from the share kept back, the three landings waited and added, the scaled sum stored, the three
  departures waited; then the six own cells close and the shares and slots are put back together.
-/
import proofs.«900945_g7700000000000946_dist_mean_ax0_shard0_i_m1536_n768_v7x_i4_f32_1_alg».proof.Proof.KProto
import proofs.«900945_g7700000000000946_dist_mean_ax0_shard0_i_m1536_n768_v7x_i4_f32_1_alg».proof.Proof.KTables
import proofs.«900945_g7700000000000946_dist_mean_ax0_shard0_i_m1536_n768_v7x_i4_f32_1_alg».proof.Proof.KViews
import proofs.«900945_g7700000000000946_dist_mean_ax0_shard0_i_m1536_n768_v7x_i4_f32_1_alg».proof.Proof.KShares

noncomputable section

namespace Cert.Kernel.Body

open Cert.Kernel Cert.Kernel.Gen Cert.Kernel.Proto Cert.Kernel.Tables Cert.Kernel.Views Cert.Kernel.Shares

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The payload of the signal to the device `k` places on (duty `j = k - 1` of its barrier cell), read from the
    signaller: its own slot `s = 3 - k` and that its receive cell for that slot is at round 0. -/
theorem barPay_at (k : ℕ) (j s : Fin 3) (c : Dev nD) (hb : fwd (3 - j.val) (fwd k c) = c) (hs : Fin.rev j = s) :
    barPay (F := F) (fwd k c) j = iprop((∃ f, slotPts c s f) ∗ reached ER (recvCell c s) 0) := by
  unfold barPay; rw [hb, hs]

theorem barPay_0 (c : Dev nD) : barPay (F := F) c 0 = iprop((∃ f, slotPts (fwd 3 c) 2 f) ∗ reached ER (recvCell (fwd 3 c) 2) 0) := rfl
theorem barPay_1 (c : Dev nD) : barPay (F := F) c 1 = iprop((∃ f, slotPts (fwd 2 c) 1 f) ∗ reached ER (recvCell (fwd 2 c) 1) 0) := rfl
theorem barPay_2 (c : Dev nD) : barPay (F := F) c 2 = iprop((∃ f, slotPts (fwd 1 c) 0 f) ∗ reached ER (recvCell (fwd 1 c) 0) 0) := rfl

theorem slotPts_0 (d : Dev nD) (f) : slotPts (F := F) d 0 f = ((slot0 : Memref sig .tc .vmem S1x768 .f32).view.loc (d : Thread nD τ) ↦[(slot0 : Memref sig .tc .vmem S1x768 .f32).view.set]{fullShare} f) := rfl
theorem slotPts_1 (d : Dev nD) (f) : slotPts (F := F) d 1 f = ((slot1 : Memref sig .tc .vmem S1x768 .f32).view.loc (d : Thread nD τ) ↦[(slot1 : Memref sig .tc .vmem S1x768 .f32).view.set]{fullShare} f) := rfl
theorem slotPts_2 (d : Dev nD) (f) : slotPts (F := F) d 2 f = ((slot2 : Memref sig .tc .vmem S1x768 .f32).view.loc (d : Thread nD τ) ↦[(slot2 : Memref sig .tc .vmem S1x768 .f32).view.set]{fullShare} f) := rfl
theorem recvPay_at0 (c : Dev nD) : recvPay m ρ c 0 = ((cM : Memref sig .tc .vmem S3x1x768 .f32).view.loc (c : Thread nD τ) ↦[(slot0 : Memref sig .tc .vmem S1x768 .f32).view.set]{fullShare} commVal m ρ c) := rfl
theorem recvPay_at1 (c : Dev nD) : recvPay m ρ c 1 = ((cM : Memref sig .tc .vmem S3x1x768 .f32).view.loc (c : Thread nD τ) ↦[(slot1 : Memref sig .tc .vmem S1x768 .f32).view.set]{fullShare} commVal m ρ c) := rfl
theorem recvPay_at2 (c : Dev nD) : recvPay m ρ c 2 = ((cM : Memref sig .tc .vmem S3x1x768 .f32).view.loc (c : Thread nD τ) ↦[(slot2 : Memref sig .tc .vmem S1x768 .f32).view.set]{fullShare} commVal m ρ c) := rfl

/-- Copy 1 lands this device's partial in slot 0 of the device 1 place(s) on: that slot of its landed buffer. -/
theorem landing_0 (c : Dev nD) (fd : Buf (Elt F) ((fwd 1 c : Thread nD τ).loc cc0_scratch1)) :
    ((slot0 : Memref sig .tc .vmem S1x768 .f32).view.loc (fwd 1 c : Thread nD τ) ↦[(slot0 : Memref sig .tc .vmem S1x768 .f32).view.set]{fullShare}
        ((slot0 : Memref sig .tc .vmem S1x768 .f32).view.write (Elt F) fd ((pM : Memref sig .tc .vmem S1x768 .f32).view.read (Elt F) (part m ρ c)) Finset.univ) : sProp 𝕄)
      ⊢ recvPay m ρ (fwd 1 c) 0 := by
  rw [recvPay_at0]
  exact Entails.of_eq (pointsTo_congr fun i hi => (landed_0 (fwd 1 c) fd (part m ρ c) i hi).trans
    ((commVal_on_0 m ρ (fwd 1 c) i hi).trans (by rw [fwd31])).symm)

/-- Copy 2 lands this device's partial in slot 1 of the device 2 place(s) on: that slot of its landed buffer. -/
theorem landing_1 (c : Dev nD) (fd : Buf (Elt F) ((fwd 2 c : Thread nD τ).loc cc0_scratch1)) :
    ((slot1 : Memref sig .tc .vmem S1x768 .f32).view.loc (fwd 2 c : Thread nD τ) ↦[(slot1 : Memref sig .tc .vmem S1x768 .f32).view.set]{fullShare}
        ((slot1 : Memref sig .tc .vmem S1x768 .f32).view.write (Elt F) fd ((pM : Memref sig .tc .vmem S1x768 .f32).view.read (Elt F) (part m ρ c)) Finset.univ) : sProp 𝕄)
      ⊢ recvPay m ρ (fwd 2 c) 1 := by
  rw [recvPay_at1]
  exact Entails.of_eq (pointsTo_congr fun i hi => (landed_1 (fwd 2 c) fd (part m ρ c) i hi).trans
    ((commVal_on_1 m ρ (fwd 2 c) i hi).trans (by rw [fwd22])).symm)

/-- Copy 3 lands this device's partial in slot 2 of the device 3 place(s) on: that slot of its landed buffer. -/
theorem landing_2 (c : Dev nD) (fd : Buf (Elt F) ((fwd 3 c : Thread nD τ).loc cc0_scratch1)) :
    ((slot2 : Memref sig .tc .vmem S1x768 .f32).view.loc (fwd 3 c : Thread nD τ) ↦[(slot2 : Memref sig .tc .vmem S1x768 .f32).view.set]{fullShare}
        ((slot2 : Memref sig .tc .vmem S1x768 .f32).view.write (Elt F) fd ((pM : Memref sig .tc .vmem S1x768 .f32).view.read (Elt F) (part m ρ c)) Finset.univ) : sProp 𝕄)
      ⊢ recvPay m ρ (fwd 3 c) 2 := by
  rw [recvPay_at2]
  exact Entails.of_eq (pointsTo_congr fun i hi => (landed_2 (fwd 3 c) fd (part m ρ c) i hi).trans
    ((commVal_on_2 m ρ (fwd 3 c) i hi).trans (by rw [fwd13])).symm)

/-- The body's spelling of the six DMA semaphores (a one-element slice of the array, squeezed) names these. -/
theorem sem_s0 : (((cc0_scratch2 : DmaSems sig S3).slice (Rect.unit (s := S3) ![0] S1.size inb_S3_S1_0)).squeeze S_ squeezes_S1_S_).sem = sendS 0 := rfl
theorem sem_s1 : (((cc0_scratch2 : DmaSems sig S3).slice (Rect.unit (s := S3) ![1] S1.size inb_S3_S1_1)).squeeze S_ squeezes_S1_S_).sem = sendS 1 := rfl
theorem sem_s2 : (((cc0_scratch2 : DmaSems sig S3).slice (Rect.unit (s := S3) ![2] S1.size inb_S3_S1_2)).squeeze S_ squeezes_S1_S_).sem = sendS 2 := rfl
theorem sem_r0 : (((cc0_scratch3 : DmaSems sig S3).slice (Rect.unit (s := S3) ![0] S1.size inb_S3_S1_0)).squeeze S_ squeezes_S1_S_).sem = recvS 0 := rfl
theorem sem_r1 : (((cc0_scratch3 : DmaSems sig S3).slice (Rect.unit (s := S3) ![1] S1.size inb_S3_S1_1)).squeeze S_ squeezes_S1_S_).sem = recvS 1 := rfl
theorem sem_r2 : (((cc0_scratch3 : DmaSems sig S3).slice (Rect.unit (s := S3) ![2] S1.size inb_S3_S1_2)).squeeze S_ squeezes_S1_S_).sem = recvS 2 := rfl

variable (K : Dev nD × Fin 7 → ℕ)

/-- The send rule at copy 1's cells, the transfer addressed to `n = fwd 1 c` (substituted, not rewritten: the
    target memref's type depends on the device). -/
theorem wp_send_0 (c n : Dev nD) (hn : n = fwd 1 c)
    {hsc : (slot0 : Memref sig (Dev.tc n : Thread nD τ).2.kind .vmem S1x768 .f32).view.ref.isScScratch = false}
    {hsrc : (pM : Memref sig .tc .vmem S1x768 .f32).view.WordExact} {hdst : (slot0 : Memref sig .tc .vmem S1x768 .f32).view.WordExact}
    {hsem : DmaTarget.Typed .vmem (.dma (recvS 0)) (.remote (Dev.tc n : Thread nD τ) (slot0 : Memref sig .tc .vmem S1x768 .f32) (.dma (sendS 0)) hsc)}
    {α : Type} {Q : α → sProp 𝕄} {k : PUnit → Prog (TpuEff nD τ sig (Elt F) Λ₀ .tc) α}
    (fd : Buf (Elt F) ((fwd 1 c : Thread nD τ).loc cc0_scratch1)) (W : Waits sig Unit)
    (Ob Oa : CellTallies nD τ sig Unit) (hO : Ob = Oa + tallyAt (recvCell (fwd 1 c) 0) () N) :
    iprop(cellInv ER (sched m ρ) (K (c, 1)) (sendCell c 0) ∗ cellInv ER (sched m ρ) (K (fwd 1 c, 4)) (recvCell (fwd 1 c) 0)
        ∗ partPts m ρ c (qS 0) ∗ slotPts (fwd 1 c) 0 fd
        ∗ owes (c : Thread nD τ) Ob W
        ∗ dutyTok ER (sendCell c 0) 0 0 ∗ reached ER (sendCell c 0) 0
        ∗ dutyTok ER (recvCell (fwd 1 c) 0) 0 0 ∗ reached ER (recvCell (fwd 1 c) 0) 0)
      ⊢ iprop(((cred (tallyAt (sendCell c 0) () N) ∗ owes (c : Thread nD τ) Oa W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pM (.remote (Dev.tc n : Thread nD τ) slot0 (.dma (sendS 0)) hsc) (.dma (recvS 0)) hsrc hdst hsem) k) Q) := by
  subst hn
  unfold partPts
  rw [slotPts_0]
  exact Rounds.wp_send_pointsTo 𝒱₀ ER (sched m ρ) (c : Thread nD τ) none (c' := (fwd 1 c : Thread nD τ))
    (src := (pM : Memref sig .tc .vmem S1x768 .f32)) (dst := (slot0 : Memref sig .tc .vmem S1x768 .f32)) (sS := .dma (sendS 0)) (sem := .dma (recvS 0))
    (q := qS 0) (fs := part m ρ c) (κ₁ := K (c, 1)) (κ₂ := K (fwd 1 c, 4))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (amount_0 _) (amount_send m ρ c 0 0) (amount_recv m ρ (fwd 1 c) 0 0) Oa hO (W := W)
    (by rw [payload_send]; exact BI.Entails.refl _)
    (by rw [payload_recv]; exact landing_0 m ρ c fd)

/-- The send rule at copy 2's cells, the transfer addressed to `n = fwd 2 c` (substituted, not rewritten: the
    target memref's type depends on the device). -/
theorem wp_send_1 (c n : Dev nD) (hn : n = fwd 2 c)
    {hsc : (slot1 : Memref sig (Dev.tc n : Thread nD τ).2.kind .vmem S1x768 .f32).view.ref.isScScratch = false}
    {hsrc : (pM : Memref sig .tc .vmem S1x768 .f32).view.WordExact} {hdst : (slot1 : Memref sig .tc .vmem S1x768 .f32).view.WordExact}
    {hsem : DmaTarget.Typed .vmem (.dma (recvS 1)) (.remote (Dev.tc n : Thread nD τ) (slot1 : Memref sig .tc .vmem S1x768 .f32) (.dma (sendS 1)) hsc)}
    {α : Type} {Q : α → sProp 𝕄} {k : PUnit → Prog (TpuEff nD τ sig (Elt F) Λ₀ .tc) α}
    (fd : Buf (Elt F) ((fwd 2 c : Thread nD τ).loc cc0_scratch1)) (W : Waits sig Unit)
    (Ob Oa : CellTallies nD τ sig Unit) (hO : Ob = Oa + tallyAt (recvCell (fwd 2 c) 1) () N) :
    iprop(cellInv ER (sched m ρ) (K (c, 2)) (sendCell c 1) ∗ cellInv ER (sched m ρ) (K (fwd 2 c, 5)) (recvCell (fwd 2 c) 1)
        ∗ partPts m ρ c (qS 1) ∗ slotPts (fwd 2 c) 1 fd
        ∗ owes (c : Thread nD τ) Ob W
        ∗ dutyTok ER (sendCell c 1) 0 0 ∗ reached ER (sendCell c 1) 0
        ∗ dutyTok ER (recvCell (fwd 2 c) 1) 0 0 ∗ reached ER (recvCell (fwd 2 c) 1) 0)
      ⊢ iprop(((cred (tallyAt (sendCell c 1) () N) ∗ owes (c : Thread nD τ) Oa W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pM (.remote (Dev.tc n : Thread nD τ) slot1 (.dma (sendS 1)) hsc) (.dma (recvS 1)) hsrc hdst hsem) k) Q) := by
  subst hn
  unfold partPts
  rw [slotPts_1]
  exact Rounds.wp_send_pointsTo 𝒱₀ ER (sched m ρ) (c : Thread nD τ) none (c' := (fwd 2 c : Thread nD τ))
    (src := (pM : Memref sig .tc .vmem S1x768 .f32)) (dst := (slot1 : Memref sig .tc .vmem S1x768 .f32)) (sS := .dma (sendS 1)) (sem := .dma (recvS 1))
    (q := qS 1) (fs := part m ρ c) (κ₁ := K (c, 2)) (κ₂ := K (fwd 2 c, 5))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (amount_1 _) (amount_send m ρ c 1 0) (amount_recv m ρ (fwd 2 c) 1 0) Oa hO (W := W)
    (by rw [payload_send]; exact BI.Entails.refl _)
    (by rw [payload_recv]; exact landing_1 m ρ c fd)

/-- The send rule at copy 3's cells, the transfer addressed to `n = fwd 3 c` (substituted, not rewritten: the
    target memref's type depends on the device). -/
theorem wp_send_2 (c n : Dev nD) (hn : n = fwd 3 c)
    {hsc : (slot2 : Memref sig (Dev.tc n : Thread nD τ).2.kind .vmem S1x768 .f32).view.ref.isScScratch = false}
    {hsrc : (pM : Memref sig .tc .vmem S1x768 .f32).view.WordExact} {hdst : (slot2 : Memref sig .tc .vmem S1x768 .f32).view.WordExact}
    {hsem : DmaTarget.Typed .vmem (.dma (recvS 2)) (.remote (Dev.tc n : Thread nD τ) (slot2 : Memref sig .tc .vmem S1x768 .f32) (.dma (sendS 2)) hsc)}
    {α : Type} {Q : α → sProp 𝕄} {k : PUnit → Prog (TpuEff nD τ sig (Elt F) Λ₀ .tc) α}
    (fd : Buf (Elt F) ((fwd 3 c : Thread nD τ).loc cc0_scratch1)) (W : Waits sig Unit)
    (Ob Oa : CellTallies nD τ sig Unit) (hO : Ob = Oa + tallyAt (recvCell (fwd 3 c) 2) () N) :
    iprop(cellInv ER (sched m ρ) (K (c, 3)) (sendCell c 2) ∗ cellInv ER (sched m ρ) (K (fwd 3 c, 6)) (recvCell (fwd 3 c) 2)
        ∗ partPts m ρ c (qS 2) ∗ slotPts (fwd 3 c) 2 fd
        ∗ owes (c : Thread nD τ) Ob W
        ∗ dutyTok ER (sendCell c 2) 0 0 ∗ reached ER (sendCell c 2) 0
        ∗ dutyTok ER (recvCell (fwd 3 c) 2) 0 0 ∗ reached ER (recvCell (fwd 3 c) 2) 0)
      ⊢ iprop(((cred (tallyAt (sendCell c 2) () N) ∗ owes (c : Thread nD τ) Oa W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pM (.remote (Dev.tc n : Thread nD τ) slot2 (.dma (sendS 2)) hsc) (.dma (recvS 2)) hsrc hdst hsem) k) Q) := by
  subst hn
  unfold partPts
  rw [slotPts_2]
  exact Rounds.wp_send_pointsTo 𝒱₀ ER (sched m ρ) (c : Thread nD τ) none (c' := (fwd 3 c : Thread nD τ))
    (src := (pM : Memref sig .tc .vmem S1x768 .f32)) (dst := (slot2 : Memref sig .tc .vmem S1x768 .f32)) (sS := .dma (sendS 2)) (sem := .dma (recvS 2))
    (q := qS 2) (fs := part m ρ c) (κ₁ := K (c, 3)) (κ₂ := K (fwd 3 c, 6))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (amount_2 _) (amount_send m ρ c 2 0) (amount_recv m ρ (fwd 3 c) 2 0) Oa hO (W := W)
    (by rw [payload_send]; exact BI.Entails.refl _)
    (by rw [payload_recv]; exact landing_2 m ρ c fd)

def bodyPre (c : Dev nD) : sProp 𝕄 :=
  iprop((ghost m ρ K c ∗ creds c ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 3200000 in
/-- One device's body, rule by rule in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre ghost Proto.invs poss marks payToks creds scr
  iintro ⟨⟨⟨⟨⟨#HIbar, #HIs0, #HIs1, #HIs2, #HIr0, #HIr1, #HIr2, #HIb1, #HIb2, #HIb3, #HIv1, #HIv2, #HIv3⟩,
      ⟨HatB, HatS0, HatS1, HatS2, HatR0, HatR1, HatR2⟩,
      ⟨#HrB1, #HrB2, #HrB3, #HrV1, #HrV2, #HrV3, #HrS0, #HrS1, #HrS2, #HrR0, #HrR1, #HrR2⟩,
      ⟨HtB1, HtB2, HtB3, HtV1, HtV2, HtV3, HtS0, HtS1, HtS2⟩⟩,
      ⟨HcB, HcR0, HcR1, HcR2⟩, #Hlev, ⟨⟨%fp, Hp⟩, ⟨%fc, Hc⟩⟩⟩,
    Ho, ⟨%d0, %g0, %hg0, Hx⟩, ⟨%d1, %g1, %hg1, Hout⟩⟩, Hk⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the landing buffer by slots
  ihave Hcs := (comm_split c fc) $$ Hc
  icases Hcs with ⟨Hs0, Hs1, Hs2⟩

  -- signal 1: one unit to the device 1 place(s) on, handing it slot 2 of this device's landing buffer
  iapply (Rounds.wp_signal 𝒱₀ ER (sched m ρ) (c : Thread nD τ) none (dst := (fwd 1 c : Thread nD τ)) (κ := K (fwd 1 c, 0))
      (d := (0 : Fin 3)) (by rw [duties_bar]; exact Finset.mem_univ _) ((amount_bar m ρ (fwd 1 c) 0).trans (by decide)) ()
      (O₀ := O₀ c) (O₁ c) rfl) $$ [HO HtB1 Hs2]
  · isplitr; · iexact HIb1
    isplitl [HO]; · iexact HO
    isplitl [HtB1]; · iexact HtB1
    isplitl [Hs2]
    · rw [payload_bar, barPay_at 1 0 2 c (fwd31 c) rfl]
      isplitl [Hs2]; · iexists fc; iexact Hs2
      iexact HrR2
    · iexact HrB1
  iintro HO

  -- signal 2: one unit to the device 2 place(s) on, handing it slot 1 of this device's landing buffer
  iapply (Rounds.wp_signal 𝒱₀ ER (sched m ρ) (c : Thread nD τ) none (dst := (fwd 2 c : Thread nD τ)) (κ := K (fwd 2 c, 0))
      (d := (1 : Fin 3)) (by rw [duties_bar]; exact Finset.mem_univ _) ((amount_bar m ρ (fwd 2 c) 1).trans (by decide)) ()
      (O₀ := O₁ c) (O₂ c) rfl) $$ [HO HtB2 Hs1]
  · isplitr; · iexact HIb2
    isplitl [HO]; · iexact HO
    isplitl [HtB2]; · iexact HtB2
    isplitl [Hs1]
    · rw [payload_bar, barPay_at 2 1 1 c (fwd22 c) rfl]
      isplitl [Hs1]; · iexists fc; iexact Hs1
      iexact HrR1
    · iexact HrB2
  iintro HO

  -- signal 3: one unit to the device 3 place(s) on, handing it slot 0 of this device's landing buffer
  iapply (Rounds.wp_signal 𝒱₀ ER (sched m ρ) (c : Thread nD τ) none (dst := (fwd 3 c : Thread nD τ)) (κ := K (fwd 3 c, 0))
      (d := (2 : Fin 3)) (by rw [duties_bar]; exact Finset.mem_univ _) ((amount_bar m ρ (fwd 3 c) 2).trans (by decide)) ()
      (O₀ := O₂ c) (O₃ c) rfl) $$ [HO HtB3 Hs0]
  · isplitr; · iexact HIb3
    isplitl [HO]; · iexact HO
    isplitl [HtB3]; · iexact HtB3
    isplitl [Hs0]
    · rw [payload_bar, barPay_at 3 2 0 c (fwd13 c) rfl]
      isplitl [Hs0]; · iexists fc; iexact Hs0
      iexact HrR0
    · iexact HrB3
  iintro HO
  -- the block of x, the partial stored
  iapply (wp_load 𝒱₀ (c : Thread nD τ) none Set.univ (m := xM) (Finset.subset_univ _)) $$ Hx; iintro Hx
  rw [read_x]
  iapply (wp_load 𝒱₀ (c : Thread nD τ) none Set.univ (m := pM) (Finset.subset_univ _)) $$ Hp; iintro Hp
  iapply (wp_store 𝒱₀ (c : Thread nD τ) none Set.univ (m := pM) (r := r1) (Mk := Finset.univ) (Finset.subset_univ _)) $$ Hp; iintro Hp
  rw [write_p, show k0_pay1 (xstg m ρ c) = part m ρ c from rfl]
  -- the wait for three on its own barrier cell, owing the three receive credits: the others' slots come with it
  iapply (Rounds.wp_wait_rest_token 𝒱₀ ER (sched m ρ) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hpp := (Entails.of_eq (rest_bar m ρ c)) $$ Hpay
  rw [barPay_0, barPay_1, barPay_2]
  icases Hpp with ⟨⟨⟨%fd3, Hd3⟩, -⟩, ⟨⟨%fd2, Hd2⟩, -⟩, ⟨⟨%fd1, Hd1⟩, -⟩⟩
  -- the partial by shares: one for each copy, one for the load
  ihave Hps := (part_split c (part m ρ c)) $$ Hp
  icases Hps with ⟨HpS0, HpS1, HpS2, HpL⟩

  -- copy 1: the partial into slot 0 of the device 1 place(s) on
  iapply (wp_send_0 m ρ K c _ (dev4_eq c) fd1 (insert (SemLoc.reg barS, ()) W) (O₃ c) (O₄ c) rfl) $$ [HpS0 Hd1 HO HtS0 HtV1]
  · unfold partPts
    isplitr; · iexact HIs0
    isplitr; · iexact HIv1
    isplitl [HpS0]; · iexact HpS0
    isplitl [Hd1]; · iexact Hd1
    isplitl [HO]; · iexact HO
    isplitl [HtS0]; · iexact HtS0
    isplitr; · iexact HrS0
    isplitl [HtV1]; · iexact HtV1
    iexact HrV1
  iintro ⟨HcS0, HO⟩

  -- copy 2: the partial into slot 1 of the device 2 place(s) on
  iapply (wp_send_1 m ρ K c _ (dev5_eq c) fd2 (insert (SemLoc.reg barS, ()) W) (O₄ c) (O₅ c) rfl) $$ [HpS1 Hd2 HO HtS1 HtV2]
  · unfold partPts
    isplitr; · iexact HIs1
    isplitr; · iexact HIv2
    isplitl [HpS1]; · iexact HpS1
    isplitl [Hd2]; · iexact Hd2
    isplitl [HO]; · iexact HO
    isplitl [HtS1]; · iexact HtS1
    isplitr; · iexact HrS1
    isplitl [HtV2]; · iexact HtV2
    iexact HrV2
  iintro ⟨HcS1, HO⟩

  -- copy 3: the partial into slot 2 of the device 3 place(s) on
  iapply (wp_send_2 m ρ K c _ (dev6_eq c) fd3 (insert (SemLoc.reg barS, ()) W) (O₅ c) 0 (zero_add _).symm) $$ [HpS2 Hd3 HO HtS2 HtV3]
  · unfold partPts
    isplitr; · iexact HIs2
    isplitr; · iexact HIv3
    isplitl [HpS2]; · iexact HpS2
    isplitl [Hd3]; · iexact Hd3
    isplitl [HO]; · iexact HO
    isplitl [HtS2]; · iexact HtS2
    isplitr; · iexact HrS2
    isplitl [HtV3]; · iexact HtV3
    iexact HrV3
  iintro ⟨HcS2, HO⟩
  -- the partial, loaded while the copies are in flight (a share suffices)
  iapply (wp_load 𝒱₀ (c : Thread nD τ) none Set.univ (m := pM) (S := (pM : Memref sig .tc .vmem S1x768 .f32).view.set) (by rw [pM_set]; exact Finset.subset_univ _)) $$ HpL; iintro HpL
  rw [read_p]

  -- the wait on receive cell 0: slot 0 holds the partial of the device 3 place(s) on
  iapply (Rounds.wp_wait_rest_token 𝒱₀ ER (sched m ρ) (c : Thread nD τ) none (κ := K (c, 4)) (sm := .dma (recvS 0))
      (wpE_waitDma2_eq 𝒱₀ (c : Thread nD τ) none Set.univ) (Set.mem_univ _) () (O := 0) (W := (insert (SemLoc.reg barS, ()) W)) (R := 0) (m := 0) (T := ∅)
      (by rw [Nat.zero_add, expect_recv])) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hl0 := (Entails.of_eq ((rest_recv m ρ c 0).trans (recvPay_at0 m ρ c))) $$ Hpay
  iapply (wp_load 𝒱₀ (c : Thread nD τ) none Set.univ (m := cM) (by rw [setOn_0])) $$ Hl0; iintro Hl0
  rw [read_slot_0]

  -- the wait on receive cell 2: slot 2 holds the partial of the device 1 place(s) on
  iapply (Rounds.wp_wait_rest_token 𝒱₀ ER (sched m ρ) (c : Thread nD τ) none (κ := K (c, 6)) (sm := .dma (recvS 2))
      (wpE_waitDma2_eq 𝒱₀ (c : Thread nD τ) none Set.univ) (Set.mem_univ _) () (O := 0) (W := (insert (SemLoc.dma (recvS 0), ()) (insert (SemLoc.reg barS, ()) W))) (R := 0) (m := 0) (T := ∅)
      (by rw [Nat.zero_add, expect_recv])) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hl2 := (Entails.of_eq ((rest_recv m ρ c 2).trans (recvPay_at2 m ρ c))) $$ Hpay
  iapply (wp_load 𝒱₀ (c : Thread nD τ) none Set.univ (m := cM) (by rw [setOn_2])) $$ Hl2; iintro Hl2
  rw [read_slot_2]

  -- the wait on receive cell 1: slot 1 holds the partial of the device 2 place(s) on
  iapply (Rounds.wp_wait_rest_token 𝒱₀ ER (sched m ρ) (c : Thread nD τ) none (κ := K (c, 5)) (sm := .dma (recvS 1))
      (wpE_waitDma2_eq 𝒱₀ (c : Thread nD τ) none Set.univ) (Set.mem_univ _) () (O := 0) (W := (insert (SemLoc.dma (recvS 2), ()) (insert (SemLoc.dma (recvS 0), ()) (insert (SemLoc.reg barS, ()) W)))) (R := 0) (m := 0) (T := ∅)
      (by rw [Nat.zero_add, expect_recv])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hl1 := (Entails.of_eq ((rest_recv m ρ c 1).trans (recvPay_at1 m ρ c))) $$ Hpay
  iapply (wp_load 𝒱₀ (c : Thread nD τ) none Set.univ (m := cM) (by rw [setOn_1])) $$ Hl1; iintro Hl1
  rw [read_slot_1]
  -- the result stored
  iapply (wp_load 𝒱₀ (c : Thread nD τ) none Set.univ (m := oM) (Finset.subset_univ _)) $$ Hout; iintro Hout
  iapply (wp_store 𝒱₀ (c : Thread nD τ) none Set.univ (m := oM) (r := r1) (Mk := Finset.univ) (Finset.subset_univ _)) $$ Hout; iintro Hout
  rw [write_o]

  -- the wait on send cell 0: the share of the partial copy 1 read comes back
  iapply (Rounds.wp_wait_rest_token 𝒱₀ ER (sched m ρ) (c : Thread nD τ) none (κ := K (c, 1)) (sm := .dma (sendS 0))
      (wpE_waitDma2_eq 𝒱₀ (c : Thread nD τ) none Set.univ) (Set.mem_univ _) () (O := 0) (W := (insert (SemLoc.dma (recvS 1), ()) (insert (SemLoc.dma (recvS 2), ()) (insert (SemLoc.dma (recvS 0), ()) (insert (SemLoc.reg barS, ()) W))))) (R := 0) (m := 0) (T := ∅)
      (by rw [Nat.zero_add, expect_send])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave HpS0 := (Entails.of_eq (rest_send m ρ c 0)) $$ Hpay

  -- the wait on send cell 1: the share of the partial copy 2 read comes back
  iapply (Rounds.wp_wait_rest_token 𝒱₀ ER (sched m ρ) (c : Thread nD τ) none (κ := K (c, 2)) (sm := .dma (sendS 1))
      (wpE_waitDma2_eq 𝒱₀ (c : Thread nD τ) none Set.univ) (Set.mem_univ _) () (O := 0) (W := (insert (SemLoc.dma (sendS 0), ()) (insert (SemLoc.dma (recvS 1), ()) (insert (SemLoc.dma (recvS 2), ()) (insert (SemLoc.dma (recvS 0), ()) (insert (SemLoc.reg barS, ()) W)))))) (R := 0) (m := 0) (T := ∅)
      (by rw [Nat.zero_add, expect_send])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave HpS1 := (Entails.of_eq (rest_send m ρ c 1)) $$ Hpay

  -- the wait on send cell 2: the share of the partial copy 3 read comes back
  iapply (Rounds.wp_wait_rest_token 𝒱₀ ER (sched m ρ) (c : Thread nD τ) none (κ := K (c, 3)) (sm := .dma (sendS 2))
      (wpE_waitDma2_eq 𝒱₀ (c : Thread nD τ) none Set.univ) (Set.mem_univ _) () (O := 0) (W := (insert (SemLoc.dma (sendS 1), ()) (insert (SemLoc.dma (sendS 0), ()) (insert (SemLoc.dma (recvS 1), ()) (insert (SemLoc.dma (recvS 2), ()) (insert (SemLoc.dma (recvS 0), ()) (insert (SemLoc.reg barS, ()) W))))))) (R := 0) (m := 0) (T := ∅)
      (by rw [Nat.zero_add, expect_send])) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave HpS2 := (Entails.of_eq (rest_send m ρ c 2)) $$ Hpay
  -- the six own cells close: their counters at zero are the core's again

  imod (Rounds.cell_close ER (sched m ρ) (Set.mem_univ (K (c, 1))) (fun h => h) (R := 0 + 1) (duties_later m ρ (sendCell c 0))) $$ [HatS0] with HzS0
  · isplitr; · iexact HIs0
    iexact HatS0

  imod (Rounds.cell_close ER (sched m ρ) (Set.mem_univ (K (c, 2))) (fun h => h) (R := 0 + 1) (duties_later m ρ (sendCell c 1))) $$ [HatS1] with HzS1
  · isplitr; · iexact HIs1
    iexact HatS1

  imod (Rounds.cell_close ER (sched m ρ) (Set.mem_univ (K (c, 3))) (fun h => h) (R := 0 + 1) (duties_later m ρ (sendCell c 2))) $$ [HatS2] with HzS2
  · isplitr; · iexact HIs2
    iexact HatS2

  imod (Rounds.cell_close ER (sched m ρ) (Set.mem_univ (K (c, 4))) (fun h => h) (R := 0 + 1) (duties_later m ρ (recvCell c 0))) $$ [HatR0] with HzR0
  · isplitr; · iexact HIr0
    iexact HatR0

  imod (Rounds.cell_close ER (sched m ρ) (Set.mem_univ (K (c, 5))) (fun h => h) (R := 0 + 1) (duties_later m ρ (recvCell c 1))) $$ [HatR1] with HzR1
  · isplitr; · iexact HIr1
    iexact HatR1

  imod (Rounds.cell_close ER (sched m ρ) (Set.mem_univ (K (c, 6))) (fun h => h) (R := 0 + 1) (duties_later m ρ (recvCell c 2))) $$ [HatR2] with HzR2
  · isplitr; · iexact HIr2
    iexact HatR2
  -- the partial whole again from its four shares, the landing buffer whole again from its three slots
  ihave Hp := (part_join c (part m ρ c)) $$ [HpS0 HpS1 HpS2 HpL]
  · unfold sendPay partPts
    isplitl [HpS0]; · iexact HpS0
    isplitl [HpS1]; · iexact HpS1
    isplitl [HpS2]; · iexact HpS2
    iexact HpL
  ihave Hc := (comm_join c (commVal m ρ c)) $$ [Hl0 Hl1 Hl2]
  · rw [slotPts_0, slotPts_1, slotPts_2]
    isplitl [Hl0]; · iexact Hl0
    isplitl [Hl1]; · iexact Hl1
    iexact Hl2
  rw [wp_ret]; imodintro
  iapply Hk
  unfold bodyPost Φ₁ scr ownZero Dat.owesAt Pipeline.owesWithin
  rw [show (dats m ρ 0 c).owed t₀.succ = 0 from rfl]
  isplitl [Hp Hc HzS0 HzS1 HzS2 HzR0 HzR1 HzR2]
  · isplitl [Hp Hc]
    · isplitl [Hp]; · iexists _; iexact Hp
      iexists _; iexact Hc
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (sendS 2), ()) (insert (SemLoc.dma (sendS 1), ()) (insert (SemLoc.dma (sendS 0), ()) (insert (SemLoc.dma (recvS 1), ()) (insert (SemLoc.dma (recvS 2), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Cert.Kernel.Body

end
-- ==== Proof.KLaunch.lean ====
/-
  The launch of the four-device mean: from each device's body obligation to the run of @main on the whole mesh.

  The barrier semaphore is the runtime's (unscoped), so every device's seven cells — its barrier cell, three send
  cells, three receive cells — are allocated under ONE update for all devices; the duty tokens minted at a device's
  own cells are then dealt to the devices that pay them (rotations of the cycle), the launch credit is read off what
  the devices owe each other, and the staging waits sit below every cell a device owes.
-/
import proofs.«900945_g7700000000000946_dist_mean_ax0_shard0_i_m1536_n768_v7x_i4_f32_1_alg».proof.Proof.KProto
import proofs.«900945_g7700000000000946_dist_mean_ax0_shard0_i_m1536_n768_v7x_i4_f32_1_alg».proof.Proof.KBody
import proofs.«900945_g7700000000000946_dist_mean_ax0_shard0_i_m1536_n768_v7x_i4_f32_1_alg».proof.Proof.Gen.Kernel.Launch
import proofs.«900945_g7700000000000946_dist_mean_ax0_shard0_i_m1536_n768_v7x_i4_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads can be stored in an invariant -/

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if IsRecv g then recvPay m ρ g.1.1 (copyOf g.2)
    else if IsSend g then sendPay m ρ g.1.1 (copyOf g.2)
    else iprop(emp))
  unfold barPay recvPay sendPay
  (repeat' split) <;> infer_instance

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- The nine duty tokens minted at a device's own cells: which cell, which duty — its barrier's three, its three send
    cells' and its three receive cells' one each. -/
abbrev cellIx : Fin 9 → Fin 7 := fun | 0 => 0 | 1 => 0 | 2 => 0 | 3 => 1 | 4 => 2 | 5 => 3 | 6 => 4 | 7 => 5 | 8 => 6
abbrev dutyIx : Fin 9 → Fin 3 := fun | 0 => 0 | 1 => 1 | 2 => 2 | 3 => 0 | 4 => 0 | 5 => 0 | 6 => 0 | 7 => 0 | 8 => 0
theorem ix_inj : ∀ j j' : Fin 9, cellIx j = cellIx j' → dutyIx j = dutyIx j' → j = j' := by decide
abbrev tokOf (cj : Dev nD × Fin 9) : GSem nD τ sig × ℕ × Fin 3 := (kcell (cj.1, cellIx cj.2), 0, dutyIx cj.2)
theorem tokOf_injective : Function.Injective (tokOf : Dev nD × Fin 9 → GSem nD τ sig × ℕ × Fin 3) := by
  rintro ⟨c, j⟩ ⟨c', j'⟩ h
  have h1 : ((c, cellIx j) : Dev nD × Fin 7) = (c', cellIx j') := kcell_injective (congrArg (fun x : GSem nD τ sig × ℕ × Fin 3 => x.1) h)
  have h2 : dutyIx j = dutyIx j' := congrArg (fun x : GSem nD τ sig × ℕ × Fin 3 => x.2.2) h
  have hc : c = c' := congrArg Prod.fst h1
  have hk : cellIx j = cellIx j' := congrArg Prod.snd h1
  rw [hc, ix_inj j j' hk h2]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c` (the theorem's `G`). -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 := iprop(poss c ∗ payToks c)

theorem ghost_intro (K : Dev nD × Fin 7 → ℕ) (c : Dev nD) : iprop(records m ρ K ∗ linear c) ⊢ G' m ρ c := by
  unfold records linear G' ghost
  iintro ⟨⟨#HI, #HR⟩, Hpos, Htok⟩
  iexists K
  isplitr
  · unfold Proto.invs
    isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (fwd 1 c, 0)); iexact HI
    isplitr; · iapply (inv_at m ρ K (fwd 2 c, 0)); iexact HI
    isplitr; · iapply (inv_at m ρ K (fwd 3 c, 0)); iexact HI
    isplitr; · iapply (inv_at m ρ K (fwd 1 c, 4)); iexact HI
    isplitr; · iapply (inv_at m ρ K (fwd 2 c, 5)); iexact HI
    iapply (inv_at m ρ K (fwd 3 c, 6)); iexact HI
  isplitl [Hpos]; · iexact Hpos
  isplitr
  · unfold marks
    isplitr; · iapply (reached_at (F := F) (fwd 1 c, 0)); iexact HR
    isplitr; · iapply (reached_at (F := F) (fwd 2 c, 0)); iexact HR
    isplitr; · iapply (reached_at (F := F) (fwd 3 c, 0)); iexact HR
    isplitr; · iapply (reached_at (F := F) (fwd 1 c, 4)); iexact HR
    isplitr; · iapply (reached_at (F := F) (fwd 2 c, 5)); iexact HR
    isplitr; · iapply (reached_at (F := F) (fwd 3 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

omit [FloatOps F] in
/-- The tokens dealt around the cycle: duty `j` of a barrier cell to the device `3 - j` places on, the receive token
    of slot `k` to the device `3 - k` places on; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv rot1 (fun c : Dev nD => (dutyTok ER (barCell c) 0 0 : sProp 𝕄)),
    bigSep_univ_equiv rot2 (fun c : Dev nD => (dutyTok ER (barCell c) 0 1 : sProp 𝕄)),
    bigSep_univ_equiv rot3 (fun c : Dev nD => (dutyTok ER (barCell c) 0 2 : sProp 𝕄)),
    bigSep_univ_equiv rot1 (fun c : Dev nD => (dutyTok ER (recvCell c 0) 0 0 : sProp 𝕄)),
    bigSep_univ_equiv rot2 (fun c : Dev nD => (dutyTok ER (recvCell c 1) 0 0 : sProp 𝕄)),
    bigSep_univ_equiv rot3 (fun c : Dev nD => (dutyTok ER (recvCell c 2) 0 0 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- Three one-unit credits on the barrier cell are its three units. -/
theorem cred_bar3 (c : Dev nD) :
    iprop(cred (tallyAt (barCell c) () 1) ∗ cred (tallyAt (barCell c) () 1) ∗ cred (tallyAt (barCell c) () 1))
      ⊢ (cred (tallyAt (barCell c) () 3) : sProp 𝕄) := by
  have e : (tallyAt (barCell c) () 3 : CellTallies nD τ sig Unit)
      = tallyAt (barCell c) () 1 + (tallyAt (barCell c) () 1 + tallyAt (barCell c) () 1) := by
    rw [tallyAt_add, tallyAt_add]
  rw [e]
  exact (sep_mono_right (cred_add _ _).2).trans (cred_add _ _).2

omit [FloatOps F] in
/-- What the others owe device `c`: each of the three a unit on its barrier cell, and the device `3 - k` places on the
    row's credit on its receive cell `k`. -/
theorem creds_intro (c : Dev nD) : (Pipeline.launchCred O₀ c : sProp 𝕄) ⊢ creds c := by
  have e0 : (O₀ : Dev nD → CellTallies nD τ sig Unit) = fun d => O₁ d + tallyAt (barCell (fwd 1 d)) () 1 := rfl
  have e1 : (O₁ : Dev nD → CellTallies nD τ sig Unit) = fun d => O₂ d + tallyAt (barCell (fwd 2 d)) () 1 := rfl
  have e2 : (O₂ : Dev nD → CellTallies nD τ sig Unit) = fun d => O₃ d + tallyAt (barCell (fwd 3 d)) () 1 := rfl
  have e3 : (O₃ : Dev nD → CellTallies nD τ sig Unit) = fun d => O₄ d + tallyAt (recvCell (fwd 1 d) 0) () N := rfl
  have e4 : (O₄ : Dev nD → CellTallies nD τ sig Unit) = fun d => O₅ d + tallyAt (recvCell (fwd 2 d) 1) () N := rfl
  have e5 : (O₅ : Dev nD → CellTallies nD τ sig Unit) = fun d => tallyAt (recvCell (fwd 3 d) 2) () N := rfl
  rw [e0, Pipeline.launchCred_add, e1, Pipeline.launchCred_add, e2, Pipeline.launchCred_add, e3, Pipeline.launchCred_add,
    e4, Pipeline.launchCred_add, e5]
  unfold creds
  iintro ⟨⟨⟨⟨⟨H5, H4⟩, H3⟩, H2⟩, H1⟩, H0⟩
  ihave C0 := (Pipeline.launchCred_tallyAt (SemLoc.reg barS) (fwd 1) (fwd 3) fwd13 fwd31 () 1 c) $$ H0
  ihave C1 := (Pipeline.launchCred_tallyAt (SemLoc.reg barS) (fwd 2) (fwd 2) fwd22 fwd22 () 1 c) $$ H1
  ihave C2 := (Pipeline.launchCred_tallyAt (SemLoc.reg barS) (fwd 3) (fwd 1) fwd31 fwd13 () 1 c) $$ H2
  ihave C3 := (Pipeline.launchCred_tallyAt (SemLoc.dma 5) (fwd 1) (fwd 3) fwd13 fwd31 () N c) $$ H3
  ihave C4 := (Pipeline.launchCred_tallyAt (SemLoc.dma 6) (fwd 2) (fwd 2) fwd22 fwd22 () N c) $$ H4
  ihave C5 := (Pipeline.launchCred_tallyAt (SemLoc.dma 7) (fwd 3) (fwd 1) fwd31 fwd13 () N c) $$ H5
  isplitl [C0 C1 C2]
  · iapply (cred_bar3 (F := F) c)
    isplitl [C0]; · iexact C0
    isplitl [C1]; · iexact C1
    iexact C2
  isplitl [C3]; · iexact C3
  isplitl [C4]; · iexact C4
  iexact C5

/-! ### The theorem's side conditions -/

theorem L_of_ne (g : GSem nD τ sig) (h : g.1.2 ≠ .tc) : L g = ∅ := if_neg h
theorem L_tc (c : Dev nD) (sm : SemLoc sig) : L ((c : Thread nD τ), sm) = {()} := if_pos rfl

/-- The cells a device owes at launch: the three other barrier cells and the receive cells of the slots it writes. -/
theorem O₀_pos {c : Dev nD} {g : GSem nD τ sig} {u : Unit} (h : 0 < O₀ c g u) :
    g = barCell (fwd 1 c) ∨ g = barCell (fwd 2 c) ∨ g = barCell (fwd 3 c)
      ∨ g = recvCell (fwd 1 c) 0 ∨ g = recvCell (fwd 2 c) 1 ∨ g = recvCell (fwd 3 c) 2 := by
  rcases Pipeline.add_pos_cases (show 0 < (O₁ c + tallyAt (barCell (fwd 1 c)) () 1) g u from h) with h | h
  · rcases Pipeline.add_pos_cases (show 0 < (O₂ c + tallyAt (barCell (fwd 2 c)) () 1) g u from h) with h | h
    · rcases Pipeline.add_pos_cases (show 0 < (O₃ c + tallyAt (barCell (fwd 3 c)) () 1) g u from h) with h | h
      · rcases Pipeline.add_pos_cases (show 0 < (O₄ c + tallyAt (recvCell (fwd 1 c) 0) () N) g u from h) with h | h
        · rcases Pipeline.add_pos_cases (show 0 < (O₅ c + tallyAt (recvCell (fwd 2 c) 1) () N) g u from h) with h | h
          · exact .inr (.inr (.inr (.inr (.inr (Pipeline.tallyAt_pos h).1))))
          · exact .inr (.inr (.inr (.inr (.inl (Pipeline.tallyAt_pos h).1))))
        · exact .inr (.inr (.inr (.inl (Pipeline.tallyAt_pos h).1)))
      · exact .inr (.inr (.inl (Pipeline.tallyAt_pos h).1))
    · exact .inr (.inl (Pipeline.tallyAt_pos h).1)
  · exact .inl (Pipeline.tallyAt_pos h).1

omit [FloatOps F] in
/-- A staging wait (level 0) is below everything a device owes at launch (barrier cells at 1, receive cells at 2). -/
theorem mayWait_stage (c : Dev nD) (q : DmaSem sig)
    (hq : ¬ (SemLoc.dma q = .dma 5 ∨ SemLoc.dma q = .dma 6 ∨ (SemLoc.dma q : SemLoc sig) = .dma 7))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by rw [Finset.mem_singleton.mp hp]; dsimp only [lv]; rw [if_neg (fun h => by cases h), if_neg hq])
      (fun g u hg => by
        rcases O₀_pos hg with rfl | rfl | rfl | rfl | rfl | rfl
        · dsimp only [lv]; rw [if_pos rfl]; decide
        · dsimp only [lv]; rw [if_pos rfl]; decide
        · dsimp only [lv]; rw [if_pos rfl]; decide
        · dsimp only [lv]; rw [if_neg (fun h => by cases h), if_pos (.inl rfl)]; decide
        · dsimp only [lv]; rw [if_neg (fun h => by cases h), if_pos (.inr (.inl rfl))]; decide
        · dsimp only [lv]; rw [if_neg (fun h => by cases h), if_pos (.inr (.inr rfl))]; decide)
  · rw [MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of four devices, for any float values, from any memory with zero counters: every weakly fair
    execution of @main — the four kernels handshaking on the runtime's barrier semaphore, then each copying its partial
    into a slot of every other device — terminates, and in every final state each device's windowed arrays hold what the
    proof data say they hold after the last point. -/
theorem run_main : θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := Body.body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Launch.run_main' depends on axioms: [propext, Classical.choice, Quot.sound] -/
#guard_msgs in #print axioms run_main

end Cert.Kernel.Launch

end
-- ==== Proof.KFinal.lean ====
import proofs.«900945_g7700000000000946_dist_mean_ax0_shard0_i_m1536_n768_v7x_i4_f32_1_alg».proof.Proof.KLaunch

noncomputable section

namespace Cert.Kernel.Final

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array is an input window's: no point writes it back, so after the last point it holds what it
    held at launch. -/
theorem final_x (c : Dev nD) :
    (dats (F := F) m ρ 0 c).arrAt (0 : Fin 2) cfg0.N = m ((c.tc : Thread nD τ).loc main_arg0) :=
  (dats (F := F) m ρ 0 c).arrAt_in (0 : Fin 2) rfl _

/-- The result array is written back at the one point, its one block covering it: read through that block it
    holds what the body left in the staging buffer. -/
theorem final_o_read (c : Dev nD) :
    ((cfg0.win (1 : Fin 2)).blk t₀).view.read (Elt F) ((dats (F := F) m ρ 0 c).arrAt (1 : Fin 2) cfg0.N) = outAt m ρ c := by
  rw [show cfg0.N = (t₀ : Fin cfg0.N).val + 1 from rfl, (dats (F := F) m ρ 0 c).arrAt_succ (1 : Fin 2) t₀]
  rw [show (cfg0.win (1 : Fin 2)).flush t₀ = true from flush0_1 t₀, if_pos rfl]
  exact View.read_write_univ _ _

/-- The block is the whole array at offsets zero, so reading through it reads the array. -/
theorem final_o (c : Dev nD) :
    (dats (F := F) m ρ 0 c).arrAt (1 : Fin 2) cfg0.N = outAt m ρ c := by
  have ho := final_o_read (F := F) m ρ c
  have hz : (fun a => (win0_1.index t₀) a * main_v1.ty.shape.size a) = fun _ => 0 :=
    funext fun a => by fin_cases a <;> decide
  have hr := fun f => Memref.read_access_unit_zero (Elt F) main_v1 hz (fun a => by fin_cases a <;> decide) f
  rw [hr] at ho
  exact ho

/-- Every weakly fair execution of @main on the four devices terminates without fault; each device's result array
    ends holding its partial plus the three that landed, scaled, and its argument array what it held. -/
theorem kernel_run : θ_run defs (onTc (τ := τ) (main (F := F))) ⟨m, fun _ => 0, ρ⟩ (fun r => ∀ c : Dev nD,
    r.2.mem ((c.tc : Thread nD τ).loc main_v1) = outAt m ρ c ∧ r.2.mem ((c.tc : Thread nD τ).loc main_arg0) = m ((c.tc : Thread nD τ).loc main_arg0)) :=
  (θ_run defs _ _).mono
    (fun _ h c => ⟨(h c (1 : Fin 2)).trans (final_o m ρ c), (h c (0 : Fin 2)).trans (final_x m ρ c)⟩)
    (Cert.Kernel.Launch.run_main (F := F) m ρ)

/-- info: 'Cert.Kernel.Final.kernel_run' depends on axioms: [propext, Classical.choice, Quot.sound] -/
#guard_msgs in #print axioms kernel_run

end Cert.Kernel.Final

end
-- ==== Proof.Math.lean ====
/-
  The value mathematics of the four-device mean, at the ideal instance (floats are extended reals).

  Device c's partial at column j is the sum over its 1536 rows of its block of x; the kernel's result at (0, j) is
  the sum of the four partials, in the order own, three places on, one place on, two places on, times 1/6144; the
  four devices c, c+3, c+1, c+2 are all four, the four blocks of 1536 rows are the 6144 rows of the whole array, and
  the reference's quotient by the real 6144 is the product with 1/6144.
-/
import proofs.«900945_g7700000000000946_dist_mean_ax0_shard0_i_m1536_n768_v7x_i4_f32_1_alg».proof.Proof.Proto
import proofs.«900945_g7700000000000946_dist_mean_ax0_shard0_i_m1536_n768_v7x_i4_f32_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Math

open Cert.KernelIdeal Cert.KernelIdeal.Gen Cert.KernelIdeal.Proto

open Idealize.ShloMosaic
open Idealize.ShloMosaic.TcCoe
open Idealize.ShloMosaic.ValueIdx
open Idealize.SL.Sem

/-! ## The constants -/

/-- The named reciprocal is the rational 1/6144. -/
theorem inv_count : Named.named (F := Ideal) κ "inv_count" (φ := .f32) 0x392AAAAB#32 = ((1 / 6144 : ℝ) : EReal) :=
  IdealRules.named_const.ideal_named_scalar _ _ _ _ rfl

/-- The pattern of 6144.0 denotes the real 6144. -/
theorem ofBits_6144 : Ideal.ofBits .f32 0x45C00000#32 = ((6144 : ℝ) : EReal) := by
  simp [Ideal.ofBits, Ideal.ieee, -EReal.coe_mul]; norm_num

/-! ## Sums -/

/-- A sum over 6144 rows is the sum over four blocks of 1536 rows. -/
theorem sum_four_blocks (g : ℕ → EReal) :
    ∑ k : Fin 6144, g k.val = ∑ d : Fin 4, ∑ r : Fin 1536, g (d.val * 1536 + r.val) := by
  show ∑ k : Fin (4 * 1536), g k.val = _
  rw [← Equiv.sum_comp (finProdFinEquiv (m := 4) (n := 1536)) (fun k : Fin (4 * 1536) => g k.val), Fintype.sum_prod_type]
  refine Finset.sum_congr rfl fun d _ => Finset.sum_congr rfl fun r _ => ?_
  show g ((finProdFinEquiv (d, r)).val) = _
  rw [finProdFinEquiv_apply_val]
  exact congrArg g (by show r.val + 1536 * d.val = d.val * 1536 + r.val; omega)

/-- The devices c, c+3, c+1, c+2 are the four devices. -/
theorem sum_four_devices (P : Dev nD → EReal) (c : Dev nD) :
    ((P c + P (fwd 3 c)) + P (fwd 1 c)) + P (fwd 2 c) = ∑ d : Fin 4, P d := by
  rw [Fin.sum_univ_four]
  have h : c = 0 ∨ c = 1 ∨ c = 2 ∨ c = 3 := by revert c; decide
  rcases h with rfl | rfl | rfl | rfl
  · show ((P 0 + P 3) + P 1) + P 2 = _; ac_rfl
  · show ((P 1 + P 0) + P 2) + P 3 = _; ac_rfl
  · show ((P 2 + P 1) + P 3) + P 0 = _; ac_rfl
  · show ((P 3 + P 2) + P 0) + P 1 = _; ac_rfl

/-! ## The values as extended reals -/

variable (m : (ℓ : Loc nD τ sig) → Buf (Elt Ideal) ℓ) (ρ : Dev nD → PrngReg)

/-- Device d's staged block at (r, j). -/
def xE (d : Dev nD) (r : Fin 1536) (j : Fin 768) : EReal := xstg (F := Ideal) m ρ d (ix2 r j)
/-- Device d's partial at column j. -/
def pE (d : Dev nD) (j : Fin 768) : EReal := part (F := Ideal) m ρ d (ix2 (0 : Fin 1) j)
/-- The kernel's result on device c at column j. -/
def oE (c : Dev nD) (j : Fin 768) : EReal := outAt (F := Ideal) m ρ c (ix2 (0 : Fin 1) j)
/-- The whole array at (k, j). -/
def wE (X : (⟨⟨2, ![6144, 768]⟩, .f32⟩ : BufTy).Contents (Elt Ideal)) (k : Fin 6144) (j : Fin 768) : EReal := X (ix2 k j)
/-- The reference's result at column j. -/
def rE (X : (⟨⟨2, ![6144, 768]⟩, .f32⟩ : BufTy).Contents (Elt Ideal)) (j : Fin 768) : EReal :=
  Cert.ReferenceIdeal.Read.val_main_v3 (F := Ideal) X (ix2 (0 : Fin 1) j)

/-! ## The kernel's side -/

/-- A device's staged block is its argument array. -/
theorem xstg_eq (c : Dev nD) : xstg (F := Ideal) m ρ c = m ((c : Thread nD τ).loc main_arg0) := by
  unfold xstg st₀
  exact Memref.read_access_unit_zero (Elt Ideal) main_arg0 (funext fun a => Nat.zero_mul _) _ _

/-- A device's partial at column j: the sum of its block's column. -/
theorem pE_eq (c : Dev nD) (j : Fin 768) : pE m ρ c j = ∑ r : Fin 1536, xE m ρ c r j := by
  unfold pE part k0_pay1
  dsimp only
  rw [shapeCast_self, shapeCast_a_1a_apply, shapeCast_self]
  refine (Ideal.multiReduction_add_single (xstg (F := Ideal) m ρ c) _ reduces_S1536x768_S768 _ _ (ix1 j)).trans ?_
  refine Finset.sum_congr rfl fun r _ => ?_
  unfold xE
  refine congrArg _ (funext fun a => ?_)
  match a with
  | ⟨0, _⟩ => rfl
  | ⟨1, _⟩ => rfl

/-- The kernel's result at column j. -/
theorem oE_eq (c : Dev nD) (j : Fin 768) :
    oE m ρ c j = (((pE m ρ c j + pE m ρ (fwd 3 c) j) + pE m ρ (fwd 1 c) j) + pE m ρ (fwd 2 c) j) * ((1 / 6144 : ℝ) : EReal) := by
  unfold oE outAt k0_pay2
  rw [mulf_apply, addf_apply, addf_apply, addf_apply, broadcast_apply, inv_count,
    shapeCast_1ab_ab_apply, shapeCast_1ab_ab_apply, shapeCast_1ab_ab_apply]
  rfl

/-! ## A block at an index -/

/-- Row r of block c is row 1536 c + r of the whole array. -/
theorem block_apply_rows (X : (⟨⟨2, ![6144, 768]⟩, .f32⟩ : BufTy).Contents (Elt Ideal)) (c : Fin 4) (r : Fin 1536) (j : Fin 768) :
    (Layout.block ⟨2, ![1536, 768]⟩ ⟨2, ![6144, 768]⟩ 0 4 c X) (ix2 r j)
      = wE X (⟨c.val * 1536 + r.val, by omega⟩ : Fin 6144) j := by
  rw [Layout.block_apply]
  unfold wE
  refine congrArg X (funext fun a => ?_)
  match a with
  | ⟨0, _⟩ => rfl
  | ⟨1, _⟩ => rfl

/-! ## The reference's side -/

/-- The reference's result at column j. -/
theorem rE_eq (X : (⟨⟨2, ![6144, 768]⟩, .f32⟩ : BufTy).Contents (Elt Ideal)) (j : Fin 768) :
    rE X j = (∑ k : Fin 6144, wE X k j) * ((1 / 6144 : ℝ) : EReal) := by
  unfold rE
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply,
    Ideal.hostDivf_def, Ideal.ofBits_def, Ideal.ofBits_def, Ideal.ofBits_zero_f32, ofBits_6144,
    Ideal.div_coe (by norm_num : (6144 : ℝ) ≠ 0), zero_add]
  refine congrArg (· * _) (Finset.sum_congr rfl fun k _ => ?_)
  unfold wE
  refine congrArg X (funext fun a => ?_)
  match a with
  | ⟨0, _⟩ => rfl
  | ⟨1, _⟩ => rfl

/-! ## The two agree -/

theorem outAt_eq_ref (X : (⟨⟨2, ![6144, 768]⟩, .f32⟩ : BufTy).Contents (Elt Ideal))
    (hblk : ∀ c : Dev nD, m ((c.tc : Thread nD τ).loc main_arg0) = Layout.block ⟨2, ![1536, 768]⟩ ⟨2, ![6144, 768]⟩ 0 4 c X) (c : Dev nD) :
    outAt (F := Ideal) m ρ c = Cert.ReferenceIdeal.Read.val_main_v3 (F := Ideal) X := by
  funext i
  obtain ⟨a, j, rfl⟩ : ∃ (a : Fin 1) (j : Fin 768), i = ix2 a j := ⟨i 0, i 1, eq_ix2 i⟩
  obtain rfl : a = 0 := Subsingleton.elim _ _
  show oE m ρ c j = rE X j
  rw [oE_eq, rE_eq]
  refine congrArg (· * _) ?_
  have hx : ∀ (d : Dev nD) (r : Fin 1536), xE m ρ d r j = wE X (⟨d.val * 1536 + r.val, by have hd : d.val < 4 := d.isLt; omega⟩ : Fin 6144) j := by
    intro d r
    unfold xE
    rw [xstg_eq]
    exact (congrFun (hblk d) (ix2 r j)).trans (block_apply_rows X d r j)
  refine (sum_four_devices (fun d => pE m ρ d j) c).trans ?_
  have hs := sum_four_blocks (fun k => if h : k < 6144 then wE X (⟨k, h⟩ : Fin 6144) j else 0)
  have hl : ∑ k : Fin 6144, wE X k j
      = ∑ k : Fin 6144, (fun k => if h : k < 6144 then wE X (⟨k, h⟩ : Fin 6144) j else 0) k.val :=
    Finset.sum_congr rfl fun k _ => by simp only [k.isLt, dite_true]
  rw [hl, hs]
  refine Finset.sum_congr rfl fun d _ => ?_
  rw [pE_eq]
  refine Finset.sum_congr rfl fun r _ => ?_
  have hlt : d.val * 1536 + r.val < 6144 := by have := d.isLt; have := r.isLt; omega
  rw [hx d r]
  simp only [hlt, dite_true]

/-- info: 'Cert.KernelIdeal.Math.outAt_eq_ref' depends on axioms: [propext, Classical.choice, Quot.sound] -/
#guard_msgs in #print axioms outAt_eq_ref

end Cert.KernelIdeal.Math

end
-- ==== Proof.lean ====
/- The mean over the rows of x on four devices against the mean on one: each device adds its own 1536 rows, the four
   partial sums meet on every device, and their sum times the named 1/6144 is the sum of all 6144 rows divided by 6144. -/
import proofs.«900945_g7700000000000946_dist_mean_ax0_shard0_i_m1536_n768_v7x_i4_f32_1_alg».proof.Defs
import proofs.«900945_g7700000000000946_dist_mean_ax0_shard0_i_m1536_n768_v7x_i4_f32_1_alg».proof.Proof.Gen.Kernel
import proofs.«900945_g7700000000000946_dist_mean_ax0_shard0_i_m1536_n768_v7x_i4_f32_1_alg».proof.Proof.Gen.Kernel.Skeleton
import proofs.«900945_g7700000000000946_dist_mean_ax0_shard0_i_m1536_n768_v7x_i4_f32_1_alg».proof.Proof.Gen.Kernel.Launch
import proofs.«900945_g7700000000000946_dist_mean_ax0_shard0_i_m1536_n768_v7x_i4_f32_1_alg».proof.Proof.Gen.Kernel.Points
import proofs.«900945_g7700000000000946_dist_mean_ax0_shard0_i_m1536_n768_v7x_i4_f32_1_alg».proof.Proof.Gen.Kernel.Frame
import proofs.«900945_g7700000000000946_dist_mean_ax0_shard0_i_m1536_n768_v7x_i4_f32_1_alg».proof.Proof.Gen.KernelIdeal
import proofs.«900945_g7700000000000946_dist_mean_ax0_shard0_i_m1536_n768_v7x_i4_f32_1_alg».proof.Proof.Gen.KernelIdeal.Skeleton
import proofs.«900945_g7700000000000946_dist_mean_ax0_shard0_i_m1536_n768_v7x_i4_f32_1_alg».proof.Proof.Gen.KernelIdeal.Launch
import proofs.«900945_g7700000000000946_dist_mean_ax0_shard0_i_m1536_n768_v7x_i4_f32_1_alg».proof.Proof.Gen.KernelIdeal.Points
import proofs.«900945_g7700000000000946_dist_mean_ax0_shard0_i_m1536_n768_v7x_i4_f32_1_alg».proof.Proof.Gen.KernelIdeal.Frame
import proofs.«900945_g7700000000000946_dist_mean_ax0_shard0_i_m1536_n768_v7x_i4_f32_1_alg».proof.Proof.Gen.ReferenceIdeal
import proofs.«900945_g7700000000000946_dist_mean_ax0_shard0_i_m1536_n768_v7x_i4_f32_1_alg».proof.Proof.Gen.Pre_finite_inputs_Kernel
import proofs.«900945_g7700000000000946_dist_mean_ax0_shard0_i_m1536_n768_v7x_i4_f32_1_alg».proof.Proof.Gen.Pre_finite_inputs_ReferenceIdeal
import proofs.«900945_g7700000000000946_dist_mean_ax0_shard0_i_m1536_n768_v7x_i4_f32_1_alg».proof.Proof.Gen.ReferenceIdeal.Run
import proofs.«900945_g7700000000000946_dist_mean_ax0_shard0_i_m1536_n768_v7x_i4_f32_1_alg».proof.Proof.Gen.ReferenceIdeal.Read
import proofs.«900945_g7700000000000946_dist_mean_ax0_shard0_i_m1536_n768_v7x_i4_f32_1_alg».proof.Proof.Final
import proofs.«900945_g7700000000000946_dist_mean_ax0_shard0_i_m1536_n768_v7x_i4_f32_1_alg».proof.Proof.KFinal
import proofs.«900945_g7700000000000946_dist_mean_ax0_shard0_i_m1536_n768_v7x_i4_f32_1_alg».proof.Proof.Math
import Idealize.ShloMosaic.Adequacy
import Idealize.ShloMosaic.Init

noncomputable section

namespace Cert.Proof

open Idealize.ShloMosaic Idealize.SL.Sem

/-- The word-level program runs and leaves each device's block of x as it was: its run with the result dropped. -/
theorem frame_Kernel : Cert.frame_Kernel := fun m ρ _ =>
  (θ_run _ _ _).mono (fun _ h c => (h c).2) (Cert.Kernel.Final.kernel_run (F := Bits) m ρ)

/-- The same of the program over the extended reals. -/
theorem frame_KernelIdeal : Cert.frame_KernelIdeal := fun m ρ _ =>
  (θ_run _ _ _).mono (fun _ h c => (h c).2) (Cert.KernelIdeal.Final.kernel_run (F := Ideal) m ρ)

/-- The one-device mean runs and leaves the whole x as it was. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The named constant: the table gives "inv_count" the value 1/6144, and the printed constant is that value over the
    extended reals. -/
theorem preserves : Cert.preserves_Kernel_KernelIdeal :=
  IdealRules.named_const.statement Cert.KernelIdeal.κ "inv_count" .f32 0x392AAAAB#32 ((1 / 6144 : ℝ) : EReal) rfl

/-- Over the extended reals every device's result is the column means of the whole x: the value is the reference's
    own last stage at the whole array; each device's sum of the four partials, scaled by 1/6144, equals it, and the
    reference's run ends at it. -/
theorem algebraic : Cert.algebraic_KernelIdeal_ReferenceIdeal := by
  intro m ρ m' ρ' _ hagree
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.KernelIdeal.Math.outAt_eq_ref (m := m) (ρ := ρ) (hblk := hagree) (c := c)), (h c).2⟩)
      (Cert.KernelIdeal.Final.kernel_run (F := Ideal) m ρ)
  · exact (θ_run Cert.ReferenceIdeal.defs _ _).mono
      (fun _ h => ⟨(h 0).1.trans (Cert.ReferenceIdeal.Read.val_main_v3_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, preserves, algebraic⟩

end Cert.Proof

end
